-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S992x512 .f32 .bf16
  ∧ IdealRules.truncf_extf.Statement Cert.KernelIdeal.S992x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x1024x512 : Shape := ⟨3, ![32, 1024, 512]⟩
abbrev S32x992 : Shape := ⟨2, ![32, 992]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S32x992 : S_.BroadcastsInDim S32x992 (![] : Fin 0 → Fin S32x992.rank)
  reducesTo_S32x992_S_d0_1 : S32x992.ReducesTo [0, 1] S_

variable [Facts]

def fn_part1 {F : FTy → Type} [FloatOps F] (main_arg3 : IVec S32x992 32) (main_arg4 : IVec S32x992 32) (main_v13 : IVec S_ 1) (main_v15 : IVec S32x992 1) (main_c_5 : IVec S_ 32) : IVec S_ 1 :=
  let main_v16 : IVec S32x992 32 := broadcastInDim S32x992 ![] bcast_S_S32x992 main_c_5
  let main_v17 : IVec S32x992 1 := cmpi .slt main_arg3 main_v16
  let main_v18 : IVec S32x992 1 := andi main_v15 main_v17
  let main_c_6 : IVec S_ 1 := constantI S_ 1 1#1
  let main_v19 : IVec S_ 1 := (fun x v => Host.reduce IntOp.andi x v reducesTo_S32x992_S_d0_1 h_S_) main_v18 main_c_6
  let main_v20 : IVec S_ 1 := andi main_v13 main_v19
  let main_c_7 : IVec S_ 32 := constantI S_ 32 0#32
  let main_v21 : IVec S32x992 32 := broadcastInDim S32x992 ![] bcast_S_S32x992 main_c_7
  let main_v22 : IVec S32x992 1 := cmpi .sge main_arg4 main_v21
  let main_c_8 : IVec S_ 32 := constantI S_ 32 512#32
  let main_v23 : IVec S32x992 32 := broadcastInDim S32x992 ![] bcast_S_S32x992 main_c_8
  let main_v24 : IVec S32x992 1 := cmpi .slt main_arg4 main_v23
  let main_v25 : IVec S32x992 1 := andi main_v22 main_v24
  let main_c_9 : IVec S_ 1 := constantI S_ 1 1#1
  let main_v26 : IVec S_ 1 := (fun x v => Host.reduce IntOp.andi x v reducesTo_S32x992_S_d0_1 h_S_) main_v25 main_c_9
  let main_v27 : IVec S_ 1 := andi main_v20 main_v26
  main_v27

def fn {F : FTy → Type} [FloatOps F] (main_arg0 : FVec F S32x512x512 .f32) (main_arg1 : FVec F S32x512x512 .f32) (main_arg2 : FVec F S32x1024x512 .f32) (main_arg3 : IVec S32x992 32) (main_arg4 : IVec S32x992 32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S32x1024x512 .f32 := Host.absf main_arg2
  let main_cst_2 : FVec F S_ .f32 := constant S_ .f32 0x7F800000#32
  let main_v10 : FVec F S32x1024x512 .f32 := broadcastInDim S32x1024x512 ![] bcast_S_S32x1024x512 main_cst_2
  let main_v11 : IVec S32x1024x512 1 := cmpf .olt main_v9 main_v10
  let main_c_3 : IVec S_ 1 := constantI S_ 1 1#1
  let main_v12 : IVec S_ 1 := (fun x v => Host.reduce IntOp.andi x v reducesTo_S32x1024x512_S_d0_1_2 h_S_) main_v11 main_c_3
  let main_v13 : IVec S_ 1 := andi main_v8 main_v12
  let main_c_4 : IVec S_ 32 := constantI S_ 32 0#32
  let main_v14 : IVec S32x992 32 := broadcastInDim S32x992 ![] bcast_S_S32x992 main_c_4
  let main_v15 : IVec S32x992 1 := cmpi .sge main_arg3 main_v14
  let main_c_5 : IVec S_ 32 := constantI S_ 32 512#32
  fn_part1 (F := F) main_arg3 main_arg4 main_v13 main_v15 main_c_5
-- ==== Kernel.lean ====
abbrev S32x512x512 : Shape := ⟨3, ![32, 512, 512]⟩
abbrev S32x1024x512 : Shape := ⟨3, ![32, 1024, 512]⟩
abbrev S32x992 : Shape := ⟨2, ![32, 992]⟩
abbrev S32x1x992 : Shape := ⟨3, ![32, 1, 992]⟩
abbrev S32x8x128 : Shape := ⟨3, ![32, 8, 128]⟩
abbrev S1x512x512 : Shape := ⟨3, ![1, 512, 512]⟩
abbrev S1x1024x512 : Shape := ⟨3, ![1, 1024, 512]⟩
abbrev S1x1x992 : Shape := ⟨3, ![1, 1, 992]⟩
abbrev S1x8x128 : Shape := ⟨3, ![1, 8, 128]⟩
abbrev S992 : Shape := ⟨1, ![992]⟩
abbrev S512x512 : Shape := ⟨2, ![512, 512]⟩
abbrev S1x992x512 : Shape := ⟨3, ![1, 992, 512]⟩
abbrev S992x512 : Shape := ⟨2, ![992, 512]⟩
abbrev S992x1 : Shape := ⟨2, ![992, 1]⟩
abbrev S1 : Shape := ⟨1, ![1]⟩
abbrev S1x1 : Shape := ⟨2, ![1, 1]⟩
abbrev S512 : Shape := ⟨1, ![512]⟩
abbrev S1x512 : Shape := ⟨2, ![1, 512]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 38
  | .vmem => 18
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x1024x512, .f32⟩
  | .hbm, ⟨3, _⟩ => ⟨S32x992, .i32⟩
  | .hbm, ⟨4, _⟩ => ⟨S32x992, .i32⟩
  | .hbm, ⟨5, _⟩ => ⟨S32x1x992, .i32⟩
  | .hbm, ⟨6, _⟩ => ⟨S32x1x992, .i32⟩
  | .hbm, ⟨7, _⟩ => ⟨S32x8x128, .f32⟩
  | .hbm, ⟨8, _⟩ => ⟨S32x8x128, .f32⟩
  | .hbm, ⟨9, _⟩ => ⟨S32x8x128, .f32⟩
  | .hbm, ⟨10, _⟩ => ⟨S32x8x128, .f32⟩
  | .hbm, ⟨11, _⟩ => ⟨S32x1x1, .f32⟩
  | .hbm, ⟨12, _⟩ => ⟨S32, .f32⟩
  | .hbm, ⟨13, _⟩ => ⟨S32x1x1, .f32⟩
  | .hbm, ⟨14, _⟩ => ⟨S32, .f32⟩
  | .hbm, ⟨15, _⟩ => ⟨S32x1x1, .f32⟩
  | .hbm, ⟨16, _⟩ => ⟨S32, .f32⟩
  | .hbm, ⟨17, _⟩ => ⟨S32x1x1, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1x992, .i32⟩
  | .local _ .vmem, ⟨7, _⟩ => ⟨S1x1x992, .i32⟩
  | .local _ .vmem, ⟨8, _⟩ => ⟨S1x1x992, .i32⟩
  | .local _ .vmem, ⟨9, _⟩ => ⟨S1x1x992, .i32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x992 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x992 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x992_S32x1x992 : S32x992.ShapeCasts S32x1x992
  inb_S1x1x992_S1x1x992_0_0_0 : ∀ a, (![0, 0, 0] : Fin 3 → Nat) a + S1x1x992.size a ≤ S1x1x992.size a
  h_S1x1x992 : 0 < S1x1x992.numel
  shapeCasts_S1x1x992_S992 : S1x1x992.ShapeCasts S992
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x992x512_0_32_0 : ∀ a, (![0, 32, 0] : Fin 3 → Nat) a + S1x992x512.size a ≤ S1x1024x512.size a
  h_S1x992x512 : 0 < S1x992x512.numel
  shapeCasts_S1x992x512_S992x512 : S1x992x512.ShapeCasts S992x512
  iota_S992x512_d1_w32 : S992x512.Iotas .tc 32 [1]
  shapeCasts_S992_S992x1 : S992.ShapeCasts S992x1
  broadcasts_S992x1_S992x512 : S992x1.Broadcasts S992x512
  natLt_1_32 : 1 < 32
  bitsLt_bf16_f32 : FTy.bits .bf16 < FTy.bits .f32
  reduces_S992x512_S992 : S992x512.Reduces [1] S992
  reduces_S992x1_S1 : S992x1.Reduces [0] S1
  shapeCasts_S1_S1x1 : S1.ShapeCasts S1x1
  iota_S512x512_d0_w32 : S512x512.Iotas .tc 32 [0]
  iota_S512x512_d1_w32 : S512x512.Iotas .tc 32 [1]
  reduces_S512x512_S512 : S512x512.Reduces [1] S512
  shapeCasts_S512_S1x512 : S512.ShapeCasts S1x512
  broadcasts_S1x512_S992x512 : S1x512.Broadcasts S992x512
  broadcasts_S1x1_S992x1 : S1x1.Broadcasts S992x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S992x512_S512x512_S992x512_1_1_0_0_n_n_wf : DotDims.WF S992x512 S512x512 S992x512 [1] [1] [0] [0] [] []
  dot_S992x512_S512x512_S992x512_1_0_0_1_n_n_wf : DotDims.WF S992x512 S512x512 S992x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .f32 = 32 ∨ (Rect.block (s := S32x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x992.size a ≤ S32x1x992.size a
  hwx0_3 : ∀ i : grid0.Coords, EltTy.bits .i32 = 32 ∨ (Rect.block (s := S32x1x992) S1x1x992.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x992.size a ≤ S32x1x992.size a
  hwx0_4 : ∀ i : grid0.Coords, EltTy.bits .i32 = 32 ∨ (Rect.block (s := S32x1x992) S1x1x992.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S32x8x128.size a
  hwx0_6 : ∀ i : grid0.Coords, EltTy.bits .f32 = 32 ∨ (Rect.block (s := S32x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S32x8x128.size a
  hwx0_7 : ∀ i : grid0.Coords, EltTy.bits .f32 = 32 ∨ (Rect.block (s := S32x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S32x8x128.size a
  hwx0_8 : ∀ i : grid0.Coords, EltTy.bits .f32 = 32 ∨ (Rect.block (s := S32x8x128) S1x8x128.size (cc0_transform_8 i) (hinb0_8 i)).WholeWords (EltTy.packing .f32)

variable [Facts₀]

def dot_S992x512_S512x512_S992x512_1_1_0_0_n_n : DotDims S992x512 S512x512 S992x512 where
  lhsContracting := [1]
  rhsContracting := [1]
  lhsNonContracting := [0]
  rhsNonContracting := [0]
  lhsBatch := []
  rhsBatch := []
  wf := dot_S992x512_S512x512_S992x512_1_1_0_0_n_n_wf
def dot_S992x512_S512x512_S992x512_1_0_0_1_n_n : DotDims S992x512 S512x512 S992x512 where
  lhsContracting := [1]
  rhsContracting := [0]
  lhsNonContracting := [0]
  rhsNonContracting := [1]
  lhsBatch := []
  rhsBatch := []
  wf := dot_S992x512_S512x512_S992x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x992.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x992.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_3) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x1024x512 : Shape := ⟨3, ![32, 1024, 512]⟩
abbrev S32x992 : Shape := ⟨2, ![32, 992]⟩
abbrev S32x992x512 : Shape := ⟨3, ![32, 992, 512]⟩
abbrev S_ : Shape := ⟨0, ![]⟩
abbrev S32x992x1 : Shape := ⟨3, ![32, 992, 1]⟩
abbrev S1x1x512 : Shape := ⟨3, ![1, 1, 512]⟩
abbrev S1 : Shape := ⟨1, ![1]⟩
abbrev S1x1x1 : Shape := ⟨3, ![1, 1, 1]⟩
abbrev S32 : Shape := ⟨1, ![32]⟩
abbrev S32x992x1x1 : Shape := ⟨4, ![32, 992, 1, 1]⟩
abbrev S1x1x1x1 : Shape := ⟨4, ![1, 1, 1, 1]⟩
abbrev S512 : Shape := ⟨1, ![512]⟩
abbrev S512x1 : Shape := ⟨2, ![512, 1]⟩
abbrev S512x2 : Shape := ⟨2, ![512, 2]⟩
abbrev S32x512 : Shape := ⟨2, ![32, 512]⟩
abbrev S32x1x1 : Shape := ⟨3, ![32, 1, 1]⟩
abbrev S32x1x512 : Shape := ⟨3, ![32, 1, 512]⟩

abbrev nBuf : Space → Nat
  | .hbm => 306
  | .vmem => 0
  | .smem => 0
  | _ => 0

abbrev hbmTy0_0 (i : Nat) : BufTy := match i % 128 with
  | 0 => ⟨S32x512x512, .f32⟩
  | 1 => ⟨S32x512x512, .f32⟩
  | 2 => ⟨S32x1024x512, .f32⟩
  | 3 => ⟨S32x992, .i32⟩
  | 4 => ⟨S32x992, .i32⟩
  | 5 => ⟨S32x992x512, .f32⟩
  | 6 => ⟨S_, .f32⟩
  | 7 => ⟨S32x992, .f32⟩
  | 8 => ⟨S_, .f32⟩
  | 9 => ⟨S32x992, .f32⟩
  | 10 => ⟨S32x992, .f32⟩
  | 11 => ⟨S32x992x1, .f32⟩
  | 12 => ⟨S32x992x512, .f32⟩
  | 13 => ⟨S32x992x512, .f32⟩
  | 14 => ⟨S32x992x512, .f32⟩
  | 15 => ⟨S_, .f32⟩
  | 16 => ⟨S32x992, .f32⟩
  | 17 => ⟨S32x992x1, .f32⟩
  | 18 => ⟨S32x992x1, .f32⟩
  | 19 => ⟨S32x992x512, .f32⟩
  | 20 => ⟨S32x992x512, .f32⟩
  | 21 => ⟨S32x992x512, .f32⟩
  | 22 => ⟨S32x992x1, .i32⟩
  | 23 => ⟨S1x1x512, .i32⟩
  | 24 => ⟨S32x992x512, .i32⟩
  | 25 => ⟨S32x992x512, .i32⟩
  | 26 => ⟨S32x992x512, .i1⟩
  | 27 => ⟨S32x992x512, .f32⟩
  | 28 => ⟨S_, .f32⟩
  | 29 => ⟨S32x992x512, .f32⟩
  | 30 => ⟨S32x992x512, .f32⟩
  | 31 => ⟨S32x512x512, .f32⟩
  | 32 => ⟨S32x992x1, .i32⟩
  | 33 => ⟨S_, .i32⟩
  | 34 => ⟨S32x992x1, .i32⟩
  | 35 => ⟨S32x992x1, .i1⟩
  | 36 => ⟨S_, .i32⟩
  | 37 => ⟨S32x992x1, .i32⟩
  | 38 => ⟨S32x992x1, .i32⟩
  | 39 => ⟨S32x992x1, .i32⟩
  | 40 => ⟨S1, .i32⟩
  | 41 => ⟨S_, .i32⟩
  | 42 => ⟨S32x992x1, .i32⟩
  | 43 => ⟨S32x992x1, .i1⟩
  | 44 => ⟨S1x1x1, .i32⟩
  | 45 => ⟨S32x992x1, .i32⟩
  | 46 => ⟨S32x992x1, .i1⟩
  | 47 => ⟨S32x992x1, .i1⟩
  | 48 => ⟨S_, .i1⟩
  | 49 => ⟨S32x992, .i1⟩
  | 50 => ⟨S32x992x512, .f32⟩
  | 51 => ⟨S32x992x512, .i1⟩
  | 52 => ⟨S_, .f32⟩
  | 53 => ⟨S32x992x512, .f32⟩
  | 54 => ⟨S32x992x512, .f32⟩
  | 55 => ⟨S_, .f32⟩
  | 56 => ⟨S32x992x512, .f32⟩
  | 57 => ⟨S32x992x512, .f32⟩
  | 58 => ⟨S32x512x512, .f32⟩
  | 59 => ⟨S32x992x1, .i32⟩
  | 60 => ⟨S_, .i32⟩
  | 61 => ⟨S32x992x1, .i32⟩
  | 62 => ⟨S32x992x1, .i1⟩
  | 63 => ⟨S_, .i32⟩
  | 64 => ⟨S32x992x1, .i32⟩
  | 65 => ⟨S32x992x1, .i32⟩
  | 66 => ⟨S32x992x1, .i32⟩
  | 67 => ⟨S1, .i32⟩
  | 68 => ⟨S_, .i32⟩
  | 69 => ⟨S32x992x1, .i32⟩
  | 70 => ⟨S32x992x1, .i1⟩
  | 71 => ⟨S1x1x1, .i32⟩
  | 72 => ⟨S32x992x1, .i32⟩
  | 73 => ⟨S32x992x1, .i1⟩
  | 74 => ⟨S32x992x1, .i1⟩
  | 75 => ⟨S_, .i1⟩
  | 76 => ⟨S32x992, .i1⟩
  | 77 => ⟨S32x992x512, .f32⟩
  | 78 => ⟨S32x992x512, .i1⟩
  | 79 => ⟨S_, .f32⟩
  | 80 => ⟨S32x992x512, .f32⟩
  | 81 => ⟨S32x992x512, .f32⟩
  | 82 => ⟨S32x992x512, .f32⟩
  | 83 => ⟨S32x992x512, .f32⟩
  | 84 => ⟨S32x992x512, .f32⟩
  | 85 => ⟨S32x992x512, .f32⟩
  | 86 => ⟨S_, .f32⟩
  | 87 => ⟨S32, .f32⟩
  | 88 => ⟨S32x992x1, .i32⟩
  | 89 => ⟨S_, .i32⟩
  | 90 => ⟨S32x992x1, .i32⟩
  | 91 => ⟨S32x992x1, .i1⟩
  | 92 => ⟨S_, .i32⟩
  | 93 => ⟨S32x992x1, .i32⟩
  | 94 => ⟨S32x992x1, .i32⟩
  | 95 => ⟨S32x992x1, .i32⟩
  | 96 => ⟨S1, .i32⟩
  | 97 => ⟨S_, .i32⟩
  | 98 => ⟨S32x992x1, .i32⟩
  | 99 => ⟨S32x992x1, .i1⟩
  | 100 => ⟨S1x1x1, .i32⟩
  | 101 => ⟨S32x992x1, .i32⟩
  | 102 => ⟨S32x992x1, .i1⟩
  | 103 => ⟨S32x992x1, .i1⟩
  | 104 => ⟨S_, .i1⟩
  | 105 => ⟨S32x992, .i1⟩
  | 106 => ⟨S32x992x512, .f32⟩
  | 107 => ⟨S32x992x512, .i1⟩
  | 108 => ⟨S_, .f32⟩
  | 109 => ⟨S32x992x512, .f32⟩
  | 110 => ⟨S32x992x512, .f32⟩
  | 111 => ⟨S32x992x1, .i32⟩
  | 112 => ⟨S_, .i32⟩
  | 113 => ⟨S32x992x1, .i32⟩
  | 114 => ⟨S32x992x1, .i1⟩
  | 115 => ⟨S_, .i32⟩
  | 116 => ⟨S32x992x1, .i32⟩
  | 117 => ⟨S32x992x1, .i32⟩
  | 118 => ⟨S32x992x1, .i32⟩
  | 119 => ⟨S32x992x1x1, .i32⟩
  | 120 => ⟨S1, .i32⟩
  | 121 => ⟨S_, .i32⟩
  | 122 => ⟨S32x992x1x1, .i32⟩
  | 123 => ⟨S32x992x1x1, .i1⟩
  | 124 => ⟨S1x1x1x1, .i32⟩
  | 125 => ⟨S32x992x1x1, .i32⟩
  | 126 => ⟨S32x992x1x1, .i1⟩
  | 127 => ⟨S32x992x1x1, .i1⟩
  | _ => ⟨S32x512x512, .f32⟩

abbrev hbmTy0_1 (i : Nat) : BufTy := match i % 128 with
  | 0 => ⟨S_, .i1⟩
  | 1 => ⟨S32x992x1, .i1⟩
  | 2 => ⟨S32x992x1, .f32⟩
  | 3 => ⟨S_, .f32⟩
  | 4 => ⟨S32x992x1, .f32⟩
  | 5 => ⟨S32x992x1, .f32⟩
  | 6 => ⟨S32x992, .f32⟩
  | 7 => ⟨S_, .f32⟩
  | 8 => ⟨S32x992, .f32⟩
  | 9 => ⟨S32x992, .f32⟩
  | 10 => ⟨S32x512x512, .f32⟩
  | 11 => ⟨S32x992x1, .i32⟩
  | 12 => ⟨S_, .i32⟩
  | 13 => ⟨S32x992x1, .i32⟩
  | 14 => ⟨S32x992x1, .i1⟩
  | 15 => ⟨S_, .i32⟩
  | 16 => ⟨S32x992x1, .i32⟩
  | 17 => ⟨S32x992x1, .i32⟩
  | 18 => ⟨S32x992x1, .i32⟩
  | 19 => ⟨S1, .i32⟩
  | 20 => ⟨S_, .i32⟩
  | 21 => ⟨S32x992x1, .i32⟩
  | 22 => ⟨S32x992x1, .i1⟩
  | 23 => ⟨S1x1x1, .i32⟩
  | 24 => ⟨S32x992x1, .i32⟩
  | 25 => ⟨S32x992x1, .i1⟩
  | 26 => ⟨S32x992x1, .i1⟩
  | 27 => ⟨S_, .i1⟩
  | 28 => ⟨S32x992, .i1⟩
  | 29 => ⟨S32x992x512, .f32⟩
  | 30 => ⟨S32x992x512, .i1⟩
  | 31 => ⟨S_, .f32⟩
  | 32 => ⟨S32x992x512, .f32⟩
  | 33 => ⟨S32x992x512, .f32⟩
  | 34 => ⟨S_, .f32⟩
  | 35 => ⟨S32x992x512, .f32⟩
  | 36 => ⟨S32x992x512, .f32⟩
  | 37 => ⟨S32x992x512, .f32⟩
  | 38 => ⟨S32x992x512, .f32⟩
  | 39 => ⟨S_, .f32⟩
  | 40 => ⟨S32x992x512, .f32⟩
  | 41 => ⟨S32x992x512, .f32⟩
  | 42 => ⟨S32x992x512, .f32⟩
  | 43 => ⟨S32x512x512, .f32⟩
  | 44 => ⟨S32x992x1, .i32⟩
  | 45 => ⟨S_, .i32⟩
  | 46 => ⟨S32x992x1, .i32⟩
  | 47 => ⟨S32x992x1, .i1⟩
  | 48 => ⟨S_, .i32⟩
  | 49 => ⟨S32x992x1, .i32⟩
  | 50 => ⟨S32x992x1, .i32⟩
  | 51 => ⟨S32x992x1, .i32⟩
  | 52 => ⟨S1, .i32⟩
  | 53 => ⟨S_, .i32⟩
  | 54 => ⟨S32x992x1, .i32⟩
  | 55 => ⟨S32x992x1, .i1⟩
  | 56 => ⟨S1x1x1, .i32⟩
  | 57 => ⟨S32x992x1, .i32⟩
  | 58 => ⟨S32x992x1, .i1⟩
  | 59 => ⟨S32x992x1, .i1⟩
  | 60 => ⟨S_, .i1⟩
  | 61 => ⟨S32x992, .i1⟩
  | 62 => ⟨S32x992x512, .f32⟩
  | 63 => ⟨S32x992x512, .i1⟩
  | 64 => ⟨S_, .f32⟩
  | 65 => ⟨S32x992x512, .f32⟩
  | 66 => ⟨S32x992x512, .f32⟩
  | 67 => ⟨S32x992x512, .f32⟩
  | 68 => ⟨S32x992x1, .f32⟩
  | 69 => ⟨S32x992x512, .f32⟩
  | 70 => ⟨S32x992x512, .f32⟩
  | 71 => ⟨S32x992x512, .f32⟩
  | 72 => ⟨S32x992x512, .f32⟩
  | 73 => ⟨S_, .f32⟩
  | 74 => ⟨S32, .f32⟩
  | 75 => ⟨S512, .i32⟩
  | 76 => ⟨S512, .i32⟩
  | 77 => ⟨S_, .i32⟩
  | 78 => ⟨S512, .i32⟩
  | 79 => ⟨S512, .i1⟩
  | 80 => ⟨S_, .i32⟩
  | 81 => ⟨S512, .i32⟩
  | 82 => ⟨S512, .i32⟩
  | 83 => ⟨S512, .i32⟩
  | 84 => ⟨S_, .i32⟩
  | 85 => ⟨S512, .i32⟩
  | 86 => ⟨S512, .i1⟩
  | 87 => ⟨S_, .i32⟩
  | 88 => ⟨S512, .i32⟩
  | 89 => ⟨S512, .i32⟩
  | 90 => ⟨S512, .i32⟩
  | 91 => ⟨S512x1, .i32⟩
  | 92 => ⟨S512x1, .i32⟩
  | 93 => ⟨S512x2, .i32⟩
  | 94 => ⟨S32x512, .f32⟩
  | 95 => ⟨S32x512, .f32⟩
  | 96 => ⟨S_, .i32⟩
  | 97 => ⟨S32x992, .i32⟩
  | 98 => ⟨S32x992, .i1⟩
  | 99 => ⟨S_, .i32⟩
  | 100 => ⟨S32x992, .i32⟩
  | 101 => ⟨S32x992, .i32⟩
  | 102 => ⟨S32x992, .i32⟩
  | 103 => ⟨S32x992x1, .i32⟩
  | 104 => ⟨S1, .i32⟩
  | 105 => ⟨S_, .i32⟩
  | 106 => ⟨S32x992x1, .i32⟩
  | 107 => ⟨S32x992x1, .i1⟩
  | 108 => ⟨S1x1x1, .i32⟩
  | 109 => ⟨S32x992x1, .i32⟩
  | 110 => ⟨S32x992x1, .i1⟩
  | 111 => ⟨S32x992x1, .i1⟩
  | 112 => ⟨S_, .i1⟩
  | 113 => ⟨S32x992, .i1⟩
  | 114 => ⟨S32x992, .f32⟩
  | 115 => ⟨S_, .f32⟩
  | 116 => ⟨S32x992, .f32⟩
  | 117 => ⟨S32x992, .f32⟩
  | 118 => ⟨S_, .f32⟩
  | 119 => ⟨S32, .f32⟩
  | 120 => ⟨S32x1x1, .f32⟩
  | 121 => ⟨S32x992x1, .f32⟩
  | 122 => ⟨S32x992x1, .f32⟩
  | 123 => ⟨S32x992x1, .f32⟩
  | 124 => ⟨S32x1x512, .f32⟩
  | 125 => ⟨S32x992x512, .f32⟩
  | 126 => ⟨S32x992x512, .f32⟩
  | 127 => ⟨S32x992x512, .f32⟩
  | _ => ⟨S32x512x512, .f32⟩

abbrev hbmTy0_2 (i : Nat) : BufTy := match i % 128 with
  | 0 => ⟨S32x992x512, .f32⟩
  | 1 => ⟨S32x992x512, .f32⟩
  | 2 => ⟨S32x992x1, .f32⟩
  | 3 => ⟨S32x992x512, .f32⟩
  | 4 => ⟨S32x992x512, .f32⟩
  | 5 => ⟨S32x992x512, .f32⟩
  | 6 => ⟨S_, .f32⟩
  | 7 => ⟨S32, .f32⟩
  | 8 => ⟨S32, .f32⟩
  | 9 => ⟨S32, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S32x992x1, .i32⟩
  | 20 => ⟨S_, .i32⟩
  | 21 => ⟨S32x992x1, .i32⟩
  | 22 => ⟨S32x992x1, .i1⟩
  | 23 => ⟨S_, .i32⟩
  | 24 => ⟨S32x992x1, .i32⟩
  | 25 => ⟨S32x992x1, .i32⟩
  | 26 => ⟨S32x992x1, .i32⟩
  | 27 => ⟨S32x992x1x1, .i32⟩
  | 28 => ⟨S1, .i32⟩
  | 29 => ⟨S_, .i32⟩
  | 30 => ⟨S32x992x1x1, .i32⟩
  | 31 => ⟨S32x992x1x1, .i1⟩
  | 32 => ⟨S1x1x1x1, .i32⟩
  | 33 => ⟨S32x992x1x1, .i32⟩
  | 34 => ⟨S32x992x1x1, .i1⟩
  | 35 => ⟨S32x992x1x1, .i1⟩
  | 36 => ⟨S_, .i1⟩
  | 37 => ⟨S32x992x1, .i1⟩
  | 38 => ⟨S32x992x1, .f32⟩
  | 39 => ⟨S_, .f32⟩
  | 40 => ⟨S32x992x1, .f32⟩
  | 41 => ⟨S32x992x1, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S32x512x512, .f32⟩

abbrev hbmTy (i : Nat) : BufTy := match i / 128 with
  | 0 => hbmTy0_0 i
  | 1 => hbmTy0_1 i
  | 2 => hbmTy0_2 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_v2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_c_2 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_c_3 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v8 : Ref sig .tc := ⟨.hbm, 54, rfl⟩
abbrev main_cst_0 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_c_1 : Ref sig .tc := ⟨.hbm, 67, rfl⟩
abbrev main_call3_c_2 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_c_3 : Ref sig .tc := ⟨.hbm, 75, rfl⟩
abbrev main_call3_v11 : Ref sig .tc := ⟨.hbm, 76, rfl⟩
abbrev main_call3_v12 : Ref sig .tc := ⟨.hbm, 77, rfl⟩
abbrev main_call3_v13 : Ref sig .tc := ⟨.hbm, 78, rfl⟩
abbrev main_call3_cst : Ref sig .tc := ⟨.hbm, 79, rfl⟩
abbrev main_call3_v14 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_cst_1 : Ref sig .tc := ⟨.hbm, 86, rfl⟩
abbrev main_v18 : Ref sig .tc := ⟨.hbm, 87, rfl⟩
abbrev main_v19 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_c_1 : Ref sig .tc := ⟨.hbm, 96, rfl⟩
abbrev main_call4_c_2 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_c_3 : Ref sig .tc := ⟨.hbm, 104, rfl⟩
abbrev main_call4_v11 : Ref sig .tc := ⟨.hbm, 105, rfl⟩
abbrev main_call4_v12 : Ref sig .tc := ⟨.hbm, 106, rfl⟩
abbrev main_call4_v13 : Ref sig .tc := ⟨.hbm, 107, rfl⟩
abbrev main_call4_cst : Ref sig .tc := ⟨.hbm, 108, rfl⟩
abbrev main_call4_v14 : Ref sig .tc := ⟨.hbm, 109, rfl⟩
abbrev main_v20 : Ref sig .tc := ⟨.hbm, 110, rfl⟩
abbrev main_v21 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_cst : Ref sig .tc := ⟨.hbm, 131, rfl⟩
abbrev main_call5_v14 : Ref sig .tc := ⟨.hbm, 132, rfl⟩
abbrev main_v22 : Ref sig .tc := ⟨.hbm, 133, rfl⟩
abbrev main_v23 : Ref sig .tc := ⟨.hbm, 134, rfl⟩
abbrev main_cst_2 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_call6_c : Ref sig .tc := ⟨.hbm, 140, rfl⟩
abbrev main_call6_v0 : Ref sig .tc := ⟨.hbm, 141, rfl⟩
abbrev main_call6_v1 : Ref sig .tc := ⟨.hbm, 142, rfl⟩
abbrev main_call6_c_0 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_c_1 : Ref sig .tc := ⟨.hbm, 147, rfl⟩
abbrev main_call6_c_2 : Ref sig .tc := ⟨.hbm, 148, rfl⟩
abbrev main_call6_v5 : Ref sig .tc := ⟨.hbm, 149, rfl⟩
abbrev main_call6_v6 : Ref sig .tc := ⟨.hbm, 150, rfl⟩
abbrev main_call6_v7 : Ref sig .tc := ⟨.hbm, 151, rfl⟩
abbrev main_call6_v8 : Ref sig .tc := ⟨.hbm, 152, rfl⟩
abbrev main_call6_v9 : Ref sig .tc := ⟨.hbm, 153, rfl⟩
abbrev main_call6_v10 : Ref sig .tc := ⟨.hbm, 154, rfl⟩
abbrev main_call6_c_3 : Ref sig .tc := ⟨.hbm, 155, rfl⟩
abbrev main_call6_v11 : Ref sig .tc := ⟨.hbm, 156, rfl⟩
abbrev main_call6_v12 : Ref sig .tc := ⟨.hbm, 157, rfl⟩
abbrev main_call6_v13 : Ref sig .tc := ⟨.hbm, 158, rfl⟩
abbrev main_call6_cst : Ref sig .tc := ⟨.hbm, 159, rfl⟩
abbrev main_call6_v14 : Ref sig .tc := ⟨.hbm, 160, rfl⟩
abbrev main_v28 : Ref sig .tc := ⟨.hbm, 161, rfl⟩
abbrev main_cst_3 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_cst_4 : Ref sig .tc := ⟨.hbm, 167, rfl⟩
abbrev main_v33 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_call7_c : Ref sig .tc := ⟨.hbm, 173, rfl⟩
abbrev main_call7_v0 : Ref sig .tc := ⟨.hbm, 174, rfl⟩
abbrev main_call7_v1 : Ref sig .tc := ⟨.hbm, 175, rfl⟩
abbrev main_call7_c_0 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_call7_c_1 : Ref sig .tc := ⟨.hbm, 180, rfl⟩
abbrev main_call7_c_2 : Ref sig .tc := ⟨.hbm, 181, rfl⟩
abbrev main_call7_v5 : Ref sig .tc := ⟨.hbm, 182, rfl⟩
abbrev main_call7_v6 : Ref sig .tc := ⟨.hbm, 183, rfl⟩
abbrev main_call7_v7 : Ref sig .tc := ⟨.hbm, 184, rfl⟩
abbrev main_call7_v8 : Ref sig .tc := ⟨.hbm, 185, rfl⟩
abbrev main_call7_v9 : Ref sig .tc := ⟨.hbm, 186, rfl⟩
abbrev main_call7_v10 : Ref sig .tc := ⟨.hbm, 187, rfl⟩
abbrev main_call7_c_3 : Ref sig .tc := ⟨.hbm, 188, rfl⟩
abbrev main_call7_v11 : Ref sig .tc := ⟨.hbm, 189, rfl⟩
abbrev main_call7_v12 : Ref sig .tc := ⟨.hbm, 190, rfl⟩
abbrev main_call7_v13 : Ref sig .tc := ⟨.hbm, 191, rfl⟩
abbrev main_call7_cst : Ref sig .tc := ⟨.hbm, 192, rfl⟩
abbrev main_call7_v14 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_cst_5 : Ref sig .tc := ⟨.hbm, 201, rfl⟩
abbrev main_v45 : Ref sig .tc := ⟨.hbm, 202, rfl⟩
abbrev main_call8_v0 : Ref sig .tc := ⟨.hbm, 203, rfl⟩
abbrev main_call8_v1 : Ref sig .tc := ⟨.hbm, 204, rfl⟩
abbrev main_call8_c : Ref sig .tc := ⟨.hbm, 205, rfl⟩
abbrev main_call8_v2 : Ref sig .tc := ⟨.hbm, 206, rfl⟩
abbrev main_call8_v3 : Ref sig .tc := ⟨.hbm, 207, rfl⟩
abbrev main_call8_c_0 : Ref sig .tc := ⟨.hbm, 208, rfl⟩
abbrev main_call8_v4 : Ref sig .tc := ⟨.hbm, 209, rfl⟩
abbrev main_call8_v5 : Ref sig .tc := ⟨.hbm, 210, rfl⟩
abbrev main_call8_v6 : Ref sig .tc := ⟨.hbm, 211, rfl⟩
abbrev main_call8_c_1 : Ref sig .tc := ⟨.hbm, 212, rfl⟩
abbrev main_call8_v7 : Ref sig .tc := ⟨.hbm, 213, rfl⟩
abbrev main_call8_v8 : Ref sig .tc := ⟨.hbm, 214, rfl⟩
abbrev main_call8_c_2 : Ref sig .tc := ⟨.hbm, 215, rfl⟩
abbrev main_call8_v9 : Ref sig .tc := ⟨.hbm, 216, rfl⟩
abbrev main_call8_v10 : Ref sig .tc := ⟨.hbm, 217, rfl⟩
abbrev main_call8_v11 : Ref sig .tc := ⟨.hbm, 218, rfl⟩
abbrev main_call8_v12 : Ref sig .tc := ⟨.hbm, 219, rfl⟩
abbrev main_call8_v13 : Ref sig .tc := ⟨.hbm, 220, rfl⟩
abbrev main_call8_v14 : Ref sig .tc := ⟨.hbm, 221, rfl⟩
abbrev main_v46 : Ref sig .tc := ⟨.hbm, 222, rfl⟩
abbrev main_v47 : Ref sig .tc := ⟨.hbm, 223, rfl⟩
abbrev main_call9_c : Ref sig .tc := ⟨.hbm, 224, rfl⟩
abbrev main_call9_v0 : Ref sig .tc := ⟨.hbm, 225, rfl⟩
abbrev main_call9_v1 : Ref sig .tc := ⟨.hbm, 226, rfl⟩
abbrev main_call9_c_0 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_call9_v5 : Ref sig .tc := ⟨.hbm, 231, rfl⟩
abbrev main_call9_c_1 : Ref sig .tc := ⟨.hbm, 232, rfl⟩
abbrev main_call9_c_2 : Ref sig .tc := ⟨.hbm, 233, rfl⟩
abbrev main_call9_v6 : Ref sig .tc := ⟨.hbm, 234, rfl⟩
abbrev main_call9_v7 : Ref sig .tc := ⟨.hbm, 235, rfl⟩
abbrev main_call9_v8 : Ref sig .tc := ⟨.hbm, 236, rfl⟩
abbrev main_call9_v9 : Ref sig .tc := ⟨.hbm, 237, rfl⟩
abbrev main_call9_v10 : Ref sig .tc := ⟨.hbm, 238, rfl⟩
abbrev main_call9_v11 : Ref sig .tc := ⟨.hbm, 239, rfl⟩
abbrev main_call9_c_3 : Ref sig .tc := ⟨.hbm, 240, rfl⟩
abbrev main_call9_v12 : Ref sig .tc := ⟨.hbm, 241, rfl⟩
abbrev main_call9_v13 : Ref sig .tc := ⟨.hbm, 242, rfl⟩
abbrev main_call9_cst : Ref sig .tc := ⟨.hbm, 243, rfl⟩
abbrev main_call9_v14 : Ref sig .tc := ⟨.hbm, 244, rfl⟩
abbrev main_v48 : Ref sig .tc := ⟨.hbm, 245, rfl⟩
abbrev main_cst_6 : Ref sig .tc := ⟨.hbm, 246, rfl⟩
abbrev main_v49 : Ref sig .tc := ⟨.hbm, 247, rfl⟩
abbrev main_v50 : Ref sig .tc := ⟨.hbm, 248, rfl⟩
abbrev main_v51 : Ref sig .tc := ⟨.hbm, 249, rfl⟩
abbrev main_v52 : Ref sig .tc := ⟨.hbm, 250, rfl⟩
abbrev main_v53 : Ref sig .tc := ⟨.hbm, 251, rfl⟩
abbrev main_v54 : Ref sig .tc := ⟨.hbm, 252, rfl⟩
abbrev main_v55 : Ref sig .tc := ⟨.hbm, 253, rfl⟩
abbrev main_v56 : Ref sig .tc := ⟨.hbm, 254, rfl⟩
abbrev main_v57 : Ref sig .tc := ⟨.hbm, 255, rfl⟩
abbrev main_v58 : Ref sig .tc := ⟨.hbm, 256, rfl⟩
abbrev main_v59 : Ref sig .tc := ⟨.hbm, 257, rfl⟩
abbrev main_v60 : Ref sig .tc := ⟨.hbm, 258, rfl⟩
abbrev main_v61 : Ref sig .tc := ⟨.hbm, 259, rfl⟩
abbrev main_v62 : Ref sig .tc := ⟨.hbm, 260, rfl⟩
abbrev main_v63 : Ref sig .tc := ⟨.hbm, 261, rfl⟩
abbrev main_cst_7 : Ref sig .tc := ⟨.hbm, 262, rfl⟩
abbrev main_v64 : Ref sig .tc := ⟨.hbm, 263, rfl⟩
abbrev main_v65 : Ref sig .tc := ⟨.hbm, 264, rfl⟩
abbrev main_v66 : Ref sig .tc := ⟨.hbm, 265, rfl⟩
abbrev main_cst_8 : Ref sig .tc := ⟨.hbm, 266, rfl⟩
abbrev main_v67 : Ref sig .tc := ⟨.hbm, 267, rfl⟩
abbrev main_cst_9 : Ref sig .tc := ⟨.hbm, 268, rfl⟩
abbrev main_v68 : Ref sig .tc := ⟨.hbm, 269, rfl⟩
abbrev main_cst_10 : Ref sig .tc := ⟨.hbm, 270, rfl⟩
abbrev main_v69 : Ref sig .tc := ⟨.hbm, 271, rfl⟩
abbrev main_cst_11 : Ref sig .tc := ⟨.hbm, 272, rfl⟩
abbrev main_v70 : Ref sig .tc := ⟨.hbm, 273, rfl⟩
abbrev main_v71 : Ref sig .tc := ⟨.hbm, 274, rfl⟩
abbrev main_v72 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_cst : Ref sig .tc := ⟨.hbm, 295, rfl⟩
abbrev main_call10_v14 : Ref sig .tc := ⟨.hbm, 296, rfl⟩
abbrev main_v73 : Ref sig .tc := ⟨.hbm, 297, rfl⟩
abbrev main_cst_12 : Ref sig .tc := ⟨.hbm, 298, rfl⟩
abbrev main_v74 : Ref sig .tc := ⟨.hbm, 299, rfl⟩
abbrev main_cst_13 : Ref sig .tc := ⟨.hbm, 300, rfl⟩
abbrev main_v75 : Ref sig .tc := ⟨.hbm, 301, rfl⟩
abbrev main_v76 : Ref sig .tc := ⟨.hbm, 302, rfl⟩
abbrev main_cst_14 : Ref sig .tc := ⟨.hbm, 303, rfl⟩
abbrev main_v77 : Ref sig .tc := ⟨.hbm, 304, rfl⟩
abbrev main_v78 : Ref sig .tc := ⟨.hbm, 305, rfl⟩

abbrev nD : Nat := 1
abbrev τ : Topo := Topo.v7x

variable {F : FTy → Type} [FloatOps F]

class Facts₀ : Prop where
  slices_S32x1024x512_S32x992x512_0_32_0 : S32x1024x512.Slices ![0, 32, 0] S32x992x512
  reducesTo_S32x992x512_S32x992_d2 : S32x992x512.ReducesTo [2] S32x992
  h_S_ : 0 < S_.numel
  bcast_S_S32x992 : S_.BroadcastsInDim S32x992 (![] : Fin 0 → Fin S32x992.rank)
  bcast_S32x992_S32x992x1_0_1 : S32x992.BroadcastsInDim S32x992x1 (![0, 1] : Fin 2 → Fin S32x992x1.rank)
  bcast_S32x992x1_S32x992x512_0_1_2 : S32x992x1.BroadcastsInDim S32x992x512 (![0, 1, 2] : Fin 3 → Fin S32x992x512.rank)
  bcast_S1x1x512_S32x992x512_0_1_2 : S1x1x512.BroadcastsInDim S32x992x512 (![0, 1, 2] : Fin 3 → Fin S32x992x512.rank)
  bcast_S_S32x992x512 : S_.BroadcastsInDim S32x992x512 (![] : Fin 0 → Fin S32x992x512.rank)
  transposes_S32x512x512_S32x512x512_0_2_1 : S32x512x512.Transposes [0, 2, 1] S32x512x512
  bcast_S_S32x992x1 : S_.BroadcastsInDim S32x992x1 (![] : Fin 0 → Fin S32x992x1.rank)
  bcast_S1_S1x1x1_2 : S1.BroadcastsInDim S1x1x1 (![2] : Fin 1 → Fin S1x1x1.rank)
  bcast_S1x1x1_S32x992x1_0_1_2 : S1x1x1.BroadcastsInDim S32x992x1 (![0, 1, 2] : Fin 3 → Fin S32x992x1.rank)
  reducesTo_S32x992x1_S32x992_d2 : S32x992x1.ReducesTo [2] S32x992
  bcast_S32x992_S32x992x512_0_1 : S32x992.BroadcastsInDim S32x992x512 (![0, 1] : Fin 2 → Fin S32x992x512.rank)
  reducesTo_S32x992x512_S32_d1_2 : S32x992x512.ReducesTo [1, 2] S32
  shapeCasts_S32x992x1_S32x992x1x1 : S32x992x1.ShapeCasts S32x992x1x1
  bcast_S_S32x992x1x1 : S_.BroadcastsInDim S32x992x1x1 (![] : Fin 0 → Fin S32x992x1x1.rank)
  bcast_S1_S1x1x1x1_3 : S1.BroadcastsInDim S1x1x1x1 (![3] : Fin 1 → Fin S1x1x1x1.rank)
  bcast_S1x1x1x1_S32x992x1x1_0_1_2_3 : S1x1x1x1.BroadcastsInDim S32x992x1x1 (![0, 1, 2, 3] : Fin 4 → Fin S32x992x1x1.rank)
  reducesTo_S32x992x1x1_S32x992x1_d3 : S32x992x1x1.ReducesTo [3] S32x992x1
  shapeCasts_S32x992x1_S32x992 : S32x992x1.ShapeCasts S32x992
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  shapeCasts_S32x992_S32x992x1 : S32x992.ShapeCasts S32x992x1
  reducesTo_S32x992_S32_d1 : S32x992.ReducesTo [1] S32
  bcast_S32_S32x1x1_0 : S32.BroadcastsInDim S32x1x1 (![0] : Fin 1 → Fin S32x1x1.rank)
  bcast_S32x1x1_S32x992x1_0_1_2 : S32x1x1.BroadcastsInDim S32x992x1 (![0, 1, 2] : Fin 3 → Fin S32x992x1.rank)
  bcast_S32x512_S32x1x512_0_2 : S32x512.BroadcastsInDim S32x1x512 (![0, 2] : Fin 2 → Fin S32x1x512.rank)
  bcast_S32x1x512_S32x992x512_0_1_2 : S32x1x512.BroadcastsInDim S32x992x512 (![0, 1, 2] : Fin 3 → Fin S32x992x512.rank)
  reducesTo_S32_S_d0 : S32.ReducesTo [0] S_
  reducesTo_S32x992x1_S_d0_1_2 : S32x992x1.ReducesTo [0, 1, 2] S_
  gather_S32x512x512_S32x992x1_S32x992x512_2_1_0_0_1_2_11512_wf : GatherDims.WF S32x512x512 S32x992x1 S32x992x512 [2] [1] [0] [1] [0] 2 ![1, 1, 512]
  dot_S32x992x512_S32x512x512_S32x992x512_2_2_1_1_0_0_wf : DotDims.WF S32x992x512 S32x512x512 S32x992x512 [2] [2] [1] [1] [0] [0]
  gather_S32x992x512_S32x992x1x1_S32x992x1_n_2_01_01_2_3_111_wf : GatherDims.WF S32x992x512 S32x992x1x1 S32x992x1 [] [2] [0, 1] [2] [0, 1] 3 ![1, 1, 1]
  dot_S32x992x512_S32x512x512_S32x992x512_2_1_1_2_0_0_wf : DotDims.WF S32x992x512 S32x512x512 S32x992x512 [2] [1] [1] [2] [0] [0]
  gather_S32x512x512_S512x2_S32x512_0_12_n_n_12_1_3211_wf : GatherDims.WF S32x512x512 S512x2 S32x512 [0] [1, 2] [] [1, 2] [] 1 ![32, 1, 1]
  gather_S32x512_S32x992x1_S32x992_n_1_0_0_1_2_11_wf : GatherDims.WF S32x512 S32x992x1 S32x992 [] [1] [0] [1] [0] 2 ![1, 1]

variable [Facts₀]

def gather_S32x512x512_S32x992x1_S32x992x512_2_1_0_0_1_2_11512 : GatherDims S32x512x512 S32x992x1 S32x992x512 where
  offsetDims := [2]
  collapsedSliceDims := [1]
  operandBatchingDims := [0]
  startIndicesBatchingDims := [0]
  startIndexMap := [1]
  indexVectorDim := 2
  sliceSizes := ![1, 1, 512]
  wf := gather_S32x512x512_S32x992x1_S32x992x512_2_1_0_0_1_2_11512_wf
def dot_S32x992x512_S32x512x512_S32x992x512_2_2_1_1_0_0 : DotDims S32x992x512 S32x512x512 S32x992x512 where
  lhsContracting := [2]
  rhsContracting := [2]
  lhsNonContracting := [1]
  rhsNonContracting := [1]
  lhsBatch := [0]
  rhsBatch := [0]
  wf := dot_S32x992x512_S32x512x512_S32x992x512_2_2_1_1_0_0_wf
def gather_S32x992x512_S32x992x1x1_S32x992x1_n_2_01_01_2_3_111 : GatherDims S32x992x512 S32x992x1x1 S32x992x1 where
  offsetDims := []
  collapsedSliceDims := [2]
  operandBatchingDims := [0, 1]
  startIndicesBatchingDims := [0, 1]
  startIndexMap := [2]
  indexVectorDim := 3
  sliceSizes := ![1, 1, 1]
  wf := gather_S32x992x512_S32x992x1x1_S32x992x1_n_2_01_01_2_3_111_wf
def dot_S32x992x512_S32x512x512_S32x992x512_2_1_1_2_0_0 : DotDims S32x992x512 S32x512x512 S32x992x512 where
  lhsContracting := [2]
  rhsContracting := [1]
  lhsNonContracting := [1]
  rhsNonContracting := [2]
  lhsBatch := [0]
  rhsBatch := [0]
  wf := dot_S32x992x512_S32x512x512_S32x992x512_2_1_1_2_0_0_wf
def gather_S32x512x512_S512x2_S32x512_0_12_n_n_12_1_3211 : GatherDims S32x512x512 S512x2 S32x512 where
  offsetDims := [0]
  collapsedSliceDims := [1, 2]
  operandBatchingDims := []
  startIndicesBatchingDims := []
  startIndexMap := [1, 2]
  indexVectorDim := 1
  sliceSizes := ![32, 1, 1]
  wf := gather_S32x512x512_S512x2_S32x512_0_12_n_n_12_1_3211_wf
def gather_S32x512_S32x992x1_S32x992_n_1_0_0_1_2_11 : GatherDims S32x512 S32x992x1 S32x992 where
  offsetDims := []
  collapsedSliceDims := [1]
  operandBatchingDims := [0]
  startIndicesBatchingDims := [0]
  startIndexMap := [1]
  indexVectorDim := 2
  sliceSizes := ![1, 1]
  wf := gather_S32x512_S32x992x1_S32x992_n_1_0_0_1_2_11_wf

class Facts : Prop extends Facts₀ where

variable [Facts]
-- ==== Proof.Spec.lean ====
/-
  The mathematics both programs compute, per batch element, on the extended reals.

  For one batch element: q, r are the 512 x 512 transition and rate matrices, x the 992 x 512 content logits,
  d and t the 992 data and perturbed tokens (each a state in 0 .. 511).  With
    logp i s  = (x i s - max_s x i s) - log (sum_s exp (x i s - max_s x i s))        (row log-softmax)
    prob i s  = exp (logp i s)
    mask i s  = 1 - [s = t i]
    den i k   = q k (t i) + eps            rcol i k = r k (t i)
    num i s   = q (d i) s                  oden i   = q (d i) (t i) + eps
  the four per-batch scalars are
    reg  = sum_i sum_k  prob i k / den i k * (sum_s (mask i s * rcol i s) * q k s)
    sig  = sum_i sum_k  mask i k * rcol i k * (num i k / oden i) * log ((sum_s prob i s / den i s * q s k) + eps)
    norm = sum_i sum_k  rcol i k * num i k * mask i k / (Z i k * oden i),
           Z i k = (sum_j rrs (t j) - rrs (t i)) + rrs k,  rrs s = - r s s
    nll  = sum_i logp i (d i)
  and the result is  mean_b (- sig b / norm b) + mean_b (reg b) + w * (- (sum_b nll b) / (32 * 992)).
  Sums are finite sums in the extended reals (commutative and associative there), so their order and grouping
  are immaterial; the literal words eps, 1, 32, 31744 and w are carried unevaluated (the same word on both sides).
-/
import Idealize.ShloMosaic.PureOps.Ideal
import Mathlib.Algebra.BigOperators.Group.Finset.Basic

noncomputable section

namespace Cert.Spec

open Idealize.ShloMosaic

/-- The shared additive guard, the f32 word both programs print. -/
def eps : EReal := Ideal.ofBits .f32 0x3089705F#32
/-- The word of 1.0. -/
def one : EReal := Ideal.ofBits .f32 0x3F800000#32

variable (q r : Fin 512 → Fin 512 → EReal) (x : Fin 992 → Fin 512 → EReal) (d t : Fin 992 → Fin 512)

/-- A row's largest logit (a fold of max from bottom over the 512 states). -/
def rowMax (i : Fin 992) : EReal := (Finset.univ : Finset (Fin 512)).fold max ⊥ (x i)
/-- The row log-softmax. -/
def logp (i : Fin 992) (s : Fin 512) : EReal :=
  (x i s - rowMax x i) - Ideal.log (∑ s', Ideal.exp (x i s' - rowMax x i))
/-- The row softmax. -/
def prob (i : Fin 992) (s : Fin 512) : EReal := Ideal.exp (logp x i s)
/-- The indicator of the perturbed token's state, as an extended real. -/
def hot (u : Fin 992 → Fin 512) (i : Fin 992) (s : Fin 512) : EReal := if s = u i then 1 else 0
/-- One off the perturbed token's state, zero on it. -/
def mask (i : Fin 992) (s : Fin 512) : EReal := one - hot t i s
def den (i : Fin 992) (k : Fin 512) : EReal := q k (t i) + eps
def rcol (i : Fin 992) (k : Fin 512) : EReal := r k (t i)
def num (i : Fin 992) (s : Fin 512) : EReal := q (d i) s
def oden (i : Fin 992) : EReal := q (d i) (t i) + eps

/-- The regularizer's batch scalar. -/
def reg : EReal :=
  ∑ i, ∑ k, Ideal.div (prob x i k) (den q t i k) * (∑ s, (mask t i s * rcol r t i s) * q k s)
/-- The signal's batch scalar. -/
def sig : EReal :=
  ∑ i, ∑ k, ((mask t i k * rcol r t i k) * Ideal.div (num q d i k) (oden q d t i))
    * Ideal.log ((∑ s, Ideal.div (prob x i s) (den q t i s) * q s k) + eps)
/-- Minus the rate matrix's diagonal. -/
def rrs (s : Fin 512) : EReal := - r s s
/-- The normalizer's denominator term. -/
def Z (i : Fin 992) (k : Fin 512) : EReal := ((∑ j, rrs r (t j)) - rrs r (t i)) + rrs r k
/-- The normalizer's batch scalar. -/
def norm : EReal :=
  ∑ i, ∑ k, Ideal.div ((rcol r t i k * num q d i k) * mask t i k) (Z r t i k * oden q d t i)
/-- The log-likelihood's batch scalar. -/
def nll : EReal := ∑ i, logp x i (d i)

/-- The result from the four batch vectors: the two means, and the weighted mean log-likelihood, in the
    association the kernel's host lines use. -/
def result (regv sigv normv nllv : Fin 32 → EReal) : EReal :=
  (Ideal.div (∑ b, Ideal.div (- sigv b) (normv b)) (Ideal.ofBits .f32 0x42000000#32)
    + Ideal.div (∑ b, regv b) (Ideal.ofBits .f32 0x42000000#32))
  + Ideal.ofBits .f32 0x3C23D70A#32 * Ideal.div (- (∑ b, nllv b)) (Ideal.ofBits .f32 0x46F80000#32)

end Cert.Spec

end
-- ==== Proof.Bridge.lean ====
/-
  How one batch element's data sit in the blocks the kernel is handed: the 512 x 512 matrix of a [1, 512, 512]
  block, the 992 content rows (rows 32 .. 1023) of a [1, 1024, 512] logits block, and the tokens of a [1, 1, 992]
  integer block as states in 0 .. 511.
-/
import proofs.«410255_j36412732735781_3_alg».proof.Proof.Spec
import Idealize.ShloMosaic.Lib.ValueIdx

noncomputable section

namespace Cert.Bridge

open Idealize.ShloMosaic Idealize.ShloMosaic.ValueIdx

abbrev B1x512x512 : Shape := ⟨3, ![1, 512, 512]⟩
abbrev B1x1024x512 : Shape := ⟨3, ![1, 1024, 512]⟩
abbrev B1x1x992 : Shape := ⟨3, ![1, 1, 992]⟩

/-- Entry (k, s) of the matrix a block holds. -/
def mat (x : Vec Ideal B1x512x512 .f32) (k s : Fin 512) : EReal := x (ix3 (0 : Fin 1) k s)

/-- Content row i (array row 32 + i), state s, of a logits block. -/
def logits (x : Vec Ideal B1x1024x512 .f32) (i : Fin 992) (s : Fin 512) : EReal :=
  x (ix3 (0 : Fin 1) (⟨32 + i.val, by have := i.isLt; omega⟩ : Fin 1024) s)

/-- The block's 992 words are the states `u i`, each below 512. -/
def IsTok (x : Vec Ideal B1x1x992 .i32) (u : Fin 992 → Fin 512) : Prop :=
  ∀ i : Fin 992, x (ix3 (0 : Fin 1) (0 : Fin 1) i) = BitVec.ofNat 32 (u i).val

/-- Every entry of the block is a real number. -/
def IsReal {S : Shape} (x : Vec Ideal S .f32) : Prop := ∃ x' : S.Idx → ℝ, ∀ j, x j = ((x' j : ℝ) : EReal)

end Cert.Bridge

end
-- ==== Proof.KTok.lean ====
/-
  The kernel's token rows as indicators.  A token block's words, clamped to 0 .. 511 (the identity on states
  already in range), are compared with the state index along each row: entry (i, s) is 1 when s is row i's
  state and 0 otherwise; one minus it is the mask.
-/
import proofs.«410255_j36412732735781_3_alg».proof.Proof.Bridge
import proofs.«410255_j36412732735781_3_alg».proof.Proof.Gen.KernelIdeal.Frame
import Idealize.ShloMosaic.Lib.Pipeline.Value

noncomputable section

open Idealize.ShloMosaic Idealize.ShloMosaic.ValueIdx Cert.KernelIdeal Cert.KernelIdeal.Gen Cert.Bridge

namespace Cert.KTok

/-- A state's number, as a 32-bit word, reads signed as itself. -/
theorem toInt_ofNat_small (n : Nat) (hn : n < 512) : (BitVec.ofNat 32 n).toInt = (n : Int) := by
  have e := BitVec.toInt_eq_toNat_cond (BitVec.ofNat 32 n)
  rw [BitVec.toNat_ofNat, Nat.mod_eq_of_lt (by omega : n < 2 ^ 32)] at e
  rw [e, if_pos (by omega)]

/-- Clamping a state's word to 0 .. 511 (a signed maximum with 0, then a signed minimum with 511) leaves it as it is. -/
theorem clamp_tok (n : Nat) (hn : n < 512) :
    IntOp.minsi 511#32 (IntOp.maxsi 0#32 (BitVec.ofNat 32 n)) = BitVec.ofNat 32 n := by
  have hx := toInt_ofNat_small n hn
  have h0 : (0#32 : BitVec 32).toInt = 0 := by decide
  have h511 : (511#32 : BitVec 32).toInt = 511 := by decide
  have h1 : IntOp.maxsi 0#32 (BitVec.ofNat 32 n) = BitVec.ofNat 32 n := by
    unfold IntOp.maxsi
    rw [if_neg]
    rw [BitVec.slt_iff_toInt_lt, hx, h0]
    omega
  rw [h1]
  unfold IntOp.minsi
  rw [if_neg]
  rw [BitVec.slt_iff_toInt_lt, hx, h511]
  omega

/-- Two states' words are equal exactly when the states are: the comparison's bit. -/
theorem cmpi_eq_tok (a b : Fin 512) :
    IntOp.cmpi .eq (BitVec.ofNat 32 a.val) (BitVec.ofNat 32 b.val) = if a = b then 1#1 else 0#1 := by
  unfold IntOp.cmpi
  by_cases h : a = b
  · subst h; simp
  · rw [if_neg h]
    have hne : BitVec.ofNat 32 a.val ≠ BitVec.ofNat 32 b.val := by
      intro e
      have e' := congrArg BitVec.toNat e
      rw [BitVec.toNat_ofNat, BitVec.toNat_ofNat, Nat.mod_eq_of_lt (by have := a.isLt; omega),
        Nat.mod_eq_of_lt (by have := b.isLt; omega)] at e'
      exact h (Fin.ext e')
    show BitVec.ofBool (BitVec.ofNat 32 a.val == BitVec.ofNat 32 b.val) = 0#1
    rw [beq_eq_false_iff_ne.mpr hne]
    rfl

section Block
variable (x : Vec Ideal S1x1x992 .i32) (u : Fin 992 → Fin 512)

/-- The clamped token column, broadcast along the states, reads row i's state at (i, s). -/
theorem tok_word (hx : IsTok x u) (i : Fin 992) (s : Fin 512) :
    broadcastTo S992x512 (shapeCast S992x1 (minsi (broadcast S992 511#32)
      (maxsi (broadcast S992 0#32) (shapeCast S992 x shapeCasts_S1x1x992_S992))) shapeCasts_S992_S992x1)
      broadcasts_S992x1_S992x512 (ix2 i s) = BitVec.ofNat 32 (u i).val := by
  refine (broadcastTo_apply _ _ (ix2 i s) (ix2 i (0 : Fin 1)) (fun a => ?_)).trans ?_
  · match a with
    | ⟨0, _⟩ => rfl
    | ⟨1, _⟩ => rfl
  refine (shapeCast_apply _ _ (ix2 i (0 : Fin 1)) (ix1 i) ?_).trans ?_
  · rw [Shape.rowMajor_val_one, Shape.rowMajor_val_two]
    show i.val = i.val * 1 + 0
    omega
  show IntOp.minsi 511#32 (IntOp.maxsi 0#32 (shapeCast S992 x shapeCasts_S1x1x992_S992 (ix1 i))) = _
  rw [shapeCast_apply x shapeCasts_S1x1x992_S992 (ix1 i) (ix3 (0 : Fin 1) (0 : Fin 1) i)
    (by rw [Shape.rowMajor_val_one, Shape.rowMajor_val_three]; show (0 * 1 + 0) * 992 + i.val = i.val; omega)]
  rw [hx i]
  exact clamp_tok _ (u i).isLt

/-- The state index along each row compared with a word that is state n there, widened and converted: 1 at n, 0 elsewhere. -/
theorem hot_of (B : IVec S992x512 32) (n : Fin 512) (i : Fin 992) (s : Fin 512)
    (hB : B (ix2 i s) = BitVec.ofNat 32 n.val) :
    (sitofp .f32 (extui 32 (cmpi .eq (iota .tc S992x512 32 [1] iota_S992x512_d1_w32) B) natLt_1_32) :
      FVec Ideal S992x512 .f32) (ix2 i s) = if s = n then 1 else 0 := by
  show ((((IntOp.cmpi .eq (iota .tc S992x512 32 [1] iota_S992x512_d1_w32 (ix2 i s)) (B (ix2 i s))).setWidth 32).toInt : ℝ) : EReal) = _
  rw [iota_single_apply, hB]
  show ((((IntOp.cmpi .eq (BitVec.ofNat 32 s.val) (BitVec.ofNat 32 n.val)).setWidth 32).toInt : ℝ) : EReal) = _
  rw [cmpi_eq_tok]
  by_cases h : s = n
  · rw [if_pos h, if_pos h]
    have e : ((1#1 : BitVec 1).setWidth 32).toInt = 1 := by decide
    rw [e]; simp
  · rw [if_neg h, if_neg h]
    have e : ((0#1 : BitVec 1).setWidth 32).toInt = 0 := by decide
    rw [e]; simp

end Block

variable (x3 x4 : Vec Ideal S1x1x992 .i32) (d t : Fin 992 → Fin 512)

/-- The indicator of the perturbed tokens (the payload read from the x_tilde block). -/
theorem hot_t (ht : IsTok x4 t) (i : Fin 992) (s : Fin 512) :
    k0_pay7 (F := Ideal) (View.ld x4 r0_0) (ix2 i s) = Spec.hot t i s := by
  have e : View.ld x4 r0_0 = x4 := View.ld_unit_zero (by funext a; fin_cases a <;> rfl) _ x4
  rw [e]
  unfold k0_pay7
  exact hot_of _ (t i) i s (tok_word x4 t ht i s)

/-- The indicator of the data tokens (the payload read from the data block). -/
theorem hot_d (hd : IsTok x3 d) (i : Fin 992) (s : Fin 512) :
    k0_pay9 (F := Ideal) (View.ld x3 r0_0) (ix2 i s) = Spec.hot d i s := by
  have e : View.ld x3 r0_0 = x3 := View.ld_unit_zero (by funext a; fin_cases a <;> rfl) _ x3
  rw [e]
  unfold k0_pay9
  exact hot_of _ (d i) i s (tok_word x3 d hd i s)

/-- One minus the indicator of the perturbed tokens. -/
theorem mask_t (ht : IsTok x4 t) (i : Fin 992) (s : Fin 512) :
    k0_pay17 (F := Ideal) (k0_pay7 (View.ld x4 r0_0)) (ix2 i s) = Spec.mask t i s := by
  show Spec.one - k0_pay7 (F := Ideal) (View.ld x4 r0_0) (ix2 i s) = _
  rw [hot_t x4 t ht i s]
  rfl

end Cert.KTok

end
-- ==== Proof.KGather.lean ====
/-
  The kernel's gathers.  A 0/1 indicator row contracted against a matrix picks one entry (zero times anything is
  zero in the extended reals, and the one surviving term is the entry); the matrix enters as itself plus
  (itself minus itself), and the second summand is zero because the entries are real numbers.
-/
import proofs.«410255_j36412732735781_3_alg».proof.Proof.Bridge
import proofs.«410255_j36412732735781_3_alg».proof.Proof.Gen.KernelIdeal.Frame
import proofs.«410255_j36412732735781_3_alg».proof.Proof.KTok
import Idealize.ShloMosaic.PureOps.Ideal.Laws
import Idealize.ShloMosaic.Lib.ValueIdx
import Idealize.ShloMosaic.Lib.ValueLayout

noncomputable section

open Idealize.ShloMosaic Idealize.ShloMosaic.ValueIdx Cert.KernelIdeal Cert.KernelIdeal.Gen Cert.Bridge

namespace Cert.KGather

variable (x0 x1 : Vec Ideal S1x512x512 .f32) (x3 x4 : Vec Ideal S1x1x992 .i32) (d t : Fin 992 → Fin 512)

/-! ## Sums against an indicator row -/

/-- An indicator row against a function: the one surviving term is the function's value at the marked place. -/
theorem sum_ind_mul {n : Nat} (u : Fin n) (f : Fin n → EReal) :
    ∑ s, (if s = u then (1 : EReal) else 0) * f s = f u := by
  rw [Finset.sum_eq_single u (fun b _ hb => by rw [if_neg hb, zero_mul]) (fun h => absurd (Finset.mem_univ u) h),
    if_pos rfl, one_mul]

/-- A real number minus itself is zero. -/
theorem real_sub_self {a : EReal} (h : ∃ r : ℝ, a = (r : EReal)) : a - a = 0 := by
  obtain ⟨r, rfl⟩ := h
  rw [← EReal.coe_sub, sub_self, EReal.coe_zero]

/-! ## The two matrix products at an index -/

/-- The product that contracts the last axis of both operands, into the zero splat, at (i, k):
    the sum over s of A (i, s) * B (k, s). -/
theorem matmulT_apply {φ₁ φ₂ : FTy} (A : FVec Ideal S992x512 φ₁) (B : FVec Ideal S512x512 φ₂) (i : Fin 992) (k : Fin 512) :
    matmul dot_S992x512_S512x512_S992x512_1_1_0_0_n_n none A B (constant (F := Ideal) S992x512 .f32 0x00000000#32) (ix2 i k)
      = ∑ s : Fin 512, A (ix2 i s) * B (ix2 k s) := by
  show FloatOps.matmul _ none A B _ (ix2 i k) = _
  rw [Ideal.matmul_constant_zero_apply,
    ← Equiv.sum_comp (contrEquiv1 dot_S992x512_S512x512_S992x512_1_1_0_0_n_n 512 rfl rfl).symm]
  refine Finset.sum_congr rfl fun s _ => ?_
  have c2 := contrEquiv1_symm_val dot_S992x512_S512x512_S992x512_1_1_0_0_n_n 512 rfl rfl s
  have l2 : dot_S992x512_S512x512_S992x512_1_1_0_0_n_n.lhsIdx (ix2 i k) ((contrEquiv1 _ 512 rfl rfl).symm s) = ix2 i s := by
    funext ax; apply Fin.ext
    match ax with
    | ⟨0, _⟩ => simp [DotDims.lhsIdx, dot_S992x512_S512x512_S992x512_1_1_0_0_n_n]; rfl
    | ⟨1, _⟩ => simp [DotDims.lhsIdx, dot_S992x512_S512x512_S992x512_1_1_0_0_n_n]; exact c2
  have r2 : dot_S992x512_S512x512_S992x512_1_1_0_0_n_n.rhsIdx (ix2 i k) ((contrEquiv1 _ 512 rfl rfl).symm s) = ix2 k s := by
    funext ax; apply Fin.ext
    match ax with
    | ⟨0, _⟩ => simp [DotDims.rhsIdx, dot_S992x512_S512x512_S992x512_1_1_0_0_n_n]; rfl
    | ⟨1, _⟩ => simp [DotDims.rhsIdx, dot_S992x512_S512x512_S992x512_1_1_0_0_n_n]; exact c2
  rw [l2, r2]

/-- The ordinary product, into the zero splat, at (i, s): the sum over k of A (i, k) * B (k, s). -/
theorem matmulN_apply {φ₁ φ₂ : FTy} (A : FVec Ideal S992x512 φ₁) (B : FVec Ideal S512x512 φ₂) (i : Fin 992) (s : Fin 512) :
    matmul dot_S992x512_S512x512_S992x512_1_0_0_1_n_n none A B (constant (F := Ideal) S992x512 .f32 0x00000000#32) (ix2 i s)
      = ∑ k : Fin 512, A (ix2 i k) * B (ix2 k s) := by
  show FloatOps.matmul _ none A B _ (ix2 i s) = _
  rw [Ideal.matmul_constant_zero_apply,
    ← Equiv.sum_comp (contrEquiv1 dot_S992x512_S512x512_S992x512_1_0_0_1_n_n 512 rfl rfl).symm]
  refine Finset.sum_congr rfl fun k _ => ?_
  have c2 := contrEquiv1_symm_val dot_S992x512_S512x512_S992x512_1_0_0_1_n_n 512 rfl rfl k
  have l2 : dot_S992x512_S512x512_S992x512_1_0_0_1_n_n.lhsIdx (ix2 i s) ((contrEquiv1 _ 512 rfl rfl).symm k) = ix2 i k := by
    funext ax; apply Fin.ext
    match ax with
    | ⟨0, _⟩ => simp [DotDims.lhsIdx, dot_S992x512_S512x512_S992x512_1_0_0_1_n_n]; rfl
    | ⟨1, _⟩ => simp [DotDims.lhsIdx, dot_S992x512_S512x512_S992x512_1_0_0_1_n_n]; exact c2
  have r2 : dot_S992x512_S512x512_S992x512_1_0_0_1_n_n.rhsIdx (ix2 i s) ((contrEquiv1 _ 512 rfl rfl).symm k) = ix2 k s := by
    funext ax; apply Fin.ext
    match ax with
    | ⟨0, _⟩ => simp [DotDims.rhsIdx, dot_S992x512_S512x512_S992x512_1_0_0_1_n_n]; exact c2
    | ⟨1, _⟩ => simp [DotDims.rhsIdx, dot_S992x512_S512x512_S992x512_1_0_0_1_n_n]; rfl
  rw [l2, r2]

/-! ## The row sum and the column it is kept as -/

/-- A sum over the states of a [992, 512] value, at row i. -/
theorem rowSum_apply (src : FVec Ideal S992x512 .f32) (hφ : FKind.Formats .f32)
    (hacc : (0x00000000#32 : BitVec 32) = FKind.add.neutral .f32 hφ) (i : Fin 992) :
    multiReduction .add [1] S992 src 0x00000000#32 reduces_S992x512_S992 hφ hacc (ix1 i) = ∑ s : Fin 512, src (ix2 i s) := by
  refine (Ideal.multiReduction_add_single src 0x00000000#32 reduces_S992x512_S992 hφ hacc (ix1 i)).trans ?_
  refine Finset.sum_congr rfl fun s _ => congrArg src ?_
  funext a
  match a with
  | ⟨0, _⟩ => rfl
  | ⟨1, _⟩ => rfl

/-- A [992] vector kept as a [992, 1] column reads, at (i, 0), the vector at i. -/
theorem col_apply {α : Type} (x : S992.Idx → α) (i : Fin 992) :
    shapeCast S992x1 x shapeCasts_S992_S992x1 (ix2 i (0 : Fin 1)) = x (ix1 i) :=
  shapeCast_apply x _ _ _ (by
    rw [Shape.rowMajor_val_two, Shape.rowMajor_val_one]
    show i.val = i.val * 1 + 0
    omega)

/-! ## The payloads -/

theorem off3_zero : (![0, 0, 0] : Fin 3 → Nat) = fun _ => 0 := funext fun a => by fin_cases a <;> rfl

/-- The matrix a block holds, as the kernel's 512 x 512 value. -/
theorem mat_apply (x : Vec Ideal S1x512x512 .f32) (k s : Fin 512) :
    k0_pay5 (F := Ideal) (View.ld x r0_1) (ix2 k s) = mat x k s := by
  unfold k0_pay5 mat
  rw [View.ld_unit_zero off3_zero]
  exact shapeCast_1ab_ab_apply x _ k s

/-- The second block's matrix likewise. -/
theorem mat_apply' (x : Vec Ideal S1x512x512 .f32) (k s : Fin 512) :
    k0_pay6 (F := Ideal) (View.ld x r0_1) (ix2 k s) = mat x k s := by
  unfold k0_pay6 mat
  rw [View.ld_unit_zero off3_zero]
  exact shapeCast_1ab_ab_apply x _ k s

/-- A real block's matrix has real entries. -/
theorem mat_real {x : Vec Ideal S1x512x512 .f32} (h : IsReal x) (k s : Fin 512) : ∃ r : ℝ, mat x k s = (r : EReal) := by
  obtain ⟨x', hx'⟩ := h
  exact ⟨x' _, hx' _⟩

/-- The column gather with the additive guard, over any matrix value with real entries and any row value. -/
theorem pay20_apply (Q : FVec Ideal S512x512 .f32) (H : FVec Ideal S992x512 .bf16)
    (hQ : ∀ k s, ∃ r : ℝ, Q (ix2 k s) = (r : EReal)) (i : Fin 992) (k : Fin 512) :
    k0_pay20 Q H (ix2 i k) = (∑ s : Fin 512, H (ix2 i s) * Q (ix2 k s)) + Spec.eps := by
  unfold k0_pay20 k0_pay18 k0_pay19
  show (matmul dot_S992x512_S512x512_S992x512_1_1_0_0_n_n none H (truncf .bf16 Q bitsLt_bf16_f32)
          (constant (F := Ideal) S992x512 .f32 0x00000000#32) (ix2 i k)
        + matmul dot_S992x512_S512x512_S992x512_1_1_0_0_n_n none H (truncf .bf16 (subf Q Q) bitsLt_bf16_f32)
          (constant (F := Ideal) S992x512 .f32 0x00000000#32) (ix2 i k)) + Spec.eps = _
  rw [matmulT_apply, matmulT_apply]
  have hz : ∑ s : Fin 512, H (ix2 i s) * (truncf .bf16 (subf Q Q) bitsLt_bf16_f32 : FVec Ideal S512x512 .bf16) (ix2 k s) = 0 :=
    Finset.sum_eq_zero fun s _ => by
      show H (ix2 i s) * (Q (ix2 k s) - Q (ix2 k s)) = 0
      rw [real_sub_self (hQ k s), mul_zero]
  rw [hz, add_zero]
  rfl

/-- The column gather without the guard. -/
theorem pay21_apply (R : FVec Ideal S512x512 .f32) (H : FVec Ideal S992x512 .bf16)
    (hR : ∀ k s, ∃ r : ℝ, R (ix2 k s) = (r : EReal)) (i : Fin 992) (k : Fin 512) :
    k0_pay21 R H (ix2 i k) = ∑ s : Fin 512, H (ix2 i s) * R (ix2 k s) := by
  unfold k0_pay21
  show matmul dot_S992x512_S512x512_S992x512_1_1_0_0_n_n none H (truncf .bf16 R bitsLt_bf16_f32)
          (constant (F := Ideal) S992x512 .f32 0x00000000#32) (ix2 i k)
        + matmul dot_S992x512_S512x512_S992x512_1_1_0_0_n_n none H (truncf .bf16 (subf R R) bitsLt_bf16_f32)
          (constant (F := Ideal) S992x512 .f32 0x00000000#32) (ix2 i k) = _
  rw [matmulT_apply, matmulT_apply]
  have hz : ∑ s : Fin 512, H (ix2 i s) * (truncf .bf16 (subf R R) bitsLt_bf16_f32 : FVec Ideal S512x512 .bf16) (ix2 k s) = 0 :=
    Finset.sum_eq_zero fun s _ => by
      show H (ix2 i s) * (R (ix2 k s) - R (ix2 k s)) = 0
      rw [real_sub_self (hR k s), mul_zero]
  rw [hz, add_zero]
  rfl

/-- The row gather. -/
theorem pay22_apply (Q : FVec Ideal S512x512 .f32) (H : FVec Ideal S992x512 .bf16)
    (hQ : ∀ k s, ∃ r : ℝ, Q (ix2 k s) = (r : EReal)) (i : Fin 992) (s : Fin 512) :
    k0_pay22 Q H (ix2 i s) = ∑ k : Fin 512, H (ix2 i k) * Q (ix2 k s) := by
  unfold k0_pay22 k0_pay18 k0_pay19
  show matmul dot_S992x512_S512x512_S992x512_1_0_0_1_n_n none H (truncf .bf16 Q bitsLt_bf16_f32)
          (constant (F := Ideal) S992x512 .f32 0x00000000#32) (ix2 i s)
        + matmul dot_S992x512_S512x512_S992x512_1_0_0_1_n_n none H (truncf .bf16 (subf Q Q) bitsLt_bf16_f32)
          (constant (F := Ideal) S992x512 .f32 0x00000000#32) (ix2 i s) = _
  rw [matmulN_apply, matmulN_apply]
  have hz : ∑ k : Fin 512, H (ix2 i k) * (truncf .bf16 (subf Q Q) bitsLt_bf16_f32 : FVec Ideal S512x512 .bf16) (ix2 k s) = 0 :=
    Finset.sum_eq_zero fun k _ => by
      show H (ix2 i k) * (Q (ix2 k s) - Q (ix2 k s)) = 0
      rw [real_sub_self (hQ k s), mul_zero]
  rw [hz, add_zero]
  rfl

/-- The guarded row sum, kept as a column. -/
theorem pay26_apply (V : FVec Ideal S992x512 .f32) (i : Fin 992) :
    k0_pay26 V (ix2 i (0 : Fin 1)) = (∑ s : Fin 512, V (ix2 i s)) + Spec.eps := by
  unfold k0_pay26
  show shapeCast S992x1 (multiReduction .add [1] S992 V 0x00000000#32 reduces_S992x512_S992 (.inl rfl) rfl)
      shapeCasts_S992_S992x1 (ix2 i (0 : Fin 1)) + Spec.eps = _
  exact congrArg (· + Spec.eps) ((col_apply _ i).trans (rowSum_apply V _ _ i))

/-- The indicator times the gathered row. -/
theorem pay25_apply (Q : FVec Ideal S512x512 .f32) (T : FVec Ideal S992x512 .f32) (H : FVec Ideal S992x512 .bf16)
    (i : Fin 992) (s : Fin 512) :
    k0_pay25 Q T H (ix2 i s) = T (ix2 i s) * k0_pay22 Q H (ix2 i s) := rfl

/-! ## The gathers -/

/-- Column t_i of q, plus eps:  q k (t i) + eps. -/
theorem den_apply (hq : IsReal x0) (ht : IsTok x4 t) (i : Fin 992) (k : Fin 512) :
    k0_pay20 (F := Ideal) (k0_pay5 (View.ld x0 r0_1)) (k0_pay8 (View.ld x4 r0_0)) (ix2 i k) = Spec.den (mat x0) t i k := by
  rw [pay20_apply _ _ (fun k s => by rw [mat_apply]; exact mat_real hq k s)]
  have e : ∀ s : Fin 512, k0_pay8 (F := Ideal) (View.ld x4 r0_0) (ix2 i s) * k0_pay5 (F := Ideal) (View.ld x0 r0_1) (ix2 k s)
      = (if s = t i then (1 : EReal) else 0) * mat x0 k s := fun s => by
    rw [mat_apply]
    exact congrArg (· * mat x0 k s) (KTok.hot_t x4 t ht i s)
  rw [Finset.sum_congr rfl fun s _ => e s, sum_ind_mul]
  rfl

/-- Column t_i of r:  r k (t i). -/
theorem rcol_apply (hr : IsReal x1) (ht : IsTok x4 t) (i : Fin 992) (k : Fin 512) :
    k0_pay21 (F := Ideal) (k0_pay6 (View.ld x1 r0_1)) (k0_pay8 (View.ld x4 r0_0)) (ix2 i k) = Spec.rcol (mat x1) t i k := by
  rw [pay21_apply _ _ (fun k s => by rw [mat_apply']; exact mat_real hr k s)]
  have e : ∀ s : Fin 512, k0_pay8 (F := Ideal) (View.ld x4 r0_0) (ix2 i s) * k0_pay6 (F := Ideal) (View.ld x1 r0_1) (ix2 k s)
      = (if s = t i then (1 : EReal) else 0) * mat x1 k s := fun s => by
    rw [mat_apply']
    exact congrArg (· * mat x1 k s) (KTok.hot_t x4 t ht i s)
  rw [Finset.sum_congr rfl fun s _ => e s, sum_ind_mul]
  rfl

/-- Row d_i of q:  q (d i) s. -/
theorem num_apply (hq : IsReal x0) (hd : IsTok x3 d) (i : Fin 992) (s : Fin 512) :
    k0_pay22 (F := Ideal) (k0_pay5 (View.ld x0 r0_1)) (k0_pay10 (View.ld x3 r0_0)) (ix2 i s) = Spec.num (mat x0) d i s := by
  rw [pay22_apply _ _ (fun k s => by rw [mat_apply]; exact mat_real hq k s)]
  have e : ∀ k : Fin 512, k0_pay10 (F := Ideal) (View.ld x3 r0_0) (ix2 i k) * k0_pay5 (F := Ideal) (View.ld x0 r0_1) (ix2 k s)
      = (if k = d i then (1 : EReal) else 0) * mat x0 k s := fun k => by
    rw [mat_apply]
    exact congrArg (· * mat x0 k s) (KTok.hot_d x3 d hd i k)
  rw [Finset.sum_congr rfl fun k _ => e k, sum_ind_mul (d i) fun k => mat x0 k s]
  rfl

/-- The entry of row d_i at column t_i, plus eps, as the [992, 1] column the kernel keeps. -/
theorem oden_apply (hq : IsReal x0) (hd : IsTok x3 d) (ht : IsTok x4 t) (i : Fin 992) :
    k0_pay26 (F := Ideal) (k0_pay25 (k0_pay5 (View.ld x0 r0_1)) (k0_pay7 (View.ld x4 r0_0)) (k0_pay10 (View.ld x3 r0_0))) (ix2 i (0 : Fin 1))
      = Spec.oden (mat x0) d t i := by
  rw [pay26_apply]
  have e : ∀ s : Fin 512, k0_pay25 (F := Ideal) (k0_pay5 (View.ld x0 r0_1)) (k0_pay7 (View.ld x4 r0_0)) (k0_pay10 (View.ld x3 r0_0)) (ix2 i s)
      = (if s = t i then (1 : EReal) else 0) * mat x0 (d i) s := fun s => by
    rw [pay25_apply, num_apply x0 x3 d hq hd i s, KTok.hot_t x4 t ht i s]
    rfl
  rw [Finset.sum_congr rfl fun s _ => e s, sum_ind_mul (t i) fun s => mat x0 (d i) s]
  rfl

end Cert.KGather

end
-- ==== Proof.KSoftmax.lean ====
/-
  The kernel's row log-softmax of the content logits: the row maximum (joined with bottom, which changes nothing),
  the shifted logits, the logarithm of the sum of their exponentials (a sum from zero), and the difference.
-/
import proofs.«410255_j36412732735781_3_alg».proof.Proof.Bridge
import proofs.«410255_j36412732735781_3_alg».proof.Proof.Gen.KernelIdeal.Frame
import Idealize.ShloMosaic.PureOps.Ideal.Laws
import Idealize.ShloMosaic.Lib.ValueLayout

noncomputable section

open Idealize.ShloMosaic Idealize.ShloMosaic.ValueIdx Cert.KernelIdeal Cert.KernelIdeal.Gen Cert.Bridge

namespace Cert.KSoftmax

/-! ## Two layout readings: a column made of a vector, and a column spread over the rows' entries -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions at a row -/

/-- A row's sum: the lane sum of a `992 × 512` block, at row `i`, is the sum of the row's entries. -/
theorem rowSum_apply (src : FVec Ideal S992x512 .f32) (hφ : FKind.Formats .f32)
    (hacc : (0x00000000#32 : BitVec 32) = FKind.add.neutral .f32 hφ) (i : Fin 992) :
    multiReduction .add [1] S992 src 0x00000000#32 reduces_S992x512_S992 hφ hacc (ix1 i) = ∑ s : Fin 512, src (ix2 i s) := by
  refine (Ideal.multiReduction_add_single src _ reduces_S992x512_S992 hφ hacc (ix1 i)).trans ?_
  refine Finset.sum_congr rfl fun k _ => congrArg src ?_
  funext a
  match a with
  | ⟨0, _⟩ => exact Fin.ext rfl
  | ⟨1, _⟩ => exact Fin.ext rfl

/-- A row's maximum from bottom: the lane maximum of a `992 × 512` block, at row `i`, is the fold of `max` from `⊥` over the row's entries. -/
theorem rowMax_apply (src : FVec Ideal S992x512 .f32) (hφ : FKind.Formats .f32)
    (hacc : (0xFF800000#32 : BitVec 32) = FKind.maximumf.neutral .f32 hφ) (i : Fin 992) :
    multiReduction .maximumf [1] S992 src 0xFF800000#32 reduces_S992x512_S992 hφ hacc (ix1 i)
      = (Finset.univ : Finset (Fin 512)).fold max ⊥ (fun s => src (ix2 i s)) := by
  refine (Ideal.multiReduction_maximumf_single src _ reduces_S992x512_S992 hφ hacc (ix1 i)).trans ?_
  have hb : (FloatOps.ofBits (F := Ideal) .f32 0xFF800000#32 : EReal) = ⊥ := by simp [Ideal.ofBits, Ideal.ieee]
  have hf : (src ∘ reduces_S992x512_S992.lift (ix1 i)) = fun s : Fin 512 => src (ix2 i s) := by
    funext k
    refine congrArg src ?_
    funext a
    match a with
    | ⟨0, _⟩ => exact Fin.ext rfl
    | ⟨1, _⟩ => exact Fin.ext rfl
  exact congrArg₂ (fun (b : EReal) (f : Fin 512 → EReal) => (Finset.univ : Finset (Fin 512)).fold max b f) hb hf

/-! ## The elementwise exponential and logarithm at an index, and the word of minus infinity -/

/-- An exponential at an index is the exponential of the element. -/
theorem exp_apply {s : Shape} (v : FVec Ideal s .f32) (j : s.Idx) : exp v j = Ideal.exp (v j) := rfl
/-- A logarithm at an index is the logarithm of the element. -/
theorem log_apply {s : Shape} (v : FVec Ideal s .f32) (j : s.Idx) : log v j = Ideal.log (v j) := rfl
/-- The f32 word of minus infinity is the bottom of the extended reals. -/
theorem ofBits_negInf : Ideal.ofBits .f32 0xFF800000#32 = ⊥ := by simp [Ideal.ofBits, Ideal.ieee]

/-! ## The kernel's values at a content row -/

variable (x2 : Vec Ideal S1x1024x512 .f32)

/-- The loaded block at `(0, i, s)` is content row `i`'s logit at state `s` (the load starts at array row 32). -/
theorem ld_apply (i : Fin 992) (s : Fin 512) :
    View.ld x2 r0_2 (ix3 (0 : Fin 1) i s) = logits x2 i s := by
  refine congrArg x2 (funext fun a => Fin.ext ?_)
  match a with
  | ⟨0, _⟩ => rfl
  | ⟨1, _⟩ => show 32 + 1 * i.val = 32 + i.val; rw [Nat.one_mul]
  | ⟨2, _⟩ => show 0 + 1 * s.val = s.val; rw [Nat.one_mul, Nat.zero_add]

/-- The block as a matrix, at `(i, s)`. -/
theorem mat_apply (i : Fin 992) (s : Fin 512) :
    shapeCast S992x512 (View.ld x2 r0_2) shapeCasts_S1x992x512_S992x512 (ix2 i s) = logits x2 i s :=
  (shapeCast_1ab_ab_apply _ _ i s).trans (ld_apply x2 i s)

/-- The shifted logits: each minus its row's maximum. -/
theorem shift_apply (i : Fin 992) (s : Fin 512) :
    k0_pay11 (F := Ideal) (View.ld x2 r0_2) (ix2 i s) = logits x2 i s - Spec.rowMax (logits x2) i := by
  simp only [k0_pay11]
  refine (subf_apply _ _ _).trans ?_
  refine congrArg₂ (· - ·) (mat_apply x2 i s) ?_
  refine (broadcastTo_a1_ab_apply _ _ i s).trans ?_
  refine (shapeCast_a_a1_apply _ _ i 0).trans ?_
  refine (maximumf_apply _ _ _).trans ?_
  refine (congrArg₂ max ofBits_negInf (rowMax_apply _ _ _ i)).trans ?_
  refine (max_bot_left _).trans ?_
  exact congrArg (fun f : Fin 512 → EReal => (Finset.univ : Finset (Fin 512)).fold max ⊥ f)
    (funext fun s' => mat_apply x2 i s')

/-- The row log-softmax. -/
theorem logp_apply (i : Fin 992) (s : Fin 512) :
    k0_pay13 (F := Ideal) (k0_pay11 (View.ld x2 r0_2)) (k0_pay12 (View.ld x2 r0_2)) (ix2 i s) = Spec.logp (logits x2) i s := by
  simp only [k0_pay13]
  refine (subf_apply _ _ _).trans ?_
  refine congrArg₂ (· - ·) (shift_apply x2 i s) ?_
  refine (broadcastTo_a1_ab_apply _ _ i s).trans ?_
  refine (log_apply _ _).trans ?_
  refine congrArg Ideal.log ?_
  refine (shapeCast_a_a1_apply _ _ i 0).trans ?_
  refine (rowSum_apply _ _ _ i).trans ?_
  refine Finset.sum_congr rfl fun s' _ => ?_
  refine (exp_apply _ _).trans ?_
  exact congrArg Ideal.exp (shift_apply x2 i s')

/-- The row softmax. -/
theorem prob_apply (i : Fin 992) (s : Fin 512) :
    k0_pay15 (F := Ideal) (k0_pay11 (View.ld x2 r0_2)) (k0_pay12 (View.ld x2 r0_2)) (ix2 i s) = Spec.prob (logits x2) i s := by
  simp only [k0_pay15]
  refine (exp_apply _ _).trans ?_
  exact congrArg Ideal.exp (logp_apply x2 i s)

end Cert.KSoftmax

end
-- ==== Proof.KReg.lean ====
/-
  The regularizer's batch scalar as the kernel computes it: the softmax over the column-gathered q plus eps, times the
  masked, column-gathered rate contracted with q over the state axis, summed over states and then over rows.
-/
import proofs.«410255_j36412732735781_3_alg».proof.Proof.Bridge
import proofs.«410255_j36412732735781_3_alg».proof.Proof.Gen.KernelIdeal.Frame
import proofs.«410255_j36412732735781_3_alg».proof.Proof.KTok
import proofs.«410255_j36412732735781_3_alg».proof.Proof.KGather
import proofs.«410255_j36412732735781_3_alg».proof.Proof.KSoftmax
import Idealize.ShloMosaic.Lib.ValueLayout
import Idealize.ShloMosaic.PureOps.Ideal.Laws

noncomputable section

open Idealize.ShloMosaic Idealize.ShloMosaic.ValueIdx Cert.KernelIdeal Cert.KernelIdeal.Gen Cert.Bridge

namespace Cert.KReg

variable (x0 x1 : Vec Ideal S1x512x512 .f32) (x2 : Vec Ideal S1x1024x512 .f32) (x3 x4 : Vec Ideal S1x1x992 .i32)
  (d t : Fin 992 → Fin 512)

/-- The stored block reads the [1, 1] scalar at every index. -/
theorem pay1_apply (v : FVec Ideal S1x1 .f32) (y : S1x8x128.Idx) :
    k0_pay1 (F := Ideal) v y = v (ix2 (0 : Fin 1) (0 : Fin 1)) := by
  obtain ⟨u, a, b, rfl⟩ : ∃ (u : Fin 1) (a : Fin 8) (b : Fin 128), y = ix3 u a b := ⟨_, _, _, eq_ix3 y⟩
  unfold k0_pay1
  refine (shapeCast_ab_1ab_apply _ _ u a b).trans ?_
  refine (broadcastTo_apply _ _ (ix2 a b) (ix2 (0 : Fin 1) (0 : Fin 1)) fun ax => ?_).trans ?_
  · match ax with
    | ⟨0, _⟩ => rfl
    | ⟨1, _⟩ => rfl
  · rw [shapeCast_self]

/-- A lane sum of a [992, 512] value at row i is the sum over the 512 states. -/
theorem rowSum (w : FVec Ideal S992x512 .f32) (h : S992x512.Reduces [1] S992) (hφ : FKind.Formats .f32)
    (hacc : (0x00000000#32 : BitVec 32) = FKind.add.neutral .f32 hφ) (i : Fin 992) :
    multiReduction .add [1] S992 w 0x00000000#32 h hφ hacc (ix1 i) = ∑ k : Fin 512, w (ix2 i k) := by
  refine (Ideal.multiReduction_add_single w 0x00000000#32 h hφ hacc (ix1 i)).trans ?_
  show ∑ k : Fin 512, w (h.lift (ix1 i) k) = _
  refine Finset.sum_congr rfl fun k _ => congrArg w (funext fun c => ?_)
  match c with
  | ⟨0, _⟩ => exact Fin.ext rfl
  | ⟨1, _⟩ => exact Fin.ext rfl

/-- A sum down the one column of a [992, 1] value is the sum over the 992 rows. -/
theorem colSum (w : FVec Ideal S992x1 .f32) (h : S992x1.Reduces [0] S1) (hφ : FKind.Formats .f32)
    (hacc : (0x00000000#32 : BitVec 32) = FKind.add.neutral .f32 hφ) :
    multiReduction .add [0] S1 w 0x00000000#32 h hφ hacc (ix1 (0 : Fin 1)) = ∑ i : Fin 992, w (ix2 i (0 : Fin 1)) := by
  refine (Ideal.multiReduction_add_single w 0x00000000#32 h hφ hacc (ix1 (0 : Fin 1))).trans ?_
  show ∑ i : Fin 992, w (h.lift (ix1 (0 : Fin 1)) i) = _
  refine Finset.sum_congr rfl fun i _ => congrArg w (funext fun c => ?_)
  match c with
  | ⟨0, _⟩ => exact Fin.ext rfl
  | ⟨1, _⟩ => exact Fin.ext rfl

/-- A [992] value kept as a [992, 1] column reads, at (i, 0), the value at i. -/
theorem colCast (w : FVec Ideal S992 .f32) (h : S992.ShapeCasts S992x1) (i : Fin 992) :
    shapeCast S992x1 w h (ix2 i (0 : Fin 1)) = w (ix1 i) :=
  shapeCast_apply w h _ _ (by
    rw [Shape.rowMajor_val_one, Shape.rowMajor_val_two]
    show i.val = i.val * 1 + 0
    omega)

/-- The product contracting the last axis of both operands, into the zero accumulator, at (i, k). -/
theorem mmT_apply (A : FVec Ideal S992x512 .bf16) (B : FVec Ideal S512x512 .bf16) (i : Fin 992) (k : Fin 512) :
    matmul dot_S992x512_S512x512_S992x512_1_1_0_0_n_n none A B (constant (F := Ideal) S992x512 .f32 0x00000000#32) (ix2 i k)
      = ∑ s : Fin 512, A (ix2 i s) * B (ix2 k s) := by
  refine (Ideal.matmul_constant_zero_apply dot_S992x512_S512x512_S992x512_1_1_0_0_n_n none A B (ix2 i k)).trans ?_
  refine (Equiv.sum_comp (contrEquiv1 dot_S992x512_S512x512_S992x512_1_1_0_0_n_n 512 rfl rfl).symm _).symm.trans ?_
  refine Finset.sum_congr rfl fun s _ => ?_
  have hl : dot_S992x512_S512x512_S992x512_1_1_0_0_n_n.lhsIdx (ix2 i k)
      ((contrEquiv1 dot_S992x512_S512x512_S992x512_1_1_0_0_n_n 512 rfl rfl).symm s) = ix2 i s := by
    funext c
    match c with
    | ⟨0, _⟩ => exact Fin.ext rfl
    | ⟨1, _⟩ => exact Fin.ext rfl
  have hr : dot_S992x512_S512x512_S992x512_1_1_0_0_n_n.rhsIdx (ix2 i k)
      ((contrEquiv1 dot_S992x512_S512x512_S992x512_1_1_0_0_n_n 512 rfl rfl).symm s) = ix2 k s := by
    funext c
    match c with
    | ⟨0, _⟩ => exact Fin.ext rfl
    | ⟨1, _⟩ => exact Fin.ext rfl
  rw [hl, hr]

/-- The block the kernel writes is the stored scalar, whatever the index. -/
theorem out_open (y : S1x8x128.Idx) :
    out0_5 (F := Ideal) x0 x1 x2 x3 x4 y
      = k0_pay24 (F := Ideal) (k0_pay5 (View.ld x0 r0_1)) (k0_pay6 (View.ld x1 r0_1)) (k0_pay7 (View.ld x4 r0_0)) (k0_pay8 (View.ld x4 r0_0)) (k0_pay11 (View.ld x2 r0_2)) (k0_pay12 (View.ld x2 r0_2)) (ix2 (0 : Fin 1) (0 : Fin 1)) := by
  unfold out0_5
  rw [View.canon_unit_zero (by funext a; fin_cases a <;> rfl)]
  exact pay1_apply _ y

/-- The scalar the kernel keeps: the sum over rows and states of the softmax over the guarded column of q, times the
    masked rate column contracted with q over the state axis. -/
theorem pay24_apply (v13 v15 : FVec Ideal S512x512 .f32) (v23 : FVec Ideal S992x512 .f32) (v24 : FVec Ideal S992x512 .bf16)
    (v36 v37 : FVec Ideal S992x512 .f32) :
    k0_pay24 (F := Ideal) v13 v15 v23 v24 v36 v37 (ix2 (0 : Fin 1) (0 : Fin 1))
      = ∑ i : Fin 992, ∑ k : Fin 512,
          Ideal.div (k0_pay15 v36 v37 (ix2 i k)) (k0_pay20 v13 v24 (ix2 i k))
            * ∑ s : Fin 512, (k0_pay17 v23 (ix2 i s) * k0_pay21 v15 v24 (ix2 i s)) * v13 (ix2 k s) := by
  unfold k0_pay24
  refine (shapeCast_a_1a_apply _ _ (0 : Fin 1) (0 : Fin 1)).trans ?_
  refine (colSum _ _ _ _).trans ?_
  refine Finset.sum_congr rfl fun i _ => ?_
  refine (colCast _ _ i).trans ?_
  refine (rowSum _ _ _ _ i).trans ?_
  refine Finset.sum_congr rfl fun k _ => ?_
  refine congrArg (Ideal.div (k0_pay15 v36 v37 (ix2 i k)) (k0_pay20 v13 v24 (ix2 i k)) * ·) ?_
  refine (mmT_apply _ _ i k).trans ?_
  exact Finset.sum_congr rfl fun s _ => rfl

/-- Every entry of the [1, 8, 128] block the kernel writes for this output is the batch scalar. -/
theorem out_eq (hq : IsReal x0) (hr : IsReal x1) (ht : IsTok x4 t) (y : S1x8x128.Idx) :
    out0_5 (F := Ideal) x0 x1 x2 x3 x4 y = Spec.reg (mat x0) (mat x1) (logits x2) t := by
  refine (out_open x0 x1 x2 x3 x4 y).trans ?_
  refine (pay24_apply _ _ _ _ _ _).trans ?_
  unfold Spec.reg
  refine Finset.sum_congr rfl fun i _ => Finset.sum_congr rfl fun k _ => ?_
  rw [KSoftmax.prob_apply x2 i k, KGather.den_apply x0 x4 t hq ht i k]
  refine congrArg (Ideal.div (Spec.prob (logits x2) i k) (Spec.den (mat x0) t i k) * ·) ?_
  refine Finset.sum_congr rfl fun s _ => ?_
  rw [KTok.mask_t x4 t ht i s, KGather.rcol_apply x1 x4 t hr ht i s, KGather.mat_apply x0 k s]

end Cert.KReg

end
-- ==== Proof.KSig.lean ====
/-
  The signal's batch scalar as the kernel computes it.
-/
import proofs.«410255_j36412732735781_3_alg».proof.Proof.Bridge
import proofs.«410255_j36412732735781_3_alg».proof.Proof.Gen.KernelIdeal.Frame
import proofs.«410255_j36412732735781_3_alg».proof.Proof.KTok
import proofs.«410255_j36412732735781_3_alg».proof.Proof.KGather
import proofs.«410255_j36412732735781_3_alg».proof.Proof.KSoftmax
import Idealize.ShloMosaic.Lib.ValueLayout
import Idealize.ShloMosaic.PureOps.Ideal.Laws

noncomputable section

open Idealize.ShloMosaic Idealize.ShloMosaic.ValueIdx Cert.KernelIdeal Cert.KernelIdeal.Gen Cert.Bridge

namespace Cert.KSig

/-- A vector cast to a column reads, at (i, 0), the vector at i. -/
theorem col_apply {a : ℕ} {α : Type} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column broadcast along the rows reads, at (i, k), the column at (i, 0). -/
theorem bcol_apply {a b : ℕ} {α : Type} (v : (⟨2, ![a, 1]⟩ : Shape).Idx → α) (h : (⟨2, ![a, 1]⟩ : Shape).Broadcasts ⟨2, ![a, b]⟩)
    (i : Fin a) (k : Fin b) : broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- The sum along the second axis of a matrix, read at row i. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  funext ax
  match ax with
  | ⟨0, _⟩ => rfl
  | ⟨1, _⟩ => rfl

/-- The sum along the first axis of a column, read at its one index. -/
theorem colsum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ src 0x00000000#32 h hφ hacc (ix1 u) = ∑ i : Fin a, src (ix2 i (0 : Fin 1)) := by
  refine (Ideal.multiReduction_add_single src _ h hφ hacc (ix1 u)).trans ?_
  refine Finset.sum_congr rfl fun k _ => congrArg src ?_
  funext ax
  match ax with
  | ⟨0, _⟩ => rfl
  | ⟨1, _⟩ =>
    apply Fin.ext
    show (u : ℕ) = 0
    omega

/-- The ordinary matrix product into the zero splat, read at (i, k). -/
theorem mm_apply (lhs : FVec Ideal S992x512 .bf16) (rhs : FVec Ideal S512x512 .bf16) (i : Fin 992) (k : Fin 512) :
    matmul dot_S992x512_S512x512_S992x512_1_0_0_1_n_n none lhs rhs (constant (F := Ideal) S992x512 .f32 0x00000000#32) (ix2 i k)
      = ∑ s : Fin 512, lhs (ix2 i s) * rhs (ix2 s k) := by
  show FloatOps.matmul _ none lhs rhs _ (ix2 i k) = _
  rw [Ideal.matmul_constant_zero_apply,
    ← Equiv.sum_comp (contrEquiv1 dot_S992x512_S512x512_S992x512_1_0_0_1_n_n 512 rfl rfl).symm]
  refine Finset.sum_congr rfl fun c _ => ?_
  have c2 := contrEquiv1_symm_val dot_S992x512_S512x512_S992x512_1_0_0_1_n_n 512 rfl rfl c
  have l2 : dot_S992x512_S512x512_S992x512_1_0_0_1_n_n.lhsIdx (ix2 i k) ((contrEquiv1 _ 512 rfl rfl).symm c) = ix2 i c := by
    funext ax; apply Fin.ext
    match ax with
    | ⟨0, _⟩ => simp [DotDims.lhsIdx, dot_S992x512_S512x512_S992x512_1_0_0_1_n_n]; rfl
    | ⟨1, _⟩ => simp [DotDims.lhsIdx, dot_S992x512_S512x512_S992x512_1_0_0_1_n_n]; exact c2
  have r2 : dot_S992x512_S512x512_S992x512_1_0_0_1_n_n.rhsIdx (ix2 i k) ((contrEquiv1 _ 512 rfl rfl).symm c) = ix2 c k := by
    funext ax; apply Fin.ext
    match ax with
    | ⟨0, _⟩ => simp [DotDims.rhsIdx, dot_S992x512_S512x512_S992x512_1_0_0_1_n_n]; exact c2
    | ⟨1, _⟩ => simp [DotDims.rhsIdx, dot_S992x512_S512x512_S992x512_1_0_0_1_n_n]; rfl
  rw [l2, r2]

/-- The [1, 1] scalar spread over the [1, 8, 128] block reads the scalar everywhere. -/
theorem pay2_apply (v : FVec Ideal S1x1 .f32) (y : S1x8x128.Idx) :
    k0_pay2 (F := Ideal) v y = v (ix2 (0 : Fin 1) (0 : Fin 1)) := by
  obtain ⟨u, a, b, rfl⟩ : ∃ (u : Fin 1) (a : Fin 8) (b : Fin 128), y = ix3 u a b := ⟨y 0, y 1, y 2, eq_ix3 y⟩
  unfold k0_pay2
  refine (shapeCast_ab_1ab_apply _ _ u a b).trans ?_
  refine (broadcastTo_apply _ _ (ix2 a b) (ix2 (0 : Fin 1) (0 : Fin 1)) fun ax => ?_).trans ?_
  · match ax with
    | ⟨0, _⟩ => rfl
    | ⟨1, _⟩ => rfl
  · rw [shapeCast_self]

/-- The signal's scalar from its seven operands, as a double sum over rows and states. -/
theorem pay27_apply (A B C D E : FVec Ideal S992x512 .f32) (G : FVec Ideal S512x512 .bf16) (H : FVec Ideal S992x512 .f32) :
    k0_pay27 (F := Ideal) A B C D E G H (ix2 (0 : Fin 1) (0 : Fin 1))
      = ∑ i : Fin 992, ∑ k : Fin 512,
          ((B (ix2 i k) * D (ix2 i k)) * Ideal.div (E (ix2 i k)) (k0_pay26 (F := Ideal) H (ix2 i (0 : Fin 1))))
            * Ideal.log ((∑ s : Fin 512, Ideal.div (A (ix2 i s)) (C (ix2 i s)) * G (ix2 s k)) + Spec.eps) := by
  unfold k0_pay27
  refine (shapeCast_a_1a_apply _ _ (0 : Fin 1) (0 : Fin 1)).trans ?_
  refine (colsum_apply _ _ _ _ (0 : Fin 1)).trans ?_
  refine Finset.sum_congr rfl fun i _ => ?_
  refine (col_apply _ _ i (0 : Fin 1)).trans ?_
  refine (rowsum_apply _ _ _ _ i).trans ?_
  refine Finset.sum_congr rfl fun k _ => ?_
  have hmm := mm_apply (truncf .bf16 (divf A C) bitsLt_bf16_f32) G i k
  have hb := bcol_apply (k0_pay26 (F := Ideal) H) broadcasts_S992x1_S992x512 i k
  show ((B (ix2 i k) * D (ix2 i k)) * Ideal.div (E (ix2 i k)) (broadcastTo S992x512 (k0_pay26 (F := Ideal) H) broadcasts_S992x1_S992x512 (ix2 i k)))
      * Ideal.log (matmul dot_S992x512_S512x512_S992x512_1_0_0_1_n_n none (truncf .bf16 (divf A C) bitsLt_bf16_f32) G
          (constant (F := Ideal) S992x512 .f32 0x00000000#32) (ix2 i k) + Spec.eps) = _
  rw [hb, hmm]
  rfl

variable (x0 x1 : Vec Ideal S1x512x512 .f32) (x2 : Vec Ideal S1x1024x512 .f32) (x3 x4 : Vec Ideal S1x1x992 .i32)
  (d t : Fin 992 → Fin 512)

/-- Every entry of the [1, 8, 128] block the kernel writes for this output is the batch scalar. -/
theorem out_eq (hq : IsReal x0) (hr : IsReal x1) (hd : IsTok x3 d) (ht : IsTok x4 t) (y : S1x8x128.Idx) :
    out0_6 (F := Ideal) x0 x1 x2 x3 x4 y = Spec.sig (mat x0) (mat x1) (logits x2) d t := by
  have hz : (![0, 0, 0] : Fin S1x8x128.rank → Nat) = fun _ => 0 := funext fun a => by fin_cases a <;> rfl
  unfold out0_6
  rw [View.canon_unit_zero hz, pay2_apply, pay27_apply]
  unfold Spec.sig
  refine Finset.sum_congr rfl fun i _ => Finset.sum_congr rfl fun k _ => ?_
  rw [KTok.mask_t x4 t ht, KGather.rcol_apply x1 x4 t hr ht, KGather.num_apply x0 x3 d hq hd,
    KGather.oden_apply x0 x3 x4 d t hq hd ht]
  refine congrArg₂ (fun a b : EReal => a * b) rfl
    (congrArg Ideal.log (congrArg (fun z : EReal => z + Spec.eps) (Finset.sum_congr rfl fun s _ => ?_)))
  rw [KSoftmax.prob_apply, KGather.den_apply x0 x4 t hq ht]
  exact congrArg₂ (fun a b : EReal => a * b) rfl (KGather.mat_apply x0 s k)

end Cert.KSig

end
-- ==== Proof.KNorm.lean ====
/-
  The normalizer's batch scalar as the kernel computes it; the rate's diagonal is read as the row sum of the rate
  times the identity indicator (zero times anything is zero), negated as zero minus it.
-/
import proofs.«410255_j36412732735781_3_alg».proof.Proof.Bridge
import proofs.«410255_j36412732735781_3_alg».proof.Proof.Gen.KernelIdeal.Frame
import proofs.«410255_j36412732735781_3_alg».proof.Proof.KTok
import proofs.«410255_j36412732735781_3_alg».proof.Proof.KGather
import proofs.«410255_j36412732735781_3_alg».proof.Proof.KSoftmax
import Idealize.ShloMosaic.Lib.ValueLayout
import Idealize.ShloMosaic.PureOps.Ideal.Laws

noncomputable section

open Idealize.ShloMosaic Idealize.ShloMosaic.ValueIdx Cert.KernelIdeal Cert.KernelIdeal.Gen Cert.Bridge

namespace Cert.KNorm

/-! ## Layout and reduction readings at coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-- A sum over the columns of a matrix, read at row `i`. -/
theorem rowSum_apply {n0 n1 : ℕ} (v : FVec Ideal ⟨2, ![n0, n1]⟩ .f32) (h : (⟨2, ![n0, n1]⟩ : Shape).Reduces [1] ⟨1, ![n0]⟩)
    (hφ : FKind.Formats .f32) (hacc : (0x00000000#32 : BitVec 32) = 0x00000000#32) (i : Fin n0) :
    multiReduction .add [1] ⟨1, ![n0]⟩ v 0x00000000#32 h hφ hacc (ix1 i) = ∑ k : Fin n1, v (ix2 i k) := by
  refine (Ideal.multiReduction_add_single v 0x00000000#32 h hφ hacc (ix1 i)).trans ?_
  refine Finset.sum_congr rfl fun k _ => congrArg v ?_
  funext c
  match c with
  | ⟨0, _⟩ => rfl
  | ⟨1, _⟩ => rfl

/-- A sum over the rows of a matrix, read at column `j`. -/
theorem colSum_apply {n0 n1 : ℕ} (v : FVec Ideal ⟨2, ![n0, n1]⟩ .f32) (h : (⟨2, ![n0, n1]⟩ : Shape).Reduces [0] ⟨1, ![n1]⟩)
    (hφ : FKind.Formats .f32) (hacc : (0x00000000#32 : BitVec 32) = 0x00000000#32) (j : Fin n1) :
    multiReduction .add [0] ⟨1, ![n1]⟩ v 0x00000000#32 h hφ hacc (ix1 j) = ∑ k : Fin n0, v (ix2 k j) := by
  refine (Ideal.multiReduction_add_single v 0x00000000#32 h hφ hacc (ix1 j)).trans ?_
  refine Finset.sum_congr rfl fun k _ => congrArg v ?_
  funext c
  match c with
  | ⟨0, _⟩ => rfl
  | ⟨1, _⟩ => rfl

/-! ## The identity indicator -/

/-- Row index against column index, compared for equality and read as a float: the identity matrix's entry. -/
theorem eye_apply (h0 : S512x512.Iotas .tc 32 [0]) (h1 : S512x512.Iotas .tc 32 [1]) (hlt : 1 < 32) (k s : Fin 512) :
    (sitofp .f32 (extui 32 (cmpi .eq (iota .tc S512x512 32 [0] h0) (iota .tc S512x512 32 [1] h1)) hlt) : FVec Ideal S512x512 .f32) (ix2 k s)
      = if k = s then 1 else 0 := by
  show ((((IntOp.cmpi .eq (iota .tc S512x512 32 [0] h0 (ix2 k s)) (iota .tc S512x512 32 [1] h1 (ix2 k s))).setWidth 32).toInt : ℝ) : EReal) = _
  rw [iota_single_apply, iota_single_apply]
  show ((((IntOp.cmpi .eq (BitVec.ofNat 32 k.val) (BitVec.ofNat 32 s.val)).setWidth 32).toInt : ℝ) : EReal) = _
  by_cases hks : k = s
  · subst hks
    rw [if_pos rfl, IntOp.cmpi_eq.mpr rfl]
    simp
  · have hne : ¬ IntOp.cmpi .eq (BitVec.ofNat 32 k.val) (BitVec.ofNat 32 s.val) = 1#1 := fun h => hks (Fin.ext (by
      have e := congrArg BitVec.toNat (IntOp.cmpi_eq.mp h)
      simp only [BitVec.toNat_ofNat] at e
      have := k.isLt; have := s.isLt
      omega))
    rw [if_neg hks, eq_zero_of_ne_one hne]
    simp

/-! ## The store's payload: the scalar laid over the block -/

/-- The one-entry vector cast to [1, 1], laid over [8, 128] and given its leading unit axis reads, everywhere, that entry. -/
theorem pay3_apply (v : FVec Ideal S1 .f32) (y : S1x8x128.Idx) : k0_pay3 v y = v (ix1 (0 : Fin 1)) := by
  obtain ⟨u, a, b, rfl⟩ : ∃ (u : Fin 1) (a : Fin 8) (b : Fin 128), y = ix3 u a b := ⟨y 0, y 1, y 2, eq_ix3 y⟩
  unfold k0_pay3
  refine (shapeCast_ab_1ab_apply _ _ u a b).trans ?_
  refine (broadcastTo_11_ab_apply _ _ a b).trans ?_
  rw [shapeCast_self]
  exact shapeCast_a_1a_apply _ _ 0 0

/-! ## The normalizer's payload, stage by stage -/

section Stages
variable (R : FVec Ideal S512x512 .f32) (H M C N P : FVec Ideal S992x512 .f32)

/-- The identity indicator as the kernel builds it. -/
def eyeV : FVec Ideal S512x512 .f32 :=
  sitofp .f32 (extui 32 (cmpi .eq (iota .tc S512x512 32 [0] iota_S512x512_d0_w32) (iota .tc S512x512 32 [1] iota_S512x512_d1_w32)) natLt_1_32)

/-- Zero minus the row sums of the matrix times the identity indicator. -/
def ndV : FVec Ideal S512 .f32 :=
  subf (broadcast S512 (Scalar.ofBits .f32 0x00000000#32))
    (multiReduction .add [1] S512 (mulf R eyeV) 0x00000000#32 reduces_S512x512_S512 (.inl rfl) rfl)

/-- Its value: zero minus the sum over a row of the entry times the indicator. -/
def nd (s : Fin 512) : EReal := 0 - ∑ s' : Fin 512, R (ix2 s s') * (if s = s' then 1 else 0)

theorem ndV_apply (s : Fin 512) : ndV R (ix1 s) = nd R s := by
  show Ideal.ofBits .f32 0x00000000#32
      - multiReduction .add [1] S512 (mulf R eyeV) 0x00000000#32 reduces_S512x512_S512 (.inl rfl) rfl (ix1 s) = _
  rw [Ideal.ofBits_zero_f32]
  refine congrArg (fun z : EReal => 0 - z) ?_
  refine (rowSum_apply _ _ _ _ s).trans ?_
  exact Finset.sum_congr rfl fun s' _ => congrArg (fun z : EReal => R (ix2 s s') * z) (eye_apply _ _ _ s s')

/-- That vector laid along every row. -/
def ndRows : FVec Ideal S992x512 .f32 :=
  broadcastTo S992x512 (shapeCast S1x512 (ndV R) shapeCasts_S512_S1x512) broadcasts_S1x512_S992x512

theorem ndRows_apply (i : Fin 992) (k : Fin 512) : ndRows R (ix2 i k) = nd R k := by
  unfold ndRows
  refine (broadcastTo_1b_ab_apply _ _ i k).trans ?_
  refine (shapeCast_a_1a_apply _ _ 0 k).trans ?_
  exact ndV_apply R k

/-- Each row's sum of the first factor times that vector, kept as a column. -/
def hrV : FVec Ideal S992x1 .f32 :=
  shapeCast S992x1 (multiReduction .add [1] S992 (mulf H (ndRows R)) 0x00000000#32 reduces_S992x512_S992 (.inl rfl) rfl)
    shapeCasts_S992_S992x1

theorem hrV_apply (i : Fin 992) (u : Fin 1) : hrV R H (ix2 i u) = ∑ s : Fin 512, H (ix2 i s) * nd R s := by
  unfold hrV
  refine (shapeCast_a_a1_apply _ _ i u).trans ?_
  refine (rowSum_apply _ _ _ _ i).trans ?_
  exact Finset.sum_congr rfl fun s _ => congrArg (fun z : EReal => H (ix2 i s) * z) (ndRows_apply R i s)

/-- The denominator's first factor: the column's total minus the row's entry, plus the vector's entry. -/
def zV : FVec Ideal S992x512 .f32 :=
  addf
    (broadcastTo S992x512
      (subf
        (broadcastTo S992x1
          (shapeCast S1x1 (multiReduction .add [0] S1 (hrV R H) 0x00000000#32 reduces_S992x1_S1 (.inl rfl) rfl) shapeCasts_S1_S1x1)
          broadcasts_S1x1_S992x1)
        (hrV R H))
      broadcasts_S992x1_S992x512)
    (ndRows R)

theorem zV_apply (i : Fin 992) (k : Fin 512) :
    zV R H (ix2 i k)
      = ((∑ j : Fin 992, ∑ s : Fin 512, H (ix2 j s) * nd R s) - ∑ s : Fin 512, H (ix2 i s) * nd R s) + nd R k := by
  unfold zV
  show broadcastTo S992x512 _ broadcasts_S992x1_S992x512 (ix2 i k) + ndRows R (ix2 i k) = _
  rw [ndRows_apply]
  refine congrArg (fun z : EReal => z + nd R k) ?_
  refine (broadcastTo_a1_ab_apply _ _ i k).trans ?_
  show broadcastTo S992x1 _ broadcasts_S1x1_S992x1 (ix2 i (0 : Fin 1)) - hrV R H (ix2 i (0 : Fin 1)) = _
  rw [hrV_apply]
  refine congrArg (fun z : EReal => z - ∑ s : Fin 512, H (ix2 i s) * nd R s) ?_
  refine (broadcastTo_11_ab_apply _ _ i (0 : Fin 1)).trans ?_
  refine (shapeCast_a_1a_apply _ _ 0 0).trans ?_
  refine (colSum_apply _ _ _ _ (0 : Fin 1)).trans ?_
  exact Finset.sum_congr rfl fun j _ => hrV_apply R H j 0

/-- The payload is the total of the quotients. -/
theorem pay28_eq :
    k0_pay28 R H M C N P
      = multiReduction .add [0] S1
          (shapeCast S992x1
            (multiReduction .add [1] S992
              (divf (mulf (mulf C N) M) (mulf (zV R H) (broadcastTo S992x512 (k0_pay26 P) broadcasts_S992x1_S992x512)))
              0x00000000#32 reduces_S992x512_S992 (.inl rfl) rfl)
            shapeCasts_S992_S992x1)
          0x00000000#32 reduces_S992x1_S1 (.inl rfl) rfl := rfl

theorem pay28_apply :
    k0_pay28 R H M C N P (ix1 (0 : Fin 1))
      = ∑ i : Fin 992, ∑ k : Fin 512,
          Ideal.div ((C (ix2 i k) * N (ix2 i k)) * M (ix2 i k))
            ((((∑ j : Fin 992, ∑ s : Fin 512, H (ix2 j s) * nd R s) - ∑ s : Fin 512, H (ix2 i s) * nd R s) + nd R k)
              * k0_pay26 P (ix2 i (0 : Fin 1))) := by
  rw [pay28_eq]
  refine (colSum_apply _ _ _ _ (0 : Fin 1)).trans ?_
  refine Finset.sum_congr rfl fun i _ => ?_
  refine (shapeCast_a_a1_apply _ _ i 0).trans ?_
  refine (rowSum_apply _ _ _ _ i).trans ?_
  refine Finset.sum_congr rfl fun k _ => ?_
  show Ideal.div ((C (ix2 i k) * N (ix2 i k)) * M (ix2 i k))
      (zV R H (ix2 i k) * broadcastTo S992x512 (k0_pay26 P) broadcasts_S992x1_S992x512 (ix2 i k)) = _
  rw [zV_apply, broadcastTo_a1_ab_apply]

end Stages

/-! ## The sums that pick one entry -/

/-- The row sum against the identity indicator picks the diagonal entry; zero minus it is its negation. -/
theorem nd_eq (R : FVec Ideal S512x512 .f32) (r : Fin 512 → Fin 512 → EReal) (hR : ∀ k s, R (ix2 k s) = r k s) (s : Fin 512) :
    nd R s = Spec.rrs r s := by
  unfold nd Spec.rrs
  rw [zero_sub]
  refine congrArg (fun z : EReal => -z) ?_
  rw [Finset.sum_eq_single s]
  · rw [if_pos rfl, mul_one, hR]
  · intro b _ hb
    rw [if_neg (Ne.symm hb), mul_zero]
  · intro h
    exact absurd (Finset.mem_univ s) h

/-- The sum against a token's indicator picks the token's entry. -/
theorem hot_sum (t : Fin 992 → Fin 512) (f : Fin 512 → EReal) (i : Fin 992) : ∑ s : Fin 512, Spec.hot t i s * f s = f (t i) := by
  unfold Spec.hot
  rw [Finset.sum_eq_single (t i)]
  · rw [if_pos rfl, one_mul]
  · intro b _ hb
    rw [if_neg hb, zero_mul]
  · intro h
    exact absurd (Finset.mem_univ (t i)) h

variable (x0 x1 : Vec Ideal S1x512x512 .f32) (x2 : Vec Ideal S1x1024x512 .f32) (x3 x4 : Vec Ideal S1x1x992 .i32)
  (d t : Fin 992 → Fin 512)

/-- Every entry of the [1, 8, 128] block the kernel writes for this output is the batch scalar. -/
theorem out_eq (hq : IsReal x0) (hr : IsReal x1) (hd : IsTok x3 d) (ht : IsTok x4 t) (y : S1x8x128.Idx) :
    out0_7 (F := Ideal) x0 x1 x2 x3 x4 y = Spec.norm (mat x0) (mat x1) d t := by
  unfold out0_7
  rw [View.canon_unit_zero (by funext a; fin_cases a <;> rfl)]
  rw [pay3_apply, pay28_apply]
  unfold Spec.norm
  refine Finset.sum_congr rfl fun i _ => Finset.sum_congr rfl fun k _ => ?_
  have hR : ∀ k s, k0_pay6 (F := Ideal) (View.ld x1 r0_1) (ix2 k s) = mat x1 k s := fun k s => KGather.mat_apply x1 k s
  have hH : ∀ j s, k0_pay16 (F := Ideal) (k0_pay7 (View.ld x4 r0_0)) (ix2 j s) = Spec.hot t j s := fun j s => KTok.hot_t x4 t ht j s
  have hrow : ∀ j : Fin 992, ∑ s : Fin 512, k0_pay16 (F := Ideal) (k0_pay7 (View.ld x4 r0_0)) (ix2 j s) * nd (k0_pay6 (View.ld x1 r0_1)) s
      = Spec.rrs (mat x1) (t j) := fun j => by
    rw [Finset.sum_congr rfl fun s _ => by rw [hH j s, nd_eq _ _ hR s]]
    exact hot_sum t (Spec.rrs (mat x1)) j
  rw [KGather.rcol_apply x1 x4 t hr ht i k, KGather.num_apply x0 x3 d hq hd i k, KTok.mask_t x4 t ht i k,
    KGather.oden_apply x0 x3 x4 d t hq hd ht i, hrow i, nd_eq _ _ hR k, Finset.sum_congr rfl fun j _ => hrow j]
  rfl

end Cert.KNorm

end
-- ==== Proof.KNll.lean ====
/-
  The log-likelihood's batch scalar as the kernel computes it: the log-softmax times the data tokens' indicator,
  summed over states (one surviving term per row) and then over rows.
-/
import proofs.«410255_j36412732735781_3_alg».proof.Proof.Bridge
import proofs.«410255_j36412732735781_3_alg».proof.Proof.Gen.KernelIdeal.Frame
import proofs.«410255_j36412732735781_3_alg».proof.Proof.KTok
import proofs.«410255_j36412732735781_3_alg».proof.Proof.KGather
import proofs.«410255_j36412732735781_3_alg».proof.Proof.KSoftmax
import Idealize.ShloMosaic.Lib.ValueLayout
import Idealize.ShloMosaic.PureOps.Ideal.Laws

noncomputable section

open Idealize.ShloMosaic Idealize.ShloMosaic.ValueIdx Cert.KernelIdeal Cert.KernelIdeal.Gen Cert.Bridge

namespace Cert.KNll

/-! ## Layout steps read at coordinates -/

/-- The zero offsets of the whole-block store, spelt as a vector literal, are the zero function. -/
theorem offsets_zero3 : (![0, 0, 0] : Fin 3 → Nat) = fun _ => 0 := funext fun a => by fin_cases a <;> rfl

/-- An [a] vector cast to the column [a, 1] reads, at (i, u), the vector at i, whatever the unit coordinate u:
    both positions in row-major order are i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row i of a [992, 512] value with the state s put back on the summed axis is the entry (i, s). -/
theorem lift_row (h : S992x512.Reduces [1] S992) (i : Fin 992) (s : Fin 512) :
    h.lift (ix1 i) s = ix2 i s := by
  funext c
  match c with
  | ⟨0, _⟩ => rfl
  | ⟨1, _⟩ => rfl

/-- The one entry of the [1] result with the row i put back on the summed axis of a [992, 1] column is (i, 0). -/
theorem lift_col (h : S992x1.Reduces [0] S1) (i : Fin 992) :
    h.lift (ix1 (0 : Fin 1)) i = ix2 i (0 : Fin 1) := by
  funext c
  match c with
  | ⟨0, _⟩ => rfl
  | ⟨1, _⟩ => rfl

/-- A sum over the states of a [992, 512] value, read at row i: the sum of that row's 512 entries. -/
theorem rowSum_apply (v : FVec Ideal S992x512 .f32) (h : S992x512.Reduces [1] S992) (hφ : FKind.Formats .f32)
    (hacc : (0x00000000#32 : BitVec 32) = FKind.add.neutral .f32 hφ) (i : Fin 992) :
    multiReduction .add [1] S992 v 0x00000000#32 h hφ hacc (ix1 i) = ∑ s : Fin 512, v (ix2 i s) :=
  (Ideal.multiReduction_add_single v _ h hφ hacc (ix1 i)).trans
    (Finset.sum_congr rfl fun s _ => congrArg v (lift_row h i s))

/-- A sum over the rows of a [992, 1] column, read at its one entry: the sum of the column's 992 entries. -/
theorem colSum_apply (v : FVec Ideal S992x1 .f32) (h : S992x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ i : Fin 992, v (ix2 i (0 : Fin 1)) :=
  (Ideal.multiReduction_add_single v _ h hφ hacc (ix1 (0 : Fin 1))).trans
    (Finset.sum_congr rfl fun i _ => congrArg v (lift_col h i))

/-! ## The two payloads of this output -/

/-- A [1, 1] value broadcast over the [1, 8, 128] block reads its one entry everywhere. -/
theorem pay4_apply (v : FVec Ideal S1x1 .f32) (y : S1x8x128.Idx) :
    k0_pay4 (F := Ideal) v y = v (ix2 (0 : Fin 1) (0 : Fin 1)) := by
  obtain ⟨a, b, c, rfl⟩ : ∃ (a : Fin 1) (b : Fin 8) (c : Fin 128), y = ix3 a b c := ⟨y 0, y 1, y 2, eq_ix3 y⟩
  unfold k0_pay4
  refine (shapeCast_ab_1ab_apply _ _ a b c).trans ?_
  refine (broadcastTo_apply _ _ (ix2 b c) (ix2 (0 : Fin 1) (0 : Fin 1)) (fun ax => ?_)).trans ?_
  · match ax with
    | ⟨0, _⟩ => rfl
    | ⟨1, _⟩ => rfl
  · exact shapeCast_apply _ _ _ _ rfl

/-- The scalar the kernel keeps for this output: the sum over rows and states of the log-softmax payload times the
    indicator payload H (the product, the sum over states, the column form, the sum over rows, the [1, 1] form). -/
theorem pay14_apply (H A B : FVec Ideal S992x512 .f32) :
    k0_pay14 (F := Ideal) H A B (ix2 (0 : Fin 1) (0 : Fin 1))
      = ∑ i : Fin 992, ∑ s : Fin 512, k0_pay13 (F := Ideal) A B (ix2 i s) * H (ix2 i s) := by
  unfold k0_pay14
  refine (shapeCast_a_1a_apply _ _ (0 : Fin 1) (0 : Fin 1)).trans ?_
  refine (colSum_apply _ _ _ _).trans ?_
  refine Finset.sum_congr rfl fun i _ => ?_
  refine (shapeCast_a_a1_apply _ _ i (0 : Fin 1)).trans ?_
  exact (rowSum_apply _ _ _ _ i).trans (Finset.sum_congr rfl fun s _ => mulf_apply _ _ _)

/-! ## The output -/

variable (x0 x1 : Vec Ideal S1x512x512 .f32) (x2 : Vec Ideal S1x1024x512 .f32) (x3 x4 : Vec Ideal S1x1x992 .i32)
  (d t : Fin 992 → Fin 512)

/-- Every entry of the [1, 8, 128] block the kernel writes for this output is the batch scalar. -/
theorem out_eq (hd : IsTok x3 d) (y : S1x8x128.Idx) :
    out0_8 (F := Ideal) x0 x1 x2 x3 x4 y = Spec.nll (logits x2) d := by
  unfold out0_8
  rw [View.canon_unit_zero offsets_zero3]
  refine (pay4_apply _ y).trans ?_
  refine (pay14_apply _ _ _).trans ?_
  unfold Spec.nll
  refine Finset.sum_congr rfl fun i _ => ?_
  -- in row i only the data token's state survives the indicator
  have hterm : ∀ s : Fin 512,
      k0_pay13 (F := Ideal) (k0_pay11 (View.ld x2 r0_2)) (k0_pay12 (View.ld x2 r0_2)) (ix2 i s)
          * k0_pay9 (F := Ideal) (View.ld x3 r0_0) (ix2 i s)
        = if s = d i then Spec.logp (logits x2) i s else 0 := by
    intro s
    rw [KSoftmax.logp_apply x2 i s, KTok.hot_d x3 d hd i s]
    unfold Spec.hot
    split
    · exact mul_one _
    · exact mul_zero _
  rw [Finset.sum_congr rfl fun s _ => hterm s, Finset.sum_ite_eq' Finset.univ (d i)]
  exact if_pos (Finset.mem_univ _)

end Cert.KNll

end
-- ==== Proof.RBatch.lean ====
/-
  One batch element's data out of the whole argument arrays: matrix b of a [32, 512, 512] array, the 992 content
  rows of logits element b, and the tokens of row b as states in 0 .. 511.
-/
import proofs.«410255_j36412732735781_3_alg».proof.Proof.Spec
import Idealize.ShloMosaic.Lib.ValueIdx

noncomputable section

namespace Cert.RBatch

open Idealize.ShloMosaic Idealize.ShloMosaic.ValueIdx

abbrev A32x512x512 : Shape := ⟨3, ![32, 512, 512]⟩
abbrev A32x1024x512 : Shape := ⟨3, ![32, 1024, 512]⟩
abbrev A32x992 : Shape := ⟨2, ![32, 992]⟩

def matAt (a : Vec Ideal A32x512x512 .f32) (b : Fin 32) (k s : Fin 512) : EReal := a (ix3 b k s)
def logitsAt (a : Vec Ideal A32x1024x512 .f32) (b : Fin 32) (i : Fin 992) (s : Fin 512) : EReal :=
  a (ix3 b (⟨32 + i.val, by have := i.isLt; omega⟩ : Fin 1024) s)
/-- The array's words are the states `u b i`, each below 512. -/
def IsToks (a : Vec Ideal A32x992 .i32) (u : Fin 32 → Fin 992 → Fin 512) : Prop :=
  ∀ (b : Fin 32) (i : Fin 992), a (ix2 b i) = BitVec.ofNat 32 (u b i).val
def IsReal {S : Shape} (a : Vec Ideal S .f32) : Prop := ∃ a' : S.Idx → ℝ, ∀ j, a j = ((a' j : ℝ) : EReal)

end Cert.RBatch

end
-- ==== Proof.KArrays.lean ====
/-
  The kernel's four output arrays after the run.  Each of the four output arrays [32, 8, 128] ends holding, at every entry of batch
  element b, that output's batch scalar of b's data (block b is what grid point b writes back, and the 32 blocks
  tile the array); so by the cover each array is that function of the batch index.
-/
import proofs.«410255_j36412732735781_3_alg».proof.Proof.KReg
import proofs.«410255_j36412732735781_3_alg».proof.Proof.KSig
import proofs.«410255_j36412732735781_3_alg».proof.Proof.KNorm
import proofs.«410255_j36412732735781_3_alg».proof.Proof.KNll
import proofs.«410255_j36412732735781_3_alg».proof.Proof.RBatch
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Cert.KernelIdeal Cert.KernelIdeal.Gen Cert.RBatch

namespace Cert.KArrays

variable (m : (ℓ : Loc nD τ sig) → Buf (Elt Ideal) ℓ) (ρ : Dev nD → PrngReg)

/-- The launch contents of the five arguments on core c. -/
abbrev A0 (c : Dev nD) : Vec Ideal A32x512x512 .f32 := m ((c : Thread nD τ).loc main_arg0)
abbrev A1 (c : Dev nD) : Vec Ideal A32x512x512 .f32 := m ((c : Thread nD τ).loc main_arg1)
abbrev A2 (c : Dev nD) : Vec Ideal A32x1024x512 .f32 := m ((c : Thread nD τ).loc main_arg2)
abbrev A3 (c : Dev nD) : Vec Ideal A32x992 .i32 := m ((c : Thread nD τ).loc main_arg3)
abbrev A4 (c : Dev nD) : Vec Ideal A32x992 .i32 := m ((c : Thread nD τ).loc main_arg4)

/-- The four batch vectors of the launch contents. -/
def regv (c : Dev nD) (t : Fin 32 → Fin 992 → Fin 512) (b : Fin 32) : EReal :=
  Spec.reg (matAt (A0 m c) b) (matAt (A1 m c) b) (logitsAt (A2 m c) b) (t b)
def sigv (c : Dev nD) (d t : Fin 32 → Fin 992 → Fin 512) (b : Fin 32) : EReal :=
  Spec.sig (matAt (A0 m c) b) (matAt (A1 m c) b) (logitsAt (A2 m c) b) (d b) (t b)
def normv (c : Dev nD) (d t : Fin 32 → Fin 992 → Fin 512) (b : Fin 32) : EReal :=
  Spec.norm (matAt (A0 m c) b) (matAt (A1 m c) b) (d b) (t b)
def nllv (c : Dev nD) (d : Fin 32 → Fin 992 → Fin 512) (b : Fin 32) : EReal :=
  Spec.nll (logitsAt (A2 m c) b) (d b)

/-! ## The grid's points and the windows' block indices -/

/-- The batch element a grid point works on (the grid has 32 points). -/
abbrev bat (p : Fin cfg0.N) : Fin 32 := ⟨p.val, lt_of_lt_of_eq p.isLt N_0⟩

/-- The printed index maps, decided over the grid: at point p every window's block index is (p, 0, 0). -/
theorem idx_facts : ∀ p : Fin cfg0.N,
    (win0_0.index p (0 : Fin 3) = p.val ∧ win0_0.index p (1 : Fin 3) = 0 ∧ win0_0.index p (2 : Fin 3) = 0)
    ∧ (win0_1.index p (0 : Fin 3) = p.val ∧ win0_1.index p (1 : Fin 3) = 0 ∧ win0_1.index p (2 : Fin 3) = 0)
    ∧ (win0_2.index p (0 : Fin 3) = p.val ∧ win0_2.index p (1 : Fin 3) = 0 ∧ win0_2.index p (2 : Fin 3) = 0)
    ∧ (win0_3.index p (0 : Fin 3) = p.val ∧ win0_3.index p (1 : Fin 3) = 0 ∧ win0_3.index p (2 : Fin 3) = 0)
    ∧ (win0_4.index p (0 : Fin 3) = p.val ∧ win0_4.index p (1 : Fin 3) = 0 ∧ win0_4.index p (2 : Fin 3) = 0)
    ∧ (win0_5.index p (0 : Fin 3) = p.val ∧ win0_5.index p (1 : Fin 3) = 0 ∧ win0_5.index p (2 : Fin 3) = 0)
    ∧ (win0_6.index p (0 : Fin 3) = p.val ∧ win0_6.index p (1 : Fin 3) = 0 ∧ win0_6.index p (2 : Fin 3) = 0)
    ∧ (win0_7.index p (0 : Fin 3) = p.val ∧ win0_7.index p (1 : Fin 3) = 0 ∧ win0_7.index p (2 : Fin 3) = 0)
    ∧ (win0_8.index p (0 : Fin 3) = p.val ∧ win0_8.index p (1 : Fin 3) = 0 ∧ win0_8.index p (2 : Fin 3) = 0) :=
  (by decide +kernel : ∀ p : Fin grid0.N, _)

/-! ## The input blocks of a point, as entries of the launch arrays -/

/-- The five input blocks at grid point p, at their literal types. -/
abbrev B0 (c : Dev nD) (p : Fin cfg0.N) : Vec Ideal S1x512x512 .f32 := iblk m c 0 p
abbrev B1 (c : Dev nD) (p : Fin cfg0.N) : Vec Ideal S1x512x512 .f32 := iblk m c 1 p
abbrev B2 (c : Dev nD) (p : Fin cfg0.N) : Vec Ideal S1x1024x512 .f32 := iblk m c 2 p
abbrev B3 (c : Dev nD) (p : Fin cfg0.N) : Vec Ideal S1x1x992 .i32 := iblk m c 3 p
abbrev B4 (c : Dev nD) (p : Fin cfg0.N) : Vec Ideal S1x1x992 .i32 := iblk m c 4 p

/-- Where entry (0, k, s) of point p's block of a [32, a, b] array lies in the array: at (p, k, s). -/
theorem emb0 (p : Fin cfg0.N) (k s : Fin 512) :
    (((cfg0.win 0).blk p).view.emb (ix3 (0 : Fin 1) k s) : A32x512x512.Idx) = ix3 (bat p) k s := by
  obtain ⟨⟨e0, e1, e2⟩, -⟩ := idx_facts p
  funext a; apply Fin.ext
  match a with
  | ⟨0, _⟩ => show win0_0.index p (0 : Fin 3) * 1 + 1 * 0 = p.val; omega
  | ⟨1, _⟩ => show win0_0.index p (1 : Fin 3) * 512 + 1 * k.val = k.val; omega
  | ⟨2, _⟩ => show win0_0.index p (2 : Fin 3) * 512 + 1 * s.val = s.val; omega
theorem emb1 (p : Fin cfg0.N) (k s : Fin 512) :
    (((cfg0.win 1).blk p).view.emb (ix3 (0 : Fin 1) k s) : A32x512x512.Idx) = ix3 (bat p) k s := by
  obtain ⟨-, ⟨e0, e1, e2⟩, -⟩ := idx_facts p
  funext a; apply Fin.ext
  match a with
  | ⟨0, _⟩ => show win0_1.index p (0 : Fin 3) * 1 + 1 * 0 = p.val; omega
  | ⟨1, _⟩ => show win0_1.index p (1 : Fin 3) * 512 + 1 * k.val = k.val; omega
  | ⟨2, _⟩ => show win0_1.index p (2 : Fin 3) * 512 + 1 * s.val = s.val; omega
theorem emb2 (p : Fin cfg0.N) (r : Fin 1024) (s : Fin 512) :
    (((cfg0.win 2).blk p).view.emb (ix3 (0 : Fin 1) r s) : A32x1024x512.Idx) = ix3 (bat p) r s := by
  obtain ⟨-, -, ⟨e0, e1, e2⟩, -⟩ := idx_facts p
  funext a; apply Fin.ext
  match a with
  | ⟨0, _⟩ => show win0_2.index p (0 : Fin 3) * 1 + 1 * 0 = p.val; omega
  | ⟨1, _⟩ => show win0_2.index p (1 : Fin 3) * 1024 + 1 * r.val = r.val; omega
  | ⟨2, _⟩ => show win0_2.index p (2 : Fin 3) * 512 + 1 * s.val = s.val; omega
theorem emb3 (p : Fin cfg0.N) (i : Fin 992) :
    (((cfg0.win 3).blk p).view.emb (ix3 (0 : Fin 1) (0 : Fin 1) i) : S32x1x992.Idx) = ix3 (bat p) (0 : Fin 1) i := by
  obtain ⟨-, -, -, ⟨e0, e1, e2⟩, -⟩ := idx_facts p
  funext a; apply Fin.ext
  match a with
  | ⟨0, _⟩ => show win0_3.index p (0 : Fin 3) * 1 + 1 * 0 = p.val; omega
  | ⟨1, _⟩ => show win0_3.index p (1 : Fin 3) * 1 + 1 * 0 = 0; omega
  | ⟨2, _⟩ => show win0_3.index p (2 : Fin 3) * 992 + 1 * i.val = i.val; omega
theorem emb4 (p : Fin cfg0.N) (i : Fin 992) :
    (((cfg0.win 4).blk p).view.emb (ix3 (0 : Fin 1) (0 : Fin 1) i) : S32x1x992.Idx) = ix3 (bat p) (0 : Fin 1) i := by
  obtain ⟨-, -, -, -, ⟨e0, e1, e2⟩, -⟩ := idx_facts p
  funext a; apply Fin.ext
  match a with
  | ⟨0, _⟩ => show win0_4.index p (0 : Fin 3) * 1 + 1 * 0 = p.val; omega
  | ⟨1, _⟩ => show win0_4.index p (1 : Fin 3) * 1 + 1 * 0 = 0; omega
  | ⟨2, _⟩ => show win0_4.index p (2 : Fin 3) * 992 + 1 * i.val = i.val; omega

/-- A block of a float argument reads the launch array through the block's rectangle (the host lines before the
    call do not write the argument). -/
theorem B0_read (c : Dev nD) (p : Fin cfg0.N) (y : S1x512x512.Idx) :
    B0 m c p y = A0 m c (((cfg0.win 0).blk p).view.emb y) := by
  show V m c main_arg0 _ = _
  rw [V_main_arg0]
theorem B1_read (c : Dev nD) (p : Fin cfg0.N) (y : S1x512x512.Idx) :
    B1 m c p y = A1 m c (((cfg0.win 1).blk p).view.emb y) := by
  show V m c main_arg1 _ = _
  rw [V_main_arg1]
theorem B2_read (c : Dev nD) (p : Fin cfg0.N) (y : S1x1024x512.Idx) :
    B2 m c p y = A2 m c (((cfg0.win 2).blk p).view.emb y) := by
  show V m c main_arg2 _ = _
  rw [V_main_arg2]

/-- The token arrays reach the call reshaped [32, 992] → [32, 1, 992] by the host lines before it. -/
theorem V_tok3 (c : Dev nD) :
    (V m c main_v0 : Vec Ideal S32x1x992 .i32) = shapeCast S32x1x992 (A3 m c) Facts₀.shapeCasts_S32x992_S32x1x992 := by
  show StableHlo.after hostOps0 (fun b => m (c, b)) (Proc.devRef .tc main_v0) = _
  after_results
  rfl
theorem V_tok4 (c : Dev nD) :
    (V m c main_v1 : Vec Ideal S32x1x992 .i32) = shapeCast S32x1x992 (A4 m c) Facts₀.shapeCasts_S32x992_S32x1x992 := by
  show StableHlo.after hostOps0 (fun b => m (c, b)) (Proc.devRef .tc main_v1) = _
  after_results
  rfl

/-- A [32, 992] array cast to [32, 1, 992] reads, at (b, u, i), the array at (b, i): both positions in row-major
    order are 992 b + i. -/
theorem reshape_tok_apply {α : Type} (x : A32x992.Idx → α) (h : A32x992.ShapeCasts S32x1x992)
    (b : Fin 32) (u : Fin 1) (i : Fin 992) : shapeCast S32x1x992 x h (ix3 b u i) = x (ix2 b i) :=
  shapeCast_apply x h _ _ (by
    have hu : u.val = 0 := by omega
    rw [Shape.rowMajor_val_two, Shape.rowMajor_val_three]
    show b.val * 992 + i.val = (b.val * 1 + u.val) * 992 + i.val
    rw [hu, Nat.mul_one, Nat.add_zero])

/-- Word i of point p's token block is word (p, i) of the launch array. -/
theorem B3_apply (c : Dev nD) (p : Fin cfg0.N) (i : Fin 992) :
    B3 m c p (ix3 (0 : Fin 1) (0 : Fin 1) i) = A3 m c (ix2 (bat p) i) := by
  show V m c main_v0 (((cfg0.win 3).blk p).view.emb (ix3 (0 : Fin 1) (0 : Fin 1) i)) = _
  rw [V_tok3]
  exact (congrArg (shapeCast S32x1x992 (A3 m c) Facts₀.shapeCasts_S32x992_S32x1x992) (emb3 p i)).trans
    (reshape_tok_apply (A3 m c) _ (bat p) (0 : Fin 1) i)
theorem B4_apply (c : Dev nD) (p : Fin cfg0.N) (i : Fin 992) :
    B4 m c p (ix3 (0 : Fin 1) (0 : Fin 1) i) = A4 m c (ix2 (bat p) i) := by
  show V m c main_v1 (((cfg0.win 4).blk p).view.emb (ix3 (0 : Fin 1) (0 : Fin 1) i)) = _
  rw [V_tok4]
  exact (congrArg (shapeCast S32x1x992 (A4 m c) Facts₀.shapeCasts_S32x992_S32x1x992) (emb4 p i)).trans
    (reshape_tok_apply (A4 m c) _ (bat p) (0 : Fin 1) i)

/-! ## What the per-block theorems ask, at a point's blocks -/

theorem real_B0 (c : Dev nD) (p : Fin cfg0.N) (hq : IsReal (A0 m c)) : Bridge.IsReal (B0 m c p) := by
  obtain ⟨a', ha⟩ := hq
  exact ⟨fun y => a' (((cfg0.win 0).blk p).view.emb y), fun y => (B0_read m c p y).trans (ha _)⟩
theorem real_B1 (c : Dev nD) (p : Fin cfg0.N) (hr : IsReal (A1 m c)) : Bridge.IsReal (B1 m c p) := by
  obtain ⟨a', ha⟩ := hr
  exact ⟨fun y => a' (((cfg0.win 1).blk p).view.emb y), fun y => (B1_read m c p y).trans (ha _)⟩

/-- The matrices and the logits a point's blocks hold are those of its batch element. -/
theorem mat_B0 (c : Dev nD) (p : Fin cfg0.N) : Bridge.mat (B0 m c p) = matAt (A0 m c) (bat p) := by
  funext k s
  exact (B0_read m c p (ix3 (0 : Fin 1) k s)).trans (congrArg (A0 m c) (emb0 p k s))
theorem mat_B1 (c : Dev nD) (p : Fin cfg0.N) : Bridge.mat (B1 m c p) = matAt (A1 m c) (bat p) := by
  funext k s
  exact (B1_read m c p (ix3 (0 : Fin 1) k s)).trans (congrArg (A1 m c) (emb1 p k s))
theorem logits_B2 (c : Dev nD) (p : Fin cfg0.N) : Bridge.logits (B2 m c p) = logitsAt (A2 m c) (bat p) := by
  funext i s
  exact (B2_read m c p (ix3 (0 : Fin 1) (⟨32 + i.val, by have := i.isLt; omega⟩ : Fin 1024) s)).trans
    (congrArg (A2 m c) (emb2 p _ s))

/-- The token blocks hold the states of the point's batch element. -/
theorem tok_B3 (c : Dev nD) (p : Fin cfg0.N) (d : Fin 32 → Fin 992 → Fin 512) (hd : IsToks (A3 m c) d) :
    Bridge.IsTok (B3 m c p) (d (bat p)) :=
  fun i => (B3_apply m c p i).trans (hd (bat p) i)
theorem tok_B4 (c : Dev nD) (p : Fin cfg0.N) (t : Fin 32 → Fin 992 → Fin 512) (ht : IsToks (A4 m c) t) :
    Bridge.IsTok (B4 m c p) (t (bat p)) :=
  fun i => (B4_apply m c p i).trans (ht (bat p) i)

/-! ## The output blocks: membership, the cover, the batch index -/

/-- An entry of output array 0 is in point p's block iff each coordinate is in the block's range on its axis. -/
theorem mem_blk5 (p : Fin cfg0.N) (i : S32x8x128.Idx) :
    i ∈ ((cfg0.win 5).blk p).view.set ↔ ∀ a : Fin 3, win0_5.index p a * S1x8x128.size a ≤ (i a).val
      ∧ (i a).val < win0_5.index p a * S1x8x128.size a + S1x8x128.size a := by
  show i ∈ ((View.whole main_v2_0).slice (win0_5.rect p)).set ↔ _
  rw [View.set_slice_whole, Rect.mem_set_unit]
  exact Iff.rfl

/-- Every entry (b, ·, ·) lies in the block of the point b, which writes back. -/
theorem cover5 (i : S32x8x128.Idx) :
    ∃ p : Fin cfg0.N, (cfg0.win 5).flush p = true ∧ i ∈ ((cfg0.win 5).blk p).view.set := by
  have hi0 : (i 0).val < 32 := (i 0).isLt
  have hi1 : (i 1).val < 8 := (i 1).isLt
  have hi2 : (i 2).val < 128 := (i 2).isLt
  have hp : (i 0).val < cfg0.N := lt_of_lt_of_eq hi0 N_0.symm
  refine ⟨⟨(i 0).val, hp⟩, flush0_5 _, ?_⟩
  rw [mem_blk5]
  obtain ⟨-, -, -, -, -, ⟨e0, e1, e2⟩, -⟩ := idx_facts ⟨(i 0).val, hp⟩
  have e0' : win0_5.index ⟨(i 0).val, hp⟩ (0 : Fin 3) = (i 0).val := e0
  intro a
  match a with
  | ⟨0, _⟩ => show win0_5.index ⟨(i 0).val, hp⟩ (0 : Fin 3) * 1 ≤ (i 0).val ∧ (i 0).val < win0_5.index ⟨(i 0).val, hp⟩ (0 : Fin 3) * 1 + 1; omega
  | ⟨1, _⟩ => show win0_5.index ⟨(i 0).val, hp⟩ (1 : Fin 3) * 8 ≤ (i 1).val ∧ (i 1).val < win0_5.index ⟨(i 0).val, hp⟩ (1 : Fin 3) * 8 + 8; omega
  | ⟨2, _⟩ => show win0_5.index ⟨(i 0).val, hp⟩ (2 : Fin 3) * 128 ≤ (i 2).val ∧ (i 2).val < win0_5.index ⟨(i 0).val, hp⟩ (2 : Fin 3) * 128 + 128; omega

/-- Every entry of point p's block of output array 0 has batch index p: a function of the batch index alone is
    constant on the block. -/
theorem batch_blk5 {α : Type} (f : Fin 32 → α) (p : Fin cfg0.N) (y : S1x8x128.Idx) :
    (fun i : S32x8x128.Idx => f ⟨(i 0).val, (i 0).isLt⟩) (((cfg0.win 5).blk p).view.emb y) = f (bat p) := by
  obtain ⟨-, -, -, -, -, ⟨e0, e1, e2⟩, -⟩ := idx_facts p
  have hy : (y 0).val < 1 := (y 0).isLt
  refine congrArg f (Fin.ext ?_)
  show win0_5.index p (0 : Fin 3) * 1 + 1 * (y 0).val = p.val
  omega

/-- An entry of output array 1 is in point p's block iff each coordinate is in the block's range on its axis. -/
theorem mem_blk6 (p : Fin cfg0.N) (i : S32x8x128.Idx) :
    i ∈ ((cfg0.win 6).blk p).view.set ↔ ∀ a : Fin 3, win0_6.index p a * S1x8x128.size a ≤ (i a).val
      ∧ (i a).val < win0_6.index p a * S1x8x128.size a + S1x8x128.size a := by
  show i ∈ ((View.whole main_v2_1).slice (win0_6.rect p)).set ↔ _
  rw [View.set_slice_whole, Rect.mem_set_unit]
  exact Iff.rfl

/-- Every entry (b, ·, ·) lies in the block of the point b, which writes back. -/
theorem cover6 (i : S32x8x128.Idx) :
    ∃ p : Fin cfg0.N, (cfg0.win 6).flush p = true ∧ i ∈ ((cfg0.win 6).blk p).view.set := by
  have hi0 : (i 0).val < 32 := (i 0).isLt
  have hi1 : (i 1).val < 8 := (i 1).isLt
  have hi2 : (i 2).val < 128 := (i 2).isLt
  have hp : (i 0).val < cfg0.N := lt_of_lt_of_eq hi0 N_0.symm
  refine ⟨⟨(i 0).val, hp⟩, flush0_6 _, ?_⟩
  rw [mem_blk6]
  obtain ⟨-, -, -, -, -, -, ⟨e0, e1, e2⟩, -⟩ := idx_facts ⟨(i 0).val, hp⟩
  have e0' : win0_6.index ⟨(i 0).val, hp⟩ (0 : Fin 3) = (i 0).val := e0
  intro a
  match a with
  | ⟨0, _⟩ => show win0_6.index ⟨(i 0).val, hp⟩ (0 : Fin 3) * 1 ≤ (i 0).val ∧ (i 0).val < win0_6.index ⟨(i 0).val, hp⟩ (0 : Fin 3) * 1 + 1; omega
  | ⟨1, _⟩ => show win0_6.index ⟨(i 0).val, hp⟩ (1 : Fin 3) * 8 ≤ (i 1).val ∧ (i 1).val < win0_6.index ⟨(i 0).val, hp⟩ (1 : Fin 3) * 8 + 8; omega
  | ⟨2, _⟩ => show win0_6.index ⟨(i 0).val, hp⟩ (2 : Fin 3) * 128 ≤ (i 2).val ∧ (i 2).val < win0_6.index ⟨(i 0).val, hp⟩ (2 : Fin 3) * 128 + 128; omega

/-- Every entry of point p's block of output array 1 has batch index p: a function of the batch index alone is
    constant on the block. -/
theorem batch_blk6 {α : Type} (f : Fin 32 → α) (p : Fin cfg0.N) (y : S1x8x128.Idx) :
    (fun i : S32x8x128.Idx => f ⟨(i 0).val, (i 0).isLt⟩) (((cfg0.win 6).blk p).view.emb y) = f (bat p) := by
  obtain ⟨-, -, -, -, -, -, ⟨e0, e1, e2⟩, -⟩ := idx_facts p
  have hy : (y 0).val < 1 := (y 0).isLt
  refine congrArg f (Fin.ext ?_)
  show win0_6.index p (0 : Fin 3) * 1 + 1 * (y 0).val = p.val
  omega

/-- An entry of output array 2 is in point p's block iff each coordinate is in the block's range on its axis. -/
theorem mem_blk7 (p : Fin cfg0.N) (i : S32x8x128.Idx) :
    i ∈ ((cfg0.win 7).blk p).view.set ↔ ∀ a : Fin 3, win0_7.index p a * S1x8x128.size a ≤ (i a).val
      ∧ (i a).val < win0_7.index p a * S1x8x128.size a + S1x8x128.size a := by
  show i ∈ ((View.whole main_v2_2).slice (win0_7.rect p)).set ↔ _
  rw [View.set_slice_whole, Rect.mem_set_unit]
  exact Iff.rfl

/-- Every entry (b, ·, ·) lies in the block of the point b, which writes back. -/
theorem cover7 (i : S32x8x128.Idx) :
    ∃ p : Fin cfg0.N, (cfg0.win 7).flush p = true ∧ i ∈ ((cfg0.win 7).blk p).view.set := by
  have hi0 : (i 0).val < 32 := (i 0).isLt
  have hi1 : (i 1).val < 8 := (i 1).isLt
  have hi2 : (i 2).val < 128 := (i 2).isLt
  have hp : (i 0).val < cfg0.N := lt_of_lt_of_eq hi0 N_0.symm
  refine ⟨⟨(i 0).val, hp⟩, flush0_7 _, ?_⟩
  rw [mem_blk7]
  obtain ⟨-, -, -, -, -, -, -, ⟨e0, e1, e2⟩, -⟩ := idx_facts ⟨(i 0).val, hp⟩
  have e0' : win0_7.index ⟨(i 0).val, hp⟩ (0 : Fin 3) = (i 0).val := e0
  intro a
  match a with
  | ⟨0, _⟩ => show win0_7.index ⟨(i 0).val, hp⟩ (0 : Fin 3) * 1 ≤ (i 0).val ∧ (i 0).val < win0_7.index ⟨(i 0).val, hp⟩ (0 : Fin 3) * 1 + 1; omega
  | ⟨1, _⟩ => show win0_7.index ⟨(i 0).val, hp⟩ (1 : Fin 3) * 8 ≤ (i 1).val ∧ (i 1).val < win0_7.index ⟨(i 0).val, hp⟩ (1 : Fin 3) * 8 + 8; omega
  | ⟨2, _⟩ => show win0_7.index ⟨(i 0).val, hp⟩ (2 : Fin 3) * 128 ≤ (i 2).val ∧ (i 2).val < win0_7.index ⟨(i 0).val, hp⟩ (2 : Fin 3) * 128 + 128; omega

/-- Every entry of point p's block of output array 2 has batch index p: a function of the batch index alone is
    constant on the block. -/
theorem batch_blk7 {α : Type} (f : Fin 32 → α) (p : Fin cfg0.N) (y : S1x8x128.Idx) :
    (fun i : S32x8x128.Idx => f ⟨(i 0).val, (i 0).isLt⟩) (((cfg0.win 7).blk p).view.emb y) = f (bat p) := by
  obtain ⟨-, -, -, -, -, -, -, ⟨e0, e1, e2⟩, -⟩ := idx_facts p
  have hy : (y 0).val < 1 := (y 0).isLt
  refine congrArg f (Fin.ext ?_)
  show win0_7.index p (0 : Fin 3) * 1 + 1 * (y 0).val = p.val
  omega

/-- An entry of output array 3 is in point p's block iff each coordinate is in the block's range on its axis. -/
theorem mem_blk8 (p : Fin cfg0.N) (i : S32x8x128.Idx) :
    i ∈ ((cfg0.win 8).blk p).view.set ↔ ∀ a : Fin 3, win0_8.index p a * S1x8x128.size a ≤ (i a).val
      ∧ (i a).val < win0_8.index p a * S1x8x128.size a + S1x8x128.size a := by
  show i ∈ ((View.whole main_v2_3).slice (win0_8.rect p)).set ↔ _
  rw [View.set_slice_whole, Rect.mem_set_unit]
  exact Iff.rfl

/-- Every entry (b, ·, ·) lies in the block of the point b, which writes back. -/
theorem cover8 (i : S32x8x128.Idx) :
    ∃ p : Fin cfg0.N, (cfg0.win 8).flush p = true ∧ i ∈ ((cfg0.win 8).blk p).view.set := by
  have hi0 : (i 0).val < 32 := (i 0).isLt
  have hi1 : (i 1).val < 8 := (i 1).isLt
  have hi2 : (i 2).val < 128 := (i 2).isLt
  have hp : (i 0).val < cfg0.N := lt_of_lt_of_eq hi0 N_0.symm
  refine ⟨⟨(i 0).val, hp⟩, flush0_8 _, ?_⟩
  rw [mem_blk8]
  obtain ⟨-, -, -, -, -, -, -, -, e0, e1, e2⟩ := idx_facts ⟨(i 0).val, hp⟩
  have e0' : win0_8.index ⟨(i 0).val, hp⟩ (0 : Fin 3) = (i 0).val := e0
  intro a
  match a with
  | ⟨0, _⟩ => show win0_8.index ⟨(i 0).val, hp⟩ (0 : Fin 3) * 1 ≤ (i 0).val ∧ (i 0).val < win0_8.index ⟨(i 0).val, hp⟩ (0 : Fin 3) * 1 + 1; omega
  | ⟨1, _⟩ => show win0_8.index ⟨(i 0).val, hp⟩ (1 : Fin 3) * 8 ≤ (i 1).val ∧ (i 1).val < win0_8.index ⟨(i 0).val, hp⟩ (1 : Fin 3) * 8 + 8; omega
  | ⟨2, _⟩ => show win0_8.index ⟨(i 0).val, hp⟩ (2 : Fin 3) * 128 ≤ (i 2).val ∧ (i 2).val < win0_8.index ⟨(i 0).val, hp⟩ (2 : Fin 3) * 128 + 128; omega

/-- Every entry of point p's block of output array 3 has batch index p: a function of the batch index alone is
    constant on the block. -/
theorem batch_blk8 {α : Type} (f : Fin 32 → α) (p : Fin cfg0.N) (y : S1x8x128.Idx) :
    (fun i : S32x8x128.Idx => f ⟨(i 0).val, (i 0).isLt⟩) (((cfg0.win 8).blk p).view.emb y) = f (bat p) := by
  obtain ⟨-, -, -, -, -, -, -, -, e0, e1, e2⟩ := idx_facts p
  have hy : (y 0).val < 1 := (y 0).isLt
  refine congrArg f (Fin.ext ?_)
  show win0_8.index p (0 : Fin 3) * 1 + 1 * (y 0).val = p.val
  omega

/-! ## What each point writes back: its block of the batch vector -/

theorem flushed5_eq (c : Dev nD) (t : Fin 32 → Fin 992 → Fin 512) (hq : IsReal (A0 m c)) (hr : IsReal (A1 m c))
    (ht : IsToks (A4 m c) t) (p : Fin cfg0.N) :
    (dats m 0 c).flushed 5 p
      = ((cfg0.win 5).blk p).view.read (Elt Ideal) (fun i : S32x8x128.Idx => regv m c t ⟨(i 0).val, (i 0).isLt⟩) := by
  show (cfg0.win 5).cut (grid0.coords p) ((dats m 0 c).after 5 p) = _
  rw [after0_5]
  funext y
  refine Eq.trans ?_ (batch_blk5 (regv m c t) p y).symm
  show out0_5 (F := Ideal) (B0 m c p) (B1 m c p) (B2 m c p) (B3 m c p) (B4 m c p) y = _
  refine (KReg.out_eq (B0 m c p) (B1 m c p) (B2 m c p) (B3 m c p) (B4 m c p) (t (bat p))
    (real_B0 m c p hq) (real_B1 m c p hr) (tok_B4 m c p t ht) y).trans ?_
  unfold regv
  rw [mat_B0, mat_B1, logits_B2]

theorem flushed6_eq (c : Dev nD) (d t : Fin 32 → Fin 992 → Fin 512) (hq : IsReal (A0 m c)) (hr : IsReal (A1 m c))
    (hd : IsToks (A3 m c) d) (ht : IsToks (A4 m c) t) (p : Fin cfg0.N) :
    (dats m 0 c).flushed 6 p
      = ((cfg0.win 6).blk p).view.read (Elt Ideal) (fun i : S32x8x128.Idx => sigv m c d t ⟨(i 0).val, (i 0).isLt⟩) := by
  show (cfg0.win 6).cut (grid0.coords p) ((dats m 0 c).after 6 p) = _
  rw [after0_6]
  funext y
  refine Eq.trans ?_ (batch_blk6 (sigv m c d t) p y).symm
  show out0_6 (F := Ideal) (B0 m c p) (B1 m c p) (B2 m c p) (B3 m c p) (B4 m c p) y = _
  refine (KSig.out_eq (B0 m c p) (B1 m c p) (B2 m c p) (B3 m c p) (B4 m c p) (d (bat p)) (t (bat p))
    (real_B0 m c p hq) (real_B1 m c p hr) (tok_B3 m c p d hd) (tok_B4 m c p t ht) y).trans ?_
  unfold sigv
  rw [mat_B0, mat_B1, logits_B2]

theorem flushed7_eq (c : Dev nD) (d t : Fin 32 → Fin 992 → Fin 512) (hq : IsReal (A0 m c)) (hr : IsReal (A1 m c))
    (hd : IsToks (A3 m c) d) (ht : IsToks (A4 m c) t) (p : Fin cfg0.N) :
    (dats m 0 c).flushed 7 p
      = ((cfg0.win 7).blk p).view.read (Elt Ideal) (fun i : S32x8x128.Idx => normv m c d t ⟨(i 0).val, (i 0).isLt⟩) := by
  show (cfg0.win 7).cut (grid0.coords p) ((dats m 0 c).after 7 p) = _
  rw [after0_7]
  funext y
  refine Eq.trans ?_ (batch_blk7 (normv m c d t) p y).symm
  show out0_7 (F := Ideal) (B0 m c p) (B1 m c p) (B2 m c p) (B3 m c p) (B4 m c p) y = _
  refine (KNorm.out_eq (B0 m c p) (B1 m c p) (B2 m c p) (B3 m c p) (B4 m c p) (d (bat p)) (t (bat p))
    (real_B0 m c p hq) (real_B1 m c p hr) (tok_B3 m c p d hd) (tok_B4 m c p t ht) y).trans ?_
  unfold normv
  rw [mat_B0, mat_B1]

theorem flushed8_eq (c : Dev nD) (d : Fin 32 → Fin 992 → Fin 512) (hd : IsToks (A3 m c) d) (p : Fin cfg0.N) :
    (dats m 0 c).flushed 8 p
      = ((cfg0.win 8).blk p).view.read (Elt Ideal) (fun i : S32x8x128.Idx => nllv m c d ⟨(i 0).val, (i 0).isLt⟩) := by
  show (cfg0.win 8).cut (grid0.coords p) ((dats m 0 c).after 8 p) = _
  rw [after0_8]
  funext y
  refine Eq.trans ?_ (batch_blk8 (nllv m c d) p y).symm
  show out0_8 (F := Ideal) (B0 m c p) (B1 m c p) (B2 m c p) (B3 m c p) (B4 m c p) y = _
  refine (KNll.out_eq (B0 m c p) (B1 m c p) (B2 m c p) (B3 m c p) (B4 m c p) (d (bat p))
    (tok_B3 m c p d hd) y).trans ?_
  unfold nllv
  rw [logits_B2]

section
variable (c : Dev nD) (d t : Fin 32 → Fin 992 → Fin 512)

/-- Output array 0 after the run: the regularizer's scalar of batch element b at every entry (b, ·, ·). -/
theorem arr5 (hq : IsReal (A0 m c)) (hr : IsReal (A1 m c)) (ht : IsToks (A4 m c) t) :
    (dats m 0 c).arrAt 5 cfg0.N = fun i => regv m c t ⟨(i 0).val, (i 0).isLt⟩ := by
  exact (dats m 0 c).arrAt_eq_of_cover 5 _ (fun p _ => flushed5_eq m c t hq hr ht p) cover5
theorem arr6 (hq : IsReal (A0 m c)) (hr : IsReal (A1 m c)) (hd : IsToks (A3 m c) d) (ht : IsToks (A4 m c) t) :
    (dats m 0 c).arrAt 6 cfg0.N = fun i => sigv m c d t ⟨(i 0).val, (i 0).isLt⟩ := by
  exact (dats m 0 c).arrAt_eq_of_cover 6 _ (fun p _ => flushed6_eq m c d t hq hr hd ht p) cover6
theorem arr7 (hq : IsReal (A0 m c)) (hr : IsReal (A1 m c)) (hd : IsToks (A3 m c) d) (ht : IsToks (A4 m c) t) :
    (dats m 0 c).arrAt 7 cfg0.N = fun i => normv m c d t ⟨(i 0).val, (i 0).isLt⟩ := by
  exact (dats m 0 c).arrAt_eq_of_cover 7 _ (fun p _ => flushed7_eq m c d t hq hr hd ht p) cover7
theorem arr8 (hd : IsToks (A3 m c) d) :
    (dats m 0 c).arrAt 8 cfg0.N = fun i => nllv m c d ⟨(i 0).val, (i 0).isLt⟩ := by
  exact (dats m 0 c).arrAt_eq_of_cover 8 _ (fun p _ => flushed8_eq m c d hd p) cover8

end

end Cert.KArrays

end
-- ==== Proof.KValue.lean ====
/-
  The kernel program's result.  The host lines after the call take entry (b, 0, 0) of each of the four output arrays
  (each the batch scalar of b's data at every entry of batch element b) and combine the four vectors into the result.
-/
import proofs.«410255_j36412732735781_3_alg».proof.Proof.KArrays
import Idealize.ShloMosaic.Lib.StableHlo.Run
import Idealize.ShloMosaic.Lib.ValueIdxRank1
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.RBatch Cert.KArrays

namespace Cert.KValue

/-- Entry b of an output array's first column, cut out and flattened, is the array at (b, 0, 0). -/
theorem col_apply (a : Vec Ideal S32x8x128 .f32) (b : Fin 32) :
    shapeCast S32 (extractStridedSlice S32x1x1 ![0, 0, 0] a slices_S32x8x128_S32x1x1_0_0_0) shapeCasts_S32x1x1_S32 (ix1 b)
      = a (ix3 b (0 : Fin 8) (0 : Fin 128)) := by
  refine (shapeCast_apply _ _ (ix1 b) (ix3 b (0 : Fin 1) (0 : Fin 1)) ?_).trans ?_
  · rw [Shape.rowMajor_val_one, Shape.rowMajor_val_three]
    show (b.val * 1 + 0) * 1 + 0 = b.val
    omega
  refine extractStridedSlice_apply _ _ _ (ix3 b (0 : Fin 1) (0 : Fin 1)) (ix3 b (0 : Fin 8) (0 : Fin 128)) (fun a => ?_)
  match a with
  | ⟨0, _⟩ => show b.val = 0 + b.val; omega
  | ⟨1, _⟩ => rfl
  | ⟨2, _⟩ => rfl

/-- The same as an equation of vectors. -/
theorem col_eq (a : Vec Ideal S32x8x128 .f32) :
    shapeCast S32 (extractStridedSlice S32x1x1 ![0, 0, 0] a slices_S32x8x128_S32x1x1_0_0_0) shapeCasts_S32x1x1_S32
      = fun j => a (ix3 (⟨(j 0).val, (j 0).isLt⟩ : Fin 32) (0 : Fin 8) (0 : Fin 128)) := by
  funext j
  obtain ⟨b, rfl⟩ : ∃ b : Fin 32, j = ix1 b := ⟨j 0, eq_ix1 j⟩
  exact col_apply a b

/-- The host's sum of a 32-vector from the zero word is the sum of its entries. -/
theorem sum32 (x : FVec Ideal S32 .f32) :
    Host.reduceAdd (F := Ideal) x (constant (F := Ideal) S_ .f32 0x00000000#32) reducesTo_S32_S_d0 h_S_
      = fun _ => ∑ b : Fin 32, x (ix1 b) := by
  funext j
  show Ideal.hostReduceAdd reducesTo_S32_S_d0 x (Ideal.ofBits .f32 0x00000000#32) j = _
  rw [Ideal.hostReduceAdd_total reducesTo_S32_S_d0 (fun b => b.elim0) x _ j, Ideal.ofBits_zero_f32, zero_add]
  exact (Equiv.sum_comp idxEquiv1.symm x).symm

/-- The host lines after the call, as a function of the four output arrays: the result's formula at the
    arrays' entries (b, 0, 0). -/
theorem tail_apply (a5 a6 a7 a8 : Vec Ideal S32x8x128 .f32) :
    addf (addf
        (Host.divf (Host.reduceAdd (F := Ideal)
            (Host.divf (Host.negf (shapeCast S32 (extractStridedSlice S32x1x1 ![0, 0, 0] a6 slices_S32x8x128_S32x1x1_0_0_0) shapeCasts_S32x1x1_S32))
              (shapeCast S32 (extractStridedSlice S32x1x1 ![0, 0, 0] a7 slices_S32x8x128_S32x1x1_0_0_0) shapeCasts_S32x1x1_S32))
            (constant (F := Ideal) S_ .f32 0x00000000#32) reducesTo_S32_S_d0 h_S_)
          (constant (F := Ideal) S_ .f32 0x42000000#32))
        (Host.divf (Host.reduceAdd (F := Ideal)
            (shapeCast S32 (extractStridedSlice S32x1x1 ![0, 0, 0] a5 slices_S32x8x128_S32x1x1_0_0_0) shapeCasts_S32x1x1_S32)
            (constant (F := Ideal) S_ .f32 0x00000000#32) reducesTo_S32_S_d0 h_S_)
          (constant (F := Ideal) S_ .f32 0x42000000#32)))
      (mulf (constant (F := Ideal) S_ .f32 0x3C23D70A#32)
        (Host.divf (Host.negf (Host.reduceAdd (F := Ideal)
            (shapeCast S32 (extractStridedSlice S32x1x1 ![0, 0, 0] a8 slices_S32x8x128_S32x1x1_0_0_0) shapeCasts_S32x1x1_S32)
            (constant (F := Ideal) S_ .f32 0x00000000#32) reducesTo_S32_S_d0 h_S_))
          (constant (F := Ideal) S_ .f32 0x46F80000#32)))
      = fun _ => Spec.result (fun b => a5 (ix3 b (0 : Fin 8) (0 : Fin 128))) (fun b => a6 (ix3 b (0 : Fin 8) (0 : Fin 128)))
          (fun b => a7 (ix3 b (0 : Fin 8) (0 : Fin 128))) (fun b => a8 (ix3 b (0 : Fin 8) (0 : Fin 128))) := by
  rw [col_eq a5, col_eq a6, col_eq a7, col_eq a8, sum32, sum32, sum32]
  rfl

variable (m : (ℓ : Loc nD τ sig) → Buf (Elt Ideal) ℓ) (ρ : Dev nD → PrngReg)

section
variable (c : Dev nD) (d t : Fin 32 → Fin 992 → Fin 512)

/-- The result buffer after the host lines that follow the call. -/
theorem tail_eq (hq : IsReal (A0 m c)) (hr : IsReal (A1 m c)) (hd : IsToks (A3 m c) d) (ht : IsToks (A4 m c) t) :
    Pipeline.afterTail₀ cfgs (dats m) 0 (V0 m) [hostOps1] c main_v22
      = fun _ => Spec.result (regv m c t) (sigv m c d t) (normv m c d t) (nllv m c d) := by
  unfold Pipeline.afterTail₀
  show StableHlo.after hostOps1 _ (Proc.devRef .tc main_v22) = _
  generalize hW : Pipeline.withArrays _ _ _ _ = W
  after_results_simp
  have e5 : W (Proc.devRef .tc main_v2_0) = fun i => regv m c t ⟨(i 0).val, (i 0).isLt⟩ := by
    rw [← hW]
    exact (Pipeline.withArrays_arr spec0 launch0.win.arr_inj c _ _ 5).trans (arr5 m c t hq hr ht)
  have e6 : W (Proc.devRef .tc main_v2_1) = fun i => sigv m c d t ⟨(i 0).val, (i 0).isLt⟩ := by
    rw [← hW]
    exact (Pipeline.withArrays_arr spec0 launch0.win.arr_inj c _ _ 6).trans (arr6 m c d t hq hr hd ht)
  have e7 : W (Proc.devRef .tc main_v2_2) = fun i => normv m c d t ⟨(i 0).val, (i 0).isLt⟩ := by
    rw [← hW]
    exact (Pipeline.withArrays_arr spec0 launch0.win.arr_inj c _ _ 7).trans (arr7 m c d t hq hr hd ht)
  have e8 : W (Proc.devRef .tc main_v2_3) = fun i => nllv m c d ⟨(i 0).val, (i 0).isLt⟩ := by
    rw [← hW]
    exact (Pipeline.withArrays_arr spec0 launch0.win.arr_inj c _ _ 8).trans (arr8 m c d hd)
  refine (tail_apply (W (Proc.devRef .tc main_v2_0)) (W (Proc.devRef .tc main_v2_1))
    (W (Proc.devRef .tc main_v2_2)) (W (Proc.devRef .tc main_v2_3))).trans ?_
  rw [e5, e6, e7, e8]
  rfl
end

/-- The kernel program runs, ends with its result at the specification's value of the launch contents, and
    leaves its arguments unchanged — given the domain facts on every core. -/
theorem run (d t : Dev nD → Fin 32 → Fin 992 → Fin 512)
    (hq : ∀ c, IsReal (A0 m c)) (hr : ∀ c, IsReal (A1 m c))
    (hd : ∀ c, IsToks (A3 m c) (d c)) (ht : ∀ c, IsToks (A4 m c) (t c)) :
    θ_run defs (onTc (τ := τ) (main (F := Ideal))) ⟨m, fun _ => 0, ρ⟩ (fun r => ∀ c : Dev nD,
      r.2.mem ((c.tc : Thread nD τ).loc main_v22)
          = (fun _ => Spec.result (regv m c (t c)) (sigv m c (d c) (t c)) (normv m c (d c) (t c)) (nllv m c (d c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v22 (Pipeline.mem_restRefs_of main_v22 (by decide) (by decide))).trans
          (tail_eq m c (d c) (t c) (hq c) (hr c) (hd c) (ht c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KValue

end
-- ==== Proof.RSoft.lean ====
/-
  The reference's row log-softmax and softmax of the content logits, its mask, and minus the rate's diagonal, each read
  at an index as the specification's entry.
-/
import proofs.«410255_j36412732735781_3_alg».proof.Proof.Bridge
import proofs.«410255_j36412732735781_3_alg».proof.Proof.RefRead
import proofs.«410255_j36412732735781_3_alg».proof.Proof.RBatch
import Idealize.ShloMosaic.Lib.StableHlo.Predicate

noncomputable section

open Idealize.ShloMosaic Idealize.ShloMosaic.ValueIdx Cert.ReferenceIdeal Cert.ReferenceIdeal.Read

namespace Cert.RSoft
open Cert.RBatch
open Cert.ReferenceIdeal.Gen

variable (a0 a1 : (⟨S32x512x512, .f32⟩ : BufTy).Contents (Elt Ideal)) (a2 : (⟨S32x1024x512, .f32⟩ : BufTy).Contents (Elt Ideal))
  (a3 a4 : (⟨S32x992, .i32⟩ : BufTy).Contents (Elt Ideal)) (d t : Fin 32 → Fin 992 → Fin 512)

/-! ## Operand indices of the layout operations, at explicit coordinates -/

/-- The slice reads content row `i` at array row `32 + i`. -/
theorem idx_v0 (b : Fin 32) (i : Fin 992) (s : Fin 512) :
    idx_main_v0 (ix3 b i s) = ix3 b (⟨32 + i.val, by have := i.isLt; omega⟩ : Fin 1024) s := by
  funext a; match a with | ⟨0, _⟩ => rfl | ⟨1, _⟩ => rfl | ⟨2, _⟩ => rfl

/-- A per-row scalar broadcast along the states is read at the row's one column. -/
theorem idx_c0v4 (b : Fin 32) (i : Fin 992) (s : Fin 512) :
    idx_main_call0_v4 (ix3 b i s) = ix3 b i (0 : Fin 1) := by
  funext a; match a with | ⟨0, _⟩ => rfl | ⟨1, _⟩ => rfl | ⟨2, _⟩ => rfl

theorem idx_c0v3 (b : Fin 32) (i : Fin 992) :
    idx_main_call0_v3 (ix3 b i (0 : Fin 1)) = ix2 b i := by
  funext a; match a with | ⟨0, _⟩ => rfl | ⟨1, _⟩ => rfl

theorem idx_c0v10 (b : Fin 32) (i : Fin 992) (s : Fin 512) :
    idx_main_call0_v10 (ix3 b i s) = ix3 b i (0 : Fin 1) := by
  funext a; match a with | ⟨0, _⟩ => rfl | ⟨1, _⟩ => rfl | ⟨2, _⟩ => rfl

theorem idx_c0v8 (b : Fin 32) (i : Fin 992) :
    idx_main_call0_v8 (ix3 b i (0 : Fin 1)) = ix2 b i := by
  funext a; match a with | ⟨0, _⟩ => rfl | ⟨1, _⟩ => rfl

theorem idx_c0v7 (b : Fin 32) (i : Fin 992) (k : Fin 512) :
    idx_main_call0_v7 (ix2 b i) k = ix3 b i k := by
  funext a; match a with | ⟨0, _⟩ => rfl | ⟨1, _⟩ => rfl | ⟨2, _⟩ => rfl

/-- The reduced index `(b, i)` with state `k` put back on the reduced axis. -/
theorem lift_row (h : S32x992x512.Reduces [2] S32x992) (b : Fin 32) (i : Fin 992) (k : Fin (S32x992x512.size 2)) :
    h.lift (ix2 b i) k = ix3 b i (⟨k.val, k.isLt⟩ : Fin 512) := by
  funext c; apply Fin.ext
  match c with | ⟨0, _⟩ => rfl | ⟨1, _⟩ => rfl | ⟨2, _⟩ => rfl

/-! ## The log-softmax, stage by stage -/

/-- The content logits, sliced out of the array. -/
theorem slice_read (b : Fin 32) (i : Fin 992) (s : Fin 512) :
    val_main_v0 (F := Ideal) a2 (ix3 b i s) = logitsAt a2 b i s := by
  rw [val_main_v0_apply, idx_v0]; rfl

/-- The word of minus infinity is the bottom of the extended reals. -/
theorem neg_inf_word : Ideal.ofBits .f32 0xFF800000#32 = (⊥ : EReal) := by
  simp [Ideal.ofBits, Ideal.ieee]

/-- The row's largest logit: the maximum with minus infinity of the fold of maxima from minus infinity. -/
theorem rowmax_read (b : Fin 32) (i : Fin 992) :
    val_main_call0_v2 (F := Ideal) a2 (ix2 b i) = Spec.rowMax (logitsAt a2 b) i := by
  have h : S32x992x512.Reduces [2] S32x992 := by decide
  rw [val_main_call0_v2_apply, val_main_call0_v1_apply, val_main_call0_cst_0_apply]
  unfold val_main_call0_v0
  rw [Host.reduce_eq_fold_single FloatOps.maximumf _ _ reducesTo_S32x992x512_S32x992_d2 h h_S_]
  have hf : (val_main_v0 (F := Ideal) a2 ∘ h.lift (ix2 b i)) = fun k : Fin 512 => logitsAt a2 b i k :=
    funext fun k => (congrArg (val_main_v0 (F := Ideal) a2) (lift_row h b i k)).trans (slice_read a2 b i _)
  show max (Ideal.ofBits .f32 0xFF800000#32)
      (Finset.fold max (Ideal.ofBits .f32 0xFF800000#32) (val_main_v0 (F := Ideal) a2 ∘ h.lift (ix2 b i)) Finset.univ)
    = Finset.fold max ⊥ (logitsAt a2 b i) Finset.univ
  rw [hf, neg_inf_word, bot_sup_eq]
  rfl

/-- A logit less its row's largest. -/
theorem shifted_read (b : Fin 32) (i : Fin 992) (s : Fin 512) :
    val_main_call0_v5 (F := Ideal) a2 (ix3 b i s) = logitsAt a2 b i s - Spec.rowMax (logitsAt a2 b) i := by
  rw [val_main_call0_v5_apply, slice_read, val_main_call0_v4_apply, idx_c0v4, val_main_call0_v3_apply, idx_c0v3,
    rowmax_read]
  rfl

/-- The row's sum of exponentials of the shifted logits. -/
theorem sumexp_read (b : Fin 32) (i : Fin 992) :
    val_main_call0_v7 (F := Ideal) a2 (ix2 b i)
      = ∑ s' : Fin 512, Ideal.exp (logitsAt a2 b i s' - Spec.rowMax (logitsAt a2 b) i) := by
  rw [val_main_call0_v7_apply, val_main_call0_cst_1_apply]
  have hz : FloatOps.ofBits (F := Ideal) .f32 0x00000000#32 = (0 : EReal) := by
    simp [Ideal.ofBits, Ideal.ieee]
  rw [hz, zero_add]
  refine Finset.sum_congr rfl fun k _ => ?_
  rw [idx_c0v7, val_main_call0_v6_apply, shifted_read]
  rfl

/-! ## The mask -/

theorem idx_c1 (b : Fin 32) (i : Fin 992) (s : Fin 512) :
    idx_main_call1_v0 (idx_main_call1_v2 (ix3 b i s)) = ix2 b i := by
  funext a; match a with | ⟨0, _⟩ => rfl | ⟨1, _⟩ => rfl

/-- A state's word, read unsigned, is the state. -/
theorem word_toNat (u : Fin 512) : (BitVec.ofNat 32 u.val).toNat = u.val := by
  rw [BitVec.toNat_ofNat]; have := u.isLt; omega

/-- Two states with the same word are the same state. -/
theorem word_inj (u v : Fin 512) (h : BitVec.ofNat 32 u.val = BitVec.ofNat 32 v.val) : u = v :=
  Fin.ext (by rw [← word_toNat u, ← word_toNat v, h])

/-! ## Minus the diagonal: the start indices are the pairs (k, k) -/

/-- A state's word is not negative, so wrapping it by the extent leaves it. -/
theorem wrap_small (k : Fin 512) :
    Scalar.select (IntOp.cmpi .slt (BitVec.ofNat 32 k.val) 0#32) (IntOp.addi (BitVec.ofNat 32 k.val) 512#32)
      (BitVec.ofNat 32 k.val) = BitVec.ofNat 32 k.val := by
  have h0 : IntOp.cmpi .slt (BitVec.ofNat 32 k.val) 0#32 = 0#1 :=
    eq_zero_of_ne_one fun h => by
      have := (StableHlo.Predicate.slt_iff_toNat (by rw [word_toNat]; have := k.isLt; omega) (by decide)).mp h
      simp at this
  rw [h0, select_zero]

theorem c8v6_read (k : Fin 512) : val_main_call8_v6 (F := Ideal) (ix1 k) = BitVec.ofNat 32 k.val := by
  rw [val_main_call8_v6_apply, val_main_call8_v3_apply, val_main_call8_v5_apply, val_main_call8_v0_apply,
    val_main_call8_v2_apply, val_main_call8_c_apply, val_main_call8_v4_apply, val_main_call8_c_0_apply]
  exact wrap_small k

theorem c8v11_read (k : Fin 512) : val_main_call8_v11 (F := Ideal) (ix1 k) = BitVec.ofNat 32 k.val := by
  rw [val_main_call8_v11_apply, val_main_call8_v8_apply, val_main_call8_v10_apply, val_main_call8_v1_apply,
    val_main_call8_v7_apply, val_main_call8_c_1_apply, val_main_call8_v9_apply, val_main_call8_c_2_apply]
  exact wrap_small k

theorem idx_c8v12 (k : Fin 512) : idx_main_call8_v12 (ix2 k (0 : Fin 1)) = ix1 k := by
  funext a; match a with | ⟨0, _⟩ => rfl

theorem idx_c8v13 (k : Fin 512) : idx_main_call8_v13 (ix2 k (0 : Fin 1)) = ix1 k := by
  funext a; match a with | ⟨0, _⟩ => rfl

/-- Column 0 of the start indices is the first piece of the concatenation … -/
theorem diag_idx0 (k : Fin 512) : val_main_call8_v14 (F := Ideal) (ix2 k (0 : Fin 2)) = BitVec.ofNat 32 k.val := by
  unfold val_main_call8_v14
  rw [concatenate_pair_apply_left (t := S512x2) (s₁ := S512x1) (s₂ := S512x1) (1 : Fin 2)
    (val_main_call8_v12 (F := Ideal)) (val_main_call8_v13 (F := Ideal)) concatenates_S512x1_S512x1_S512x2_d1
    (ix2 k (0 : Fin 2)) rfl (ix2 k (0 : Fin 1)) (fun c => by match c with | ⟨0, _⟩ => rfl | ⟨1, _⟩ => rfl)]
  rw [val_main_call8_v12_apply, idx_c8v12, c8v6_read]

/-- … and column 1 the second. -/
theorem diag_idx1 (k : Fin 512) : val_main_call8_v14 (F := Ideal) (ix2 k (1 : Fin 2)) = BitVec.ofNat 32 k.val := by
  unfold val_main_call8_v14
  rw [concatenate_pair_apply_right (t := S512x2) (s₁ := S512x1) (s₂ := S512x1) (1 : Fin 2)
    (val_main_call8_v12 (F := Ideal)) (val_main_call8_v13 (F := Ideal)) concatenates_S512x1_S512x1_S512x2_d1
    (ix2 k (1 : Fin 2)) rfl rfl (ix2 k (0 : Fin 1))
    (fun c hc => by match c with | ⟨0, _⟩ => rfl | ⟨1, _⟩ => exact absurd rfl hc) rfl]
  rw [val_main_call8_v13_apply, idx_c8v13, c8v11_read]

/-- The diagonal gather's dimension numbers: the result's axis 0 is the operand's kept axis 0, and a start index's two
    components go to the operand's two collapsed axes. -/
abbrev diagDims := gather_S32x512x512_S512x2_S32x512_0_12_n_n_12_1_3211

/-- With both components of start index `s` the word of `s`, result index `(b, s)` reads the operand at `(b, s, s)`: on axis
    0 the offset coordinate `b`, on axes 1 and 2 the start index's component, which its clamp into 0 .. 511 leaves. -/
theorem diag_operandIdx (idx : IVec S512x2 32)
    (hidx : ∀ (k : Fin 512) (c : Fin 2), idx (ix2 k c) = BitVec.ofNat 32 k.val) (b : Fin 32) (s : Fin 512) :
    diagDims.operandIdx (ix2 b s) idx = ix3 b s s := by
  have n0 : ¬ (⟨0, by decide⟩ : Fin 3) ∈ diagDims.startIndexMap := by decide
  have m1 : (⟨1, by decide⟩ : Fin 3) ∈ diagDims.startIndexMap := by decide
  have m2 : (⟨2, by decide⟩ : Fin 3) ∈ diagDims.startIndexMap := by decide
  have c1 : (⟨1, by decide⟩ : Fin 3) ∈ diagDims.collapsedSliceDims := by decide
  have c2 : (⟨2, by decide⟩ : Fin 3) ∈ diagDims.collapsedSliceDims := by decide
  funext a; apply Fin.ext
  show diagDims.start (ix2 b s) idx a + diagDims.batchCoord (ix2 b s) a + diagDims.offCoord (ix2 b s) a = (ix3 b s s a).val
  rw [GatherDims.batchCoord_eq_zero diagDims _ _ (by exact List.not_mem_nil), Nat.add_zero]
  match a with
  | ⟨0, h0⟩ =>
    unfold GatherDims.start
    rw [dif_neg n0, Nat.zero_add]
    rfl
  | ⟨1, h1⟩ =>
    rw [GatherDims.offCoord_eq_zero diagDims _ _ (fun h => ((diagDims.mem_sKept _).mp h).1 c1), Nat.add_zero]
    unfold GatherDims.start
    rw [dif_pos m1]
    have hsi : diagDims.siIdx (ix2 b s) ⟨List.idxOf (⟨1, by decide⟩ : Fin 3) diagDims.startIndexMap,
        List.idxOf_lt_length_iff.2 m1⟩ = ix2 s (0 : Fin 2) := by
      funext c; refine Fin.ext ?_
      match c with | ⟨0, _⟩ => rfl | ⟨1, _⟩ => rfl
    rw [hsi, hidx, StableHlo.Predicate.toInt_ofNat_small _ (by have := s.isLt; omega)]
    show min ((s.val : ℤ)).toNat (512 - 1) = s.val
    rw [Int.toNat_natCast]; have := s.isLt; omega
  | ⟨2, h2⟩ =>
    rw [GatherDims.offCoord_eq_zero diagDims _ _ (fun h => ((diagDims.mem_sKept _).mp h).1 c2), Nat.add_zero]
    unfold GatherDims.start
    rw [dif_pos m2]
    have hsi : diagDims.siIdx (ix2 b s) ⟨List.idxOf (⟨2, by decide⟩ : Fin 3) diagDims.startIndexMap,
        List.idxOf_lt_length_iff.2 m2⟩ = ix2 s (1 : Fin 2) := by
      funext c; refine Fin.ext ?_
      match c with | ⟨0, _⟩ => rfl | ⟨1, _⟩ => rfl
    rw [hsi, hidx, StableHlo.Predicate.toInt_ofNat_small _ (by have := s.isLt; omega)]
    show min ((s.val : ℤ)).toNat (512 - 1) = s.val
    rw [Int.toNat_natCast]; have := s.isLt; omega

theorem logp_apply (b : Fin 32) (i : Fin 992) (s : Fin 512) :
    val_main_v1 (F := Ideal) a2 (ix3 b i s) = Spec.logp (logitsAt a2 b) i s := by
  rw [val_main_v1_apply, shifted_read, val_main_call0_v10_apply, idx_c0v10, val_main_call0_v9_apply,
    val_main_call0_v8_apply, idx_c0v8, sumexp_read]
  rfl
theorem prob_apply (b : Fin 32) (i : Fin 992) (s : Fin 512) :
    val_main_v2 (F := Ideal) a2 (ix3 b i s) = Spec.prob (logitsAt a2 b) i s := by
  rw [val_main_v2_apply, logp_apply]
  rfl
theorem mask_apply (ht : IsToks a4 t) (b : Fin 32) (i : Fin 992) (s : Fin 512) :
    val_main_v5 (F := Ideal) a4 (ix3 b i s) = Spec.mask (t b) i s := by
  rw [val_main_v5_apply, val_main_v4_apply, val_main_cst_apply, val_main_v3_apply, val_main_call1_v4_apply,
    val_main_call1_v2_apply, val_main_call1_v0_apply, idx_c1, ht b i, val_main_call1_v3_apply, val_main_call1_v1_apply]
  show Spec.one - (((IntOp.cmpi .eq (BitVec.ofNat 32 (t b i).val) (BitVec.ofNat 32 s.val)).toNat : ℝ) : EReal)
    = Spec.one - (if s = t b i then 1 else 0)
  by_cases hs : s = t b i
  · rw [if_pos hs, StableHlo.Predicate.cmpi_eq_iff.mpr (by rw [hs])]; simp
  · rw [if_neg hs, eq_zero_of_ne_one fun h => hs (word_inj _ _ (StableHlo.Predicate.cmpi_eq_iff.mp h)).symm]; simp
/-- Minus the rate's diagonal. -/
theorem rrs_apply (b : Fin 32) (s : Fin 512) :
    val_main_v47 (F := Ideal) a1 (ix2 b s) = Spec.rrs (matAt a1 b) s := by
  rw [val_main_v47_apply]
  unfold val_main_v46 Host.gather
  rw [diag_operandIdx _ (fun k c => by
    match c with
    | ⟨0, _⟩ => exact diag_idx0 k
    | ⟨1, _⟩ => exact diag_idx1 k) b s]
  rfl

end Cert.RSoft

end
-- ==== Proof.LibTokenGather.lean ====
/-
  Gathers whose start indices are tokens.  A token array holds states `n < N` as 32-bit words.  What jnp's
  `take_along_axis` lowers to is, around one `stablehlo.gather`: the start index `select (tok < 0) (tok + N) tok`, the
  in-bounds mask `0 ≤ start ∧ start ≤ N − 1` and-reduced over the index vector's one position, and a select between the
  gathered entry and a fill word.  For a token the start index is the token, the mask is one, and the gather (which reads
  its start index signed and clamps it into `0 .. N − 1`) reads the operand at the token.  Stated here at any extents for
  the three gathers of that lowering: a row per token out of a batch of matrices, one entry per row of a batch of
  matrices, and one entry per token out of a batch of vectors.
-/
import Idealize.ShloMosaic.Lib.ValueIdx
import Idealize.ShloMosaic.Lib.StableHlo.Predicate
import Idealize.ShloMosaic.PureOps.Reduce

namespace Cert.LibTokenGather

open Idealize.ShloMosaic Idealize.ShloMosaic.ValueIdx

/-! ## Words: a token, a natural number below 2³¹ held as a 32-bit word -/

/-- A token is not negative: the signed test `tok < 0` is the zero bit. -/
theorem tok_not_neg (n : Nat) (hn : n < 2 ^ 31) : IntOp.cmpi .slt (BitVec.ofNat 32 n) 0#32 = 0#1 := by
  refine eq_zero_of_ne_one fun h => ?_
  have := (StableHlo.Predicate.slt_ofNat_iff n 0 hn (by omega)).1 h
  omega

/-- So the wrap-around select `select (tok < 0) c tok` keeps the token, whatever `c` is. -/
theorem tok_wrap (n : Nat) (hn : n < 2 ^ 31) (c : BitVec 32) :
    Scalar.select (IntOp.cmpi .slt (BitVec.ofNat 32 n) 0#32) c (BitVec.ofNat 32 n) = BitVec.ofNat 32 n := by
  rw [tok_not_neg n hn, select_zero]

/-- A token `n ≤ M` is in bounds: `0 ≤ n` and `n ≤ M`, both signed tests, and their conjunction is the one bit. -/
theorem tok_inb (n M : Nat) (hM : M < 2 ^ 31) (hn : n ≤ M) :
    IntOp.andi (IntOp.cmpi .sge (BitVec.ofNat 32 n) 0#32) (IntOp.cmpi .sle (BitVec.ofNat 32 n) (BitVec.ofNat 32 M)) = 1#1 := by
  have h0 : IntOp.cmpi .sge (BitVec.ofNat 32 n) 0#32 = 1#1 :=
    (StableHlo.Predicate.sle_ofNat_iff 0 n (by omega) (by omega)).2 (Nat.zero_le n)
  have h1 : IntOp.cmpi .sle (BitVec.ofNat 32 n) (BitVec.ofNat 32 M) = 1#1 :=
    (StableHlo.Predicate.sle_ofNat_iff n M (by omega) hM).2 hn
  rw [h0, h1]
  rfl

/-- The clamp of a token's signed reading into `0 .. M` is the token when `n ≤ M`. -/
theorem tok_clamp (n M : Nat) (hM : M < 2 ^ 31) (hn : n ≤ M) : min (BitVec.ofNat 32 n).toInt.toNat M = n := by
  rw [StableHlo.Predicate.toInt_ofNat_small n (by omega), Int.toNat_natCast]
  omega

/-! ## An and-reduce of ones is one -/

/-- A fold of `and` from the one bit over one bits is the one bit. -/
theorem fold_andi_one {ι : Type} (S : Finset ι) (x : ι → BitVec 1) (hx : ∀ i, x i = 1#1) :
    S.fold IntOp.andi 1#1 x = 1#1 := by
  induction S using Finset.cons_induction with
  | empty => rfl
  | cons a S ha ih => rw [Finset.fold_cons, ih, hx a]; rfl

/-- A `stablehlo.reduce` by `and`, from an initial value of ones, of an array of ones is one at every index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_fold, hi]
  exact fold_andi_one _ _ hx

/-! ## The three gathers read at an index

Each operand coordinate is the clamped start index on the axis the start index names, the result's batch coordinate on
a batching axis, and the result's offset coordinate on the axis that is kept. -/

section Gathers
variable {α : Type}

/-- A ROW PER TOKEN: operand `[B, N, K]`, start indices `[B, R, 1]`, result `[B, R, K]`; axis 0 batching, axis 1 collapsed
    and named by the start index, axis 2 kept whole. -/
abbrev rowDims (B N R K : Nat) (wf : GatherDims.WF ⟨3, ![B, N, K]⟩ ⟨3, ![B, R, 1]⟩ ⟨3, ![B, R, K]⟩ [2] [1] [0] [1] [0] 2 ![1, 1, K]) :
    GatherDims ⟨3, ![B, N, K]⟩ ⟨3, ![B, R, 1]⟩ ⟨3, ![B, R, K]⟩ where
  offsetDims := [2]
  collapsedSliceDims := [1]
  operandBatchingDims := [0]
  startIndicesBatchingDims := [0]
  startIndexMap := [1]
  indexVectorDim := 2
  sliceSizes := ![1, 1, K]
  wf := wf

/-- ONE ENTRY PER ROW: operand `[B, R, N]`, start indices `[B, R, 1, 1]`, result `[B, R, 1]`; axes 0 and 1 batching, axis 2
    collapsed and named by the start index. -/
abbrev atDims (B N R : Nat) (wf : GatherDims.WF ⟨3, ![B, R, N]⟩ ⟨4, ![B, R, 1, 1]⟩ ⟨3, ![B, R, 1]⟩ [] [2] [0, 1] [2] [0, 1] 3 ![1, 1, 1]) :
    GatherDims ⟨3, ![B, R, N]⟩ ⟨4, ![B, R, 1, 1]⟩ ⟨3, ![B, R, 1]⟩ where
  offsetDims := []
  collapsedSliceDims := [2]
  operandBatchingDims := [0, 1]
  startIndicesBatchingDims := [0, 1]
  startIndexMap := [2]
  indexVectorDim := 3
  sliceSizes := ![1, 1, 1]
  wf := wf

/-- ONE ENTRY OF A VECTOR PER TOKEN: operand `[B, N]`, start indices `[B, R, 1]`, result `[B, R]`; axis 0 batching, axis 1
    collapsed and named by the start index. -/
abbrev vecDims (B N R : Nat) (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

/-- The row gather at `(b, i, k)`: the operand at `(b, start, k)`, the start index `idx[b, i, 0]` read signed and clamped
    into `0 .. N − 1`. -/
theorem gatherRow_apply {B N R K w : Nat} (hN : 0 < N)
    (wf : GatherDims.WF ⟨3, ![B, N, K]⟩ ⟨3, ![B, R, 1]⟩ ⟨3, ![B, R, K]⟩ [2] [1] [0] [1] [0] 2 ![1, 1, K])
    (x : (⟨3, ![B, N, K]⟩ : Shape).Idx → α) (idx : IVec ⟨3, ![B, R, 1]⟩ w) (b : Fin B) (i : Fin R) (k : Fin K) :
    Host.gather (rowDims B N R K wf) x idx (ix3 b i k)
      = x (ix3 b ⟨min (idx (ix3 b i (0 : Fin 1))).toInt.toNat (N - 1), by omega⟩ k) := by
  have h0 : GatherDims.start (rowDims B N R K wf) (ix3 b i k) idx (⟨0, by decide⟩ : Fin 3)
      + GatherDims.batchCoord (rowDims B N R K wf) (ix3 b i k) (⟨0, by decide⟩ : Fin 3)
      + GatherDims.offCoord (rowDims B N R K wf) (ix3 b i k) (⟨0, by decide⟩ : Fin 3) = b.val := by
    rw [GatherDims.start_batching _ _ _ _ (by show (⟨0, by decide⟩ : Fin 3) ∈ ([⟨0, by decide⟩] : List (Fin 3)); decide), GatherDims.offCoord_eq_zero _ _ _ (by show (⟨0, by decide⟩ : Fin 3) ∉ ([⟨2, by decide⟩] : List (Fin 3)); decide)]
    unfold GatherDims.batchCoord
    rw [dif_pos (by show (⟨0, by decide⟩ : Fin 3) ∈ ([⟨0, by decide⟩] : List (Fin 3)); decide)]
    simp only [Nat.zero_add, Nat.add_zero]
    rfl
  have h1 : GatherDims.start (rowDims B N R K wf) (ix3 b i k) idx (⟨1, by decide⟩ : Fin 3)
      + GatherDims.batchCoord (rowDims B N R K wf) (ix3 b i k) (⟨1, by decide⟩ : Fin 3)
      + GatherDims.offCoord (rowDims B N R K wf) (ix3 b i k) (⟨1, by decide⟩ : Fin 3) = min (idx (ix3 b i (0 : Fin 1))).toInt.toNat (N - 1) := by
    rw [GatherDims.batchCoord_eq_zero _ _ _ (by show (⟨1, by decide⟩ : Fin 3) ∉ ([⟨0, by decide⟩] : List (Fin 3)); decide), GatherDims.offCoord_eq_zero _ _ _ (by show (⟨1, by decide⟩ : Fin 3) ∉ ([⟨2, by decide⟩] : List (Fin 3)); decide)]
    unfold GatherDims.start
    rw [dif_pos (by show (⟨1, by decide⟩ : Fin 3) ∈ ([⟨1, by decide⟩] : List (Fin 3)); decide)]
    simp only [Nat.zero_add, Nat.add_zero]
    have hsi : GatherDims.siIdx (rowDims B N R K wf) (ix3 b i k)
        ⟨List.idxOf (⟨1, by decide⟩ : Fin 3) (rowDims B N R K wf).startIndexMap,
          List.idxOf_lt_length_iff.2 (by show (⟨1, by decide⟩ : Fin 3) ∈ ([⟨1, by decide⟩] : List (Fin 3)); decide)⟩ = ix3 b i (0 : Fin 1) := by
      funext e; refine Fin.ext ?_
      match e with
      | ⟨0, _⟩ => rfl
      | ⟨1, _⟩ => rfl
      | ⟨2, _⟩ => rfl
    rw [hsi]
    rfl
  have h2 : GatherDims.start (rowDims B N R K wf) (ix3 b i k) idx (⟨2, by decide⟩ : Fin 3)
      + GatherDims.batchCoord (rowDims B N R K wf) (ix3 b i k) (⟨2, by decide⟩ : Fin 3)
      + GatherDims.offCoord (rowDims B N R K wf) (ix3 b i k) (⟨2, by decide⟩ : Fin 3) = k.val := by
    rw [GatherDims.batchCoord_eq_zero _ _ _ (by show (⟨2, by decide⟩ : Fin 3) ∉ ([⟨0, by decide⟩] : List (Fin 3)); decide)]
    unfold GatherDims.start GatherDims.offCoord
    rw [dif_neg (by show (⟨2, by decide⟩ : Fin 3) ∉ ([⟨1, by decide⟩] : List (Fin 3)); decide), dif_pos (by show (⟨2, by decide⟩ : Fin 3) ∈ ([⟨2, by decide⟩] : List (Fin 3)); decide)]
    simp only [Nat.zero_add, Nat.add_zero]
    rfl
  unfold Host.gather
  congr 1
  funext a
  refine Fin.ext ?_
  match a with
  | ⟨0, _⟩ => exact h0
  | ⟨1, _⟩ => exact h1
  | ⟨2, _⟩ => exact h2

/-- The entry gather at `(b, i, c)`: the operand at `(b, i, start)`, the start index `idx[b, i, c, 0]` read signed and
    clamped into `0 .. N − 1`. -/
theorem gatherAt_apply {B N R w : Nat} (hN : 0 < N)
    (wf : GatherDims.WF ⟨3, ![B, R, N]⟩ ⟨4, ![B, R, 1, 1]⟩ ⟨3, ![B, R, 1]⟩ [] [2] [0, 1] [2] [0, 1] 3 ![1, 1, 1])
    (x : (⟨3, ![B, R, N]⟩ : Shape).Idx → α) (idx : IVec ⟨4, ![B, R, 1, 1]⟩ w) (b : Fin B) (i : Fin R) (c : Fin 1) :
    Host.gather (atDims B N R wf) x idx (ix3 b i c)
      = x (ix3 b i ⟨min (idx (ix4 b i c (0 : Fin 1))).toInt.toNat (N - 1), by omega⟩) := by
  have h0 : GatherDims.start (atDims B N R wf) (ix3 b i c) idx (⟨0, by decide⟩ : Fin 3)
      + GatherDims.batchCoord (atDims B N R wf) (ix3 b i c) (⟨0, by decide⟩ : Fin 3)
      + GatherDims.offCoord (atDims B N R wf) (ix3 b i c) (⟨0, by decide⟩ : Fin 3) = b.val := by
    rw [GatherDims.start_batching _ _ _ _ (by show (⟨0, by decide⟩ : Fin 3) ∈ ([⟨0, by decide⟩, ⟨1, by decide⟩] : List (Fin 3)); decide), GatherDims.offCoord_eq_zero _ _ _ (by show (⟨0, by decide⟩ : Fin 3) ∉ ([] : List (Fin 3)); decide)]
    unfold GatherDims.batchCoord
    rw [dif_pos (by show (⟨0, by decide⟩ : Fin 3) ∈ ([⟨0, by decide⟩, ⟨1, by decide⟩] : List (Fin 3)); decide)]
    simp only [Nat.zero_add, Nat.add_zero]
    rfl
  have h1 : GatherDims.start (atDims B N R wf) (ix3 b i c) idx (⟨1, by decide⟩ : Fin 3)
      + GatherDims.batchCoord (atDims B N R wf) (ix3 b i c) (⟨1, by decide⟩ : Fin 3)
      + GatherDims.offCoord (atDims B N R wf) (ix3 b i c) (⟨1, by decide⟩ : Fin 3) = i.val := by
    rw [GatherDims.start_batching _ _ _ _ (by show (⟨1, by decide⟩ : Fin 3) ∈ ([⟨0, by decide⟩, ⟨1, by decide⟩] : List (Fin 3)); decide), GatherDims.offCoord_eq_zero _ _ _ (by show (⟨1, by decide⟩ : Fin 3) ∉ ([] : List (Fin 3)); decide)]
    unfold GatherDims.batchCoord
    rw [dif_pos (by show (⟨1, by decide⟩ : Fin 3) ∈ ([⟨0, by decide⟩, ⟨1, by decide⟩] : List (Fin 3)); decide)]
    simp only [Nat.zero_add, Nat.add_zero]
    rfl
  have h2 : GatherDims.start (atDims B N R wf) (ix3 b i c) idx (⟨2, by decide⟩ : Fin 3)
      + GatherDims.batchCoord (atDims B N R wf) (ix3 b i c) (⟨2, by decide⟩ : Fin 3)
      + GatherDims.offCoord (atDims B N R wf) (ix3 b i c) (⟨2, by decide⟩ : Fin 3) = min (idx (ix4 b i c (0 : Fin 1))).toInt.toNat (N - 1) := by
    rw [GatherDims.batchCoord_eq_zero _ _ _ (by show (⟨2, by decide⟩ : Fin 3) ∉ ([⟨0, by decide⟩, ⟨1, by decide⟩] : List (Fin 3)); decide), GatherDims.offCoord_eq_zero _ _ _ (by show (⟨2, by decide⟩ : Fin 3) ∉ ([] : List (Fin 3)); decide)]
    unfold GatherDims.start
    rw [dif_pos (by show (⟨2, by decide⟩ : Fin 3) ∈ ([⟨2, by decide⟩] : List (Fin 3)); decide)]
    simp only [Nat.zero_add, Nat.add_zero]
    have hsi : GatherDims.siIdx (atDims B N R wf) (ix3 b i c)
        ⟨List.idxOf (⟨2, by decide⟩ : Fin 3) (atDims B N R wf).startIndexMap,
          List.idxOf_lt_length_iff.2 (by show (⟨2, by decide⟩ : Fin 3) ∈ ([⟨2, by decide⟩] : List (Fin 3)); decide)⟩ = ix4 b i c (0 : Fin 1) := by
      funext e; refine Fin.ext ?_
      match e with
      | ⟨0, _⟩ => rfl
      | ⟨1, _⟩ => rfl
      | ⟨2, _⟩ => rfl
      | ⟨3, _⟩ => rfl
    rw [hsi]
    rfl
  unfold Host.gather
  congr 1
  funext a
  refine Fin.ext ?_
  match a with
  | ⟨0, _⟩ => exact h0
  | ⟨1, _⟩ => exact h1
  | ⟨2, _⟩ => exact h2

/-- The vector gather at `(b, i)`: the operand at `(b, start)`, the start index `idx[b, i, 0]` read signed and clamped into
    `0 .. N − 1`. -/
theorem gatherVec_apply {B N R w : Nat} (hN : 0 < N)
    (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ w) (b : Fin B) (i : Fin R) :
    Host.gather (vecDims B N R wf) x idx (ix2 b i)
      = x (ix2 b ⟨min (idx (ix3 b i (0 : Fin 1))).toInt.toNat (N - 1), by omega⟩) := by
  have h0 : GatherDims.start (vecDims B N R wf) (ix2 b i) idx (⟨0, by decide⟩ : Fin 2)
      + GatherDims.batchCoord (vecDims B N R wf) (ix2 b i) (⟨0, by decide⟩ : Fin 2)
      + GatherDims.offCoord (vecDims B N R wf) (ix2 b i) (⟨0, by decide⟩ : Fin 2) = b.val := by
    rw [GatherDims.start_batching _ _ _ _ (by show (⟨0, by decide⟩ : Fin 2) ∈ ([⟨0, by decide⟩] : List (Fin 2)); decide), GatherDims.offCoord_eq_zero _ _ _ (by show (⟨0, by decide⟩ : Fin 2) ∉ ([] : List (Fin 2)); decide)]
    unfold GatherDims.batchCoord
    rw [dif_pos (by show (⟨0, by decide⟩ : Fin 2) ∈ ([⟨0, by decide⟩] : List (Fin 2)); decide)]
    simp only [Nat.zero_add, Nat.add_zero]
    rfl
  have h1 : GatherDims.start (vecDims B N R wf) (ix2 b i) idx (⟨1, by decide⟩ : Fin 2)
      + GatherDims.batchCoord (vecDims B N R wf) (ix2 b i) (⟨1, by decide⟩ : Fin 2)
      + GatherDims.offCoord (vecDims B N R wf) (ix2 b i) (⟨1, by decide⟩ : Fin 2) = min (idx (ix3 b i (0 : Fin 1))).toInt.toNat (N - 1) := by
    rw [GatherDims.batchCoord_eq_zero _ _ _ (by show (⟨1, by decide⟩ : Fin 2) ∉ ([⟨0, by decide⟩] : List (Fin 2)); decide), GatherDims.offCoord_eq_zero _ _ _ (by show (⟨1, by decide⟩ : Fin 2) ∉ ([] : List (Fin 2)); decide)]
    unfold GatherDims.start
    rw [dif_pos (by show (⟨1, by decide⟩ : Fin 2) ∈ ([⟨1, by decide⟩] : List (Fin 2)); decide)]
    simp only [Nat.zero_add, Nat.add_zero]
    have hsi : GatherDims.siIdx (vecDims B N R wf) (ix2 b i)
        ⟨List.idxOf (⟨1, by decide⟩ : Fin 2) (vecDims B N R wf).startIndexMap,
          List.idxOf_lt_length_iff.2 (by show (⟨1, by decide⟩ : Fin 2) ∈ ([⟨1, by decide⟩] : List (Fin 2)); decide)⟩ = ix3 b i (0 : Fin 1) := by
      funext e; refine Fin.ext ?_
      match e with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1

/-- With a token `n < N ≤ 2³¹` for start index, the row gather reads the operand's row `n`. -/
theorem gatherRow_tok {B N R K : Nat} (hN : N ≤ 2 ^ 31)
    (wf : GatherDims.WF ⟨3, ![B, N, K]⟩ ⟨3, ![B, R, 1]⟩ ⟨3, ![B, R, K]⟩ [2] [1] [0] [1] [0] 2 ![1, 1, K])
    (x : (⟨3, ![B, N, K]⟩ : Shape).Idx → α) (idx : IVec ⟨3, ![B, R, 1]⟩ 32) (b : Fin B) (i : Fin R) (k : Fin K) (n : Fin N)
    (hidx : idx (ix3 b i (0 : Fin 1)) = BitVec.ofNat 32 n.val) :
    Host.gather (rowDims B N R K wf) x idx (ix3 b i k) = x (ix3 b n k) := by
  have hn := n.isLt
  rw [gatherRow_apply (by omega)]
  congr 1
  funext a
  match a with
  | ⟨0, _⟩ => rfl
  | ⟨1, _⟩ => exact Fin.ext (by show min (idx (ix3 b i (0 : Fin 1))).toInt.toNat (N - 1) = n.val; rw [hidx]; exact tok_clamp _ _ (by omega) (by omega))
  | ⟨2, _⟩ => rfl

/-- With a token for start index, the entry gather reads the operand's entry `n` of row `(b, i)`. -/
theorem gatherAt_tok {B N R : Nat} (hN : N ≤ 2 ^ 31)
    (wf : GatherDims.WF ⟨3, ![B, R, N]⟩ ⟨4, ![B, R, 1, 1]⟩ ⟨3, ![B, R, 1]⟩ [] [2] [0, 1] [2] [0, 1] 3 ![1, 1, 1])
    (x : (⟨3, ![B, R, N]⟩ : Shape).Idx → α) (idx : IVec ⟨4, ![B, R, 1, 1]⟩ 32) (b : Fin B) (i : Fin R) (c : Fin 1) (n : Fin N)
    (hidx : idx (ix4 b i c (0 : Fin 1)) = BitVec.ofNat 32 n.val) :
    Host.gather (atDims B N R wf) x idx (ix3 b i c) = x (ix3 b i n) := by
  have hn := n.isLt
  rw [gatherAt_apply (by omega)]
  congr 1
  funext a
  match a with
  | ⟨0, _⟩ => rfl
  | ⟨1, _⟩ => rfl
  | ⟨2, _⟩ => exact Fin.ext (by show min (idx (ix4 b i c (0 : Fin 1))).toInt.toNat (N - 1) = n.val; rw [hidx]; exact tok_clamp _ _ (by omega) (by omega))

/-- With a token for start index, the vector gather reads the operand's entry `n` of vector `b`. -/
theorem gatherVec_tok {B N R : Nat} (hN : N ≤ 2 ^ 31)
    (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ 32) (b : Fin B) (i : Fin R) (n : Fin N)
    (hidx : idx (ix3 b i (0 : Fin 1)) = BitVec.ofNat 32 n.val) :
    Host.gather (vecDims B N R wf) x idx (ix2 b i) = x (ix2 b n) := by
  have hn := n.isLt
  rw [gatherVec_apply (by omega)]
  congr 1
  funext a
  match a with
  | ⟨0, _⟩ => rfl
  | ⟨1, _⟩ => exact Fin.ext (by show min (idx (ix3 b i (0 : Fin 1))).toInt.toNat (N - 1) = n.val; rw [hidx]; exact tok_clamp _ _ (by omega) (by omega))

end Gathers

end Cert.LibTokenGather
-- ==== Proof.RGather.lean ====
/-
  The reference's gathers read at an index.  A token in 0 .. 511 is not negative, so it is not wrapped, and it is in
  bounds, so the gathered entry is kept and not replaced by the fill word.
-/
import proofs.«410255_j36412732735781_3_alg».proof.Proof.Bridge
import proofs.«410255_j36412732735781_3_alg».proof.Proof.RefRead
import proofs.«410255_j36412732735781_3_alg».proof.Proof.RBatch
import proofs.«410255_j36412732735781_3_alg».proof.Proof.RSoft
import proofs.«410255_j36412732735781_3_alg».proof.Proof.LibTokenGather

noncomputable section

open Idealize.ShloMosaic Idealize.ShloMosaic.ValueIdx Cert.ReferenceIdeal Cert.ReferenceIdeal.Read

namespace Cert.RGather
open Cert.RBatch
open Cert.LibTokenGather (tok_wrap tok_inb reduce_andi_one)

/-! ## The reference's three gathers at a token

The reference's dimension numbers are the general ones at its extents: 32 matrices of 512 x 512, 992 tokens. -/

/-- A row per token: with a token for start index the gather reads the operand's row at the token. -/
theorem gatherRow_tok {α : Type} (x : S32x512x512.Idx → α) (idx : IVec S32x992x1 32)
    (b : Fin 32) (i : Fin 992) (k : Fin 512) (n : Fin 512) (hidx : idx (ix3 b i (0 : Fin 1)) = BitVec.ofNat 32 n.val) :
    Host.gather gather_S32x512x512_S32x992x1_S32x992x512_2_1_0_0_1_2_11512 x idx (ix3 b i k) = x (ix3 b n k) :=
  LibTokenGather.gatherRow_tok (by decide) gather_S32x512x512_S32x992x1_S32x992x512_2_1_0_0_1_2_11512.wf x idx b i k n hidx

/-- One entry per row: with a token for start index the gather reads the row's entry at the token. -/
theorem gatherAt_tok {α : Type} (x : S32x992x512.Idx → α) (idx : IVec S32x992x1x1 32)
    (b : Fin 32) (i : Fin 992) (c : Fin 1) (n : Fin 512) (hidx : idx (ix4 b i c (0 : Fin 1)) = BitVec.ofNat 32 n.val) :
    Host.gather gather_S32x992x512_S32x992x1x1_S32x992x1_n_2_01_01_2_3_111 x idx (ix3 b i c) = x (ix3 b i n) :=
  LibTokenGather.gatherAt_tok (by decide) gather_S32x992x512_S32x992x1x1_S32x992x1_n_2_01_01_2_3_111.wf x idx b i c n hidx

/-- One entry of a vector per token: with a token for start index the gather reads the vector's entry at the token. -/
theorem gatherVec_tok {α : Type} (x : S32x512.Idx → α) (idx : IVec S32x992x1 32)
    (b : Fin 32) (i : Fin 992) (n : Fin 512) (hidx : idx (ix3 b i (0 : Fin 1)) = BitVec.ofNat 32 n.val) :
    Host.gather gather_S32x512_S32x992x1_S32x992_n_1_0_0_1_2_11 x idx (ix2 b i) = x (ix2 b n) :=
  LibTokenGather.gatherVec_tok (by decide) gather_S32x512_S32x992x1_S32x992_n_1_0_0_1_2_11.wf x idx b i n hidx

/-! ## The eight gathers' start indices and in-bounds masks

In each, the start index is `select (tok < 0) (tok + 512) tok`, which is the token, and the mask is the and-reduce over
one position of `0 ≤ start ∧ start ≤ 511`, which is one. -/

theorem idx_v6 (b : Fin 32) (s k : Fin 512) : idx_main_v6 (ix3 b s k) = ix3 b k s := by
  funext a; match a with | ⟨0, _⟩ => rfl | ⟨1, _⟩ => rfl | ⟨2, _⟩ => rfl

theorem idx_v11 (b : Fin 32) (s k : Fin 512) : idx_main_v11 (ix3 b s k) = ix3 b k s := by
  funext a; match a with | ⟨0, _⟩ => rfl | ⟨1, _⟩ => rfl | ⟨2, _⟩ => rfl

theorem idx_v26 (b : Fin 32) (s k : Fin 512) : idx_main_v26 (ix3 b s k) = ix3 b k s := by
  funext a; match a with | ⟨0, _⟩ => rfl | ⟨1, _⟩ => rfl | ⟨2, _⟩ => rfl

theorem idx_v36 (b : Fin 32) (s k : Fin 512) : idx_main_v36 (ix3 b s k) = ix3 b k s := by
  funext a; match a with | ⟨0, _⟩ => rfl | ⟨1, _⟩ => rfl | ⟨2, _⟩ => rfl

theorem idx_v7 (b : Fin 32) (i : Fin 992) (c : Fin 1) : idx_main_v7 (ix3 b i c) = ix2 b i := by
  funext a; match a with | ⟨0, _⟩ => rfl | ⟨1, _⟩ => rfl

theorem idx_c2v13 (b : Fin 32) (i : Fin 992) (k : Fin 512) : idx_main_call2_v13 (ix3 b i k) = ix2 b i := by
  funext a; match a with | ⟨0, _⟩ => rfl | ⟨1, _⟩ => rfl

/-- The start index of gather 2 is the token. -/
theorem start2 (x : (⟨S32x992, .i32⟩ : BufTy).Contents (Elt Ideal)) (u : Fin 32 → Fin 992 → Fin 512) (hx : IsToks x u) (b : Fin 32) (i : Fin 992) (c : Fin 1) :
    val_main_call2_v4 (F := Ideal) x (ix3 b i c) = BitVec.ofNat 32 (u b i).val := by
  rw [val_main_call2_v4_apply, val_main_call2_v1_apply, val_main_v7_apply, idx_v7, hx b i, val_main_call2_v0_apply,
    val_main_call2_c_apply]
  exact tok_wrap _ (by have := (u b i).isLt; omega) _

/-- The in-bounds mask of gather 2 is one everywhere. -/
theorem inb2 (x : (⟨S32x992, .i32⟩ : BufTy).Contents (Elt Ideal)) (u : Fin 32 → Fin 992 → Fin 512) (hx : IsToks x u) (j : S32x992.Idx) :
    val_main_call2_v11 (F := Ideal) x j = 1#1 := by
  unfold val_main_call2_v11
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call2_v10_apply, val_main_call2_v6_apply, val_main_call2_v9_apply, start2 x u hx,
    val_main_call2_v5_apply, val_main_call2_c_2_apply, val_main_call2_v8_apply, val_main_call2_v7_apply,
    val_main_call2_c_1_apply]
  exact tok_inb _ 511 (by omega) (by have := (u b r).isLt; omega)

theorem idx_v12 (b : Fin 32) (i : Fin 992) (c : Fin 1) : idx_main_v12 (ix3 b i c) = ix2 b i := by
  funext a; match a with | ⟨0, _⟩ => rfl | ⟨1, _⟩ => rfl

theorem idx_c3v13 (b : Fin 32) (i : Fin 992) (k : Fin 512) : idx_main_call3_v13 (ix3 b i k) = ix2 b i := by
  funext a; match a with | ⟨0, _⟩ => rfl | ⟨1, _⟩ => rfl

/-- The start index of gather 3 is the token. -/
theorem start3 (x : (⟨S32x992, .i32⟩ : BufTy).Contents (Elt Ideal)) (u : Fin 32 → Fin 992 → Fin 512) (hx : IsToks x u) (b : Fin 32) (i : Fin 992) (c : Fin 1) :
    val_main_call3_v4 (F := Ideal) x (ix3 b i c) = BitVec.ofNat 32 (u b i).val := by
  rw [val_main_call3_v4_apply, val_main_call3_v1_apply, val_main_v12_apply, idx_v12, hx b i, val_main_call3_v0_apply,
    val_main_call3_c_apply]
  exact tok_wrap _ (by have := (u b i).isLt; omega) _

/-- The in-bounds mask of gather 3 is one everywhere. -/
theorem inb3 (x : (⟨S32x992, .i32⟩ : BufTy).Contents (Elt Ideal)) (u : Fin 32 → Fin 992 → Fin 512) (hx : IsToks x u) (j : S32x992.Idx) :
    val_main_call3_v11 (F := Ideal) x j = 1#1 := by
  unfold val_main_call3_v11
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call3_v10_apply, val_main_call3_v6_apply, val_main_call3_v9_apply, start3 x u hx,
    val_main_call3_v5_apply, val_main_call3_c_2_apply, val_main_call3_v8_apply, val_main_call3_v7_apply,
    val_main_call3_c_1_apply]
  exact tok_inb _ 511 (by omega) (by have := (u b r).isLt; omega)

theorem idx_v19 (b : Fin 32) (i : Fin 992) (c : Fin 1) : idx_main_v19 (ix3 b i c) = ix2 b i := by
  funext a; match a with | ⟨0, _⟩ => rfl | ⟨1, _⟩ => rfl

theorem idx_c4v13 (b : Fin 32) (i : Fin 992) (k : Fin 512) : idx_main_call4_v13 (ix3 b i k) = ix2 b i := by
  funext a; match a with | ⟨0, _⟩ => rfl | ⟨1, _⟩ => rfl

/-- The start index of gather 4 is the token. -/
theorem start4 (x : (⟨S32x992, .i32⟩ : BufTy).Contents (Elt Ideal)) (u : Fin 32 → Fin 992 → Fin 512) (hx : IsToks x u) (b : Fin 32) (i : Fin 992) (c : Fin 1) :
    val_main_call4_v4 (F := Ideal) x (ix3 b i c) = BitVec.ofNat 32 (u b i).val := by
  rw [val_main_call4_v4_apply, val_main_call4_v1_apply, val_main_v19_apply, idx_v19, hx b i, val_main_call4_v0_apply,
    val_main_call4_c_apply]
  exact tok_wrap _ (by have := (u b i).isLt; omega) _

/-- The in-bounds mask of gather 4 is one everywhere. -/
theorem inb4 (x : (⟨S32x992, .i32⟩ : BufTy).Contents (Elt Ideal)) (u : Fin 32 → Fin 992 → Fin 512) (hx : IsToks x u) (j : S32x992.Idx) :
    val_main_call4_v11 (F := Ideal) x j = 1#1 := by
  unfold val_main_call4_v11
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call4_v10_apply, val_main_call4_v6_apply, val_main_call4_v9_apply, start4 x u hx,
    val_main_call4_v5_apply, val_main_call4_c_2_apply, val_main_call4_v8_apply, val_main_call4_v7_apply,
    val_main_call4_c_1_apply]
  exact tok_inb _ 511 (by omega) (by have := (u b r).isLt; omega)

theorem idx_v21 (b : Fin 32) (i : Fin 992) (c : Fin 1) : idx_main_v21 (ix3 b i c) = ix2 b i := by
  funext a; match a with | ⟨0, _⟩ => rfl | ⟨1, _⟩ => rfl

/-- The reshape to [32, 992, 1, 1] reads (b, i, 0). -/
theorem idx_c5v5 (b : Fin 32) (i : Fin 992) (c e : Fin 1) : idx_main_call5_v5 (ix4 b i c e) = ix3 b i (0 : Fin 1) := by
  funext a
  have hi := i.isLt; have hc := c.isLt; have he := e.isLt
  match a with
  | ⟨0, _⟩ => exact Fin.ext (by show (((b.val * 992 + i.val) * 1 + c.val) * 1 + e.val) / 992 = b.val; omega)
  | ⟨1, _⟩ => exact Fin.ext (by show (((b.val * 992 + i.val) * 1 + c.val) * 1 + e.val) / 1 % 992 = i.val; omega)
  | ⟨2, _⟩ => rfl

/-- The start index of gather 5 is the token. -/
theorem start5 (x : (⟨S32x992, .i32⟩ : BufTy).Contents (Elt Ideal)) (u : Fin 32 → Fin 992 → Fin 512) (hx : IsToks x u) (b : Fin 32) (i : Fin 992) (c e : Fin 1) :
    val_main_call5_v5 (F := Ideal) x (ix4 b i c e) = BitVec.ofNat 32 (u b i).val := by
  rw [val_main_call5_v5_apply, idx_c5v5, val_main_call5_v4_apply, val_main_call5_v1_apply, val_main_v21_apply, idx_v21, hx b i,
    val_main_call5_v0_apply, val_main_call5_c_apply]
  exact tok_wrap _ (by have := (u b i).isLt; omega) _

/-- The in-bounds mask of gather 5 is one everywhere. -/
theorem inb5 (x : (⟨S32x992, .i32⟩ : BufTy).Contents (Elt Ideal)) (u : Fin 32 → Fin 992 → Fin 512) (hx : IsToks x u) (j : S32x992x1.Idx) :
    val_main_call5_v12 (F := Ideal) x j = 1#1 := by
  unfold val_main_call5_v12
  refine reduce_andi_one _ _ _ _ _ (fun i => ?_) (fun _ => rfl)
  obtain ⟨b, r, c, e, rfl⟩ : ∃ (b : Fin 32) (r : Fin 992) (c e : Fin 1), i = ix4 b r c e := ⟨i 0, i 1, i 2, i 3, eq_ix4 i⟩
  rw [val_main_call5_v11_apply, val_main_call5_v7_apply, val_main_call5_v10_apply, start5 x u hx,
    val_main_call5_v6_apply, val_main_call5_c_2_apply, val_main_call5_v9_apply, val_main_call5_v8_apply,
    val_main_call5_c_1_apply]
  exact tok_inb _ 511 (by omega) (by have := (u b r).isLt; omega)

theorem idx_v27 (b : Fin 32) (i : Fin 992) (c : Fin 1) : idx_main_v27 (ix3 b i c) = ix2 b i := by
  funext a; match a with | ⟨0, _⟩ => rfl | ⟨1, _⟩ => rfl

theorem idx_c6v13 (b : Fin 32) (i : Fin 992) (k : Fin 512) : idx_main_call6_v13 (ix3 b i k) = ix2 b i := by
  funext a; match a with | ⟨0, _⟩ => rfl | ⟨1, _⟩ => rfl

/-- The start index of gather 6 is the token. -/
theorem start6 (x : (⟨S32x992, .i32⟩ : BufTy).Contents (Elt Ideal)) (u : Fin 32 → Fin 992 → Fin 512) (hx : IsToks x u) (b : Fin 32) (i : Fin 992) (c : Fin 1) :
    val_main_call6_v4 (F := Ideal) x (ix3 b i c) = BitVec.ofNat 32 (u b i).val := by
  rw [val_main_call6_v4_apply, val_main_call6_v1_apply, val_main_v27_apply, idx_v27, hx b i, val_main_call6_v0_apply,
    val_main_call6_c_apply]
  exact tok_wrap _ (by have := (u b i).isLt; omega) _

/-- The in-bounds mask of gather 6 is one everywhere. -/
theorem inb6 (x : (⟨S32x992, .i32⟩ : BufTy).Contents (Elt Ideal)) (u : Fin 32 → Fin 992 → Fin 512) (hx : IsToks x u) (j : S32x992.Idx) :
    val_main_call6_v11 (F := Ideal) x j = 1#1 := by
  unfold val_main_call6_v11
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call6_v10_apply, val_main_call6_v6_apply, val_main_call6_v9_apply, start6 x u hx,
    val_main_call6_v5_apply, val_main_call6_c_2_apply, val_main_call6_v8_apply, val_main_call6_v7_apply,
    val_main_call6_c_1_apply]
  exact tok_inb _ 511 (by omega) (by have := (u b r).isLt; omega)

theorem idx_v37 (b : Fin 32) (i : Fin 992) (c : Fin 1) : idx_main_v37 (ix3 b i c) = ix2 b i := by
  funext a; match a with | ⟨0, _⟩ => rfl | ⟨1, _⟩ => rfl

theorem idx_c7v13 (b : Fin 32) (i : Fin 992) (k : Fin 512) : idx_main_call7_v13 (ix3 b i k) = ix2 b i := by
  funext a; match a with | ⟨0, _⟩ => rfl | ⟨1, _⟩ => rfl

/-- The start index of gather 7 is the token. -/
theorem start7 (x : (⟨S32x992, .i32⟩ : BufTy).Contents (Elt Ideal)) (u : Fin 32 → Fin 992 → Fin 512) (hx : IsToks x u) (b : Fin 32) (i : Fin 992) (c : Fin 1) :
    val_main_call7_v4 (F := Ideal) x (ix3 b i c) = BitVec.ofNat 32 (u b i).val := by
  rw [val_main_call7_v4_apply, val_main_call7_v1_apply, val_main_v37_apply, idx_v37, hx b i, val_main_call7_v0_apply,
    val_main_call7_c_apply]
  exact tok_wrap _ (by have := (u b i).isLt; omega) _

/-- The in-bounds mask of gather 7 is one everywhere. -/
theorem inb7 (x : (⟨S32x992, .i32⟩ : BufTy).Contents (Elt Ideal)) (u : Fin 32 → Fin 992 → Fin 512) (hx : IsToks x u) (j : S32x992.Idx) :
    val_main_call7_v11 (F := Ideal) x j = 1#1 := by
  unfold val_main_call7_v11
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call7_v10_apply, val_main_call7_v6_apply, val_main_call7_v9_apply, start7 x u hx,
    val_main_call7_v5_apply, val_main_call7_c_2_apply, val_main_call7_v8_apply, val_main_call7_v7_apply,
    val_main_call7_c_1_apply]
  exact tok_inb _ 511 (by omega) (by have := (u b r).isLt; omega)

/-- The reshape to [32, 992, 1] reads (b, i). -/
theorem idx_c9v5 (b : Fin 32) (i : Fin 992) (c : Fin 1) : idx_main_call9_v5 (ix3 b i c) = ix2 b i := by
  funext a
  have hi := i.isLt; have hc := c.isLt
  match a with
  | ⟨0, _⟩ => exact Fin.ext (by show ((b.val * 992 + i.val) * 1 + c.val) / 992 = b.val; omega)
  | ⟨1, _⟩ => exact Fin.ext (by show ((b.val * 992 + i.val) * 1 + c.val) % 992 = i.val; omega)

/-- The start index of gather 9 is the token. -/
theorem start9 (x : (⟨S32x992, .i32⟩ : BufTy).Contents (Elt Ideal)) (u : Fin 32 → Fin 992 → Fin 512) (hx : IsToks x u) (b : Fin 32) (i : Fin 992) (c : Fin 1) :
    val_main_call9_v5 (F := Ideal) x (ix3 b i c) = BitVec.ofNat 32 (u b i).val := by
  rw [val_main_call9_v5_apply, idx_c9v5, val_main_call9_v4_apply, val_main_call9_v1_apply, hx b i,
    val_main_call9_v0_apply, val_main_call9_c_apply]
  exact tok_wrap _ (by have := (u b i).isLt; omega) _

/-- The in-bounds mask of gather 9 is one everywhere. -/
theorem inb9 (x : (⟨S32x992, .i32⟩ : BufTy).Contents (Elt Ideal)) (u : Fin 32 → Fin 992 → Fin 512) (hx : IsToks x u) (j : S32x992.Idx) :
    val_main_call9_v12 (F := Ideal) x j = 1#1 := by
  unfold val_main_call9_v12
  refine reduce_andi_one _ _ _ _ _ (fun i => ?_) (fun _ => rfl)
  obtain ⟨b, r, c, rfl⟩ : ∃ (b : Fin 32) (r : Fin 992) (c : Fin 1), i = ix3 b r c := ⟨i 0, i 1, i 2, eq_ix3 i⟩
  rw [val_main_call9_v11_apply, val_main_call9_v7_apply, val_main_call9_v10_apply, start9 x u hx,
    val_main_call9_v6_apply, val_main_call9_c_2_apply, val_main_call9_v9_apply, val_main_call9_v8_apply,
    val_main_call9_c_1_apply]
  exact tok_inb _ 511 (by omega) (by have := (u b r).isLt; omega)

theorem idx_v72 (b : Fin 32) (i : Fin 992) (c : Fin 1) : idx_main_v72 (ix3 b i c) = ix2 b i := by
  funext a; match a with | ⟨0, _⟩ => rfl | ⟨1, _⟩ => rfl

/-- The reshape to [32, 992, 1, 1] reads (b, i, 0). -/
theorem idx_c10v5 (b : Fin 32) (i : Fin 992) (c e : Fin 1) : idx_main_call10_v5 (ix4 b i c e) = ix3 b i (0 : Fin 1) := by
  funext a
  have hi := i.isLt; have hc := c.isLt; have he := e.isLt
  match a with
  | ⟨0, _⟩ => exact Fin.ext (by show (((b.val * 992 + i.val) * 1 + c.val) * 1 + e.val) / 992 = b.val; omega)
  | ⟨1, _⟩ => exact Fin.ext (by show (((b.val * 992 + i.val) * 1 + c.val) * 1 + e.val) / 1 % 992 = i.val; omega)
  | ⟨2, _⟩ => rfl

/-- The start index of gather 10 is the token. -/
theorem start10 (x : (⟨S32x992, .i32⟩ : BufTy).Contents (Elt Ideal)) (u : Fin 32 → Fin 992 → Fin 512) (hx : IsToks x u) (b : Fin 32) (i : Fin 992) (c e : Fin 1) :
    val_main_call10_v5 (F := Ideal) x (ix4 b i c e) = BitVec.ofNat 32 (u b i).val := by
  rw [val_main_call10_v5_apply, idx_c10v5, val_main_call10_v4_apply, val_main_call10_v1_apply, val_main_v72_apply, idx_v72, hx b i,
    val_main_call10_v0_apply, val_main_call10_c_apply]
  exact tok_wrap _ (by have := (u b i).isLt; omega) _

/-- The in-bounds mask of gather 10 is one everywhere. -/
theorem inb10 (x : (⟨S32x992, .i32⟩ : BufTy).Contents (Elt Ideal)) (u : Fin 32 → Fin 992 → Fin 512) (hx : IsToks x u) (j : S32x992x1.Idx) :
    val_main_call10_v12 (F := Ideal) x j = 1#1 := by
  unfold val_main_call10_v12
  refine reduce_andi_one _ _ _ _ _ (fun i => ?_) (fun _ => rfl)
  obtain ⟨b, r, c, e, rfl⟩ : ∃ (b : Fin 32) (r : Fin 992) (c e : Fin 1), i = ix4 b r c e := ⟨i 0, i 1, i 2, i 3, eq_ix4 i⟩
  rw [val_main_call10_v11_apply, val_main_call10_v7_apply, val_main_call10_v10_apply, start10 x u hx,
    val_main_call10_v6_apply, val_main_call10_c_2_apply, val_main_call10_v9_apply, val_main_call10_v8_apply,
    val_main_call10_c_1_apply]
  exact tok_inb _ 511 (by omega) (by have := (u b r).isLt; omega)

/-! ## The reference's gathers, read at an index -/

variable (a0 a1 : (⟨S32x512x512, .f32⟩ : BufTy).Contents (Elt Ideal)) (a2 : (⟨S32x1024x512, .f32⟩ : BufTy).Contents (Elt Ideal))
  (a3 a4 : (⟨S32x992, .i32⟩ : BufTy).Contents (Elt Ideal)) (d t : Fin 32 → Fin 992 → Fin 512)

/-- q's column t_i (the gather from the transposed matrix), before eps is added. -/
theorem qcol_apply (ht : IsToks a4 t) (b : Fin 32) (i : Fin 992) (k : Fin 512) :
    val_main_v8 (F := Ideal) a0 a4 (ix3 b i k) = matAt a0 b k (t b i) := by
  rw [val_main_v8_apply, val_main_call2_v13_apply, inb2 a4 t ht, select_one]
  unfold val_main_call2_v12
  rw [gatherRow_tok _ _ b i k (t b i) (start2 a4 t ht b i 0), val_main_v6_apply, idx_v6]
  rfl
/-- q's row d_i. -/
theorem num_apply (hd : IsToks a3 d) (b : Fin 32) (i : Fin 992) (s : Fin 512) :
    val_main_v20 (F := Ideal) a0 a3 (ix3 b i s) = Spec.num (matAt a0 b) (d b) i s := by
  rw [val_main_v20_apply, val_main_call4_v13_apply, inb4 a3 d hd, select_one]
  unfold val_main_call4_v12
  rw [gatherRow_tok _ _ b i s (d b i) (start4 a3 d hd b i 0)]
  rfl
/-- The entry of row d_i at column t_i, before eps is added. -/
theorem numAt_apply (hd : IsToks a3 d) (ht : IsToks a4 t) (b : Fin 32) (i : Fin 992) :
    val_main_v22 (F := Ideal) a0 a3 a4 (ix3 b i (0 : Fin 1)) = matAt a0 b (d b i) (t b i) := by
  rw [val_main_v22_apply, inb5 a4 t ht, select_one]
  unfold val_main_call5_v13
  rw [gatherAt_tok _ _ b i 0 (t b i) (start5 a4 t ht b i 0 0), num_apply a0 a3 d hd]
  rfl
/-- Minus the rate's diagonal at the perturbed tokens. -/
theorem rrsAt_apply (ht : IsToks a4 t) (b : Fin 32) (i : Fin 992) :
    val_main_v48 (F := Ideal) a1 a4 (ix2 b i) = Spec.rrs (matAt a1 b) (t b i) := by
  rw [val_main_v48_apply, inb9 a4 t ht, select_one]
  unfold val_main_call9_v13
  rw [gatherVec_tok _ _ b i (t b i) (start9 a4 t ht b i 0)]
  exact RSoft.rrs_apply a1 b (t b i)
/-- The log-softmax at the data tokens. -/
theorem logpAt_apply (hd : IsToks a3 d) (b : Fin 32) (i : Fin 992) :
    val_main_v73 (F := Ideal) a2 a3 (ix3 b i (0 : Fin 1)) = Spec.logp (logitsAt a2 b) i (d b i) := by
  rw [val_main_v73_apply, inb10 a3 d hd, select_one]
  unfold val_main_call10_v13
  rw [gatherAt_tok _ _ b i 0 (d b i) (start10 a3 d hd b i 0 0)]
  exact RSoft.logp_apply a2 b i (d b i)
/-- The rate's column t_i (the gather from the transposed rate), first use. -/
theorem rcol_apply (ht : IsToks a4 t) (b : Fin 32) (i : Fin 992) (k : Fin 512) :
    val_main_v13 (F := Ideal) a1 a4 (ix3 b i k) = Spec.rcol (matAt a1 b) (t b) i k := by
  rw [val_main_v13_apply, val_main_call3_v13_apply, inb3 a4 t ht, select_one]
  unfold val_main_call3_v12
  rw [gatherRow_tok _ _ b i k (t b i) (start3 a4 t ht b i 0), val_main_v11_apply, idx_v11]
  rfl
/-- q's column t_i, second use (the signal term's denominator), before eps is added. -/
theorem qcol_apply' (ht : IsToks a4 t) (b : Fin 32) (i : Fin 992) (k : Fin 512) :
    val_main_v28 (F := Ideal) a0 a4 (ix3 b i k) = matAt a0 b k (t b i) := by
  rw [val_main_v28_apply, val_main_call6_v13_apply, inb6 a4 t ht, select_one]
  unfold val_main_call6_v12
  rw [gatherRow_tok _ _ b i k (t b i) (start6 a4 t ht b i 0), val_main_v26_apply, idx_v26]
  rfl
/-- The rate's column t_i, second use. -/
theorem rcol_apply' (ht : IsToks a4 t) (b : Fin 32) (i : Fin 992) (k : Fin 512) :
    val_main_v38 (F := Ideal) a1 a4 (ix3 b i k) = Spec.rcol (matAt a1 b) (t b) i k := by
  rw [val_main_v38_apply, val_main_call7_v13_apply, inb7 a4 t ht, select_one]
  unfold val_main_call7_v12
  rw [gatherRow_tok _ _ b i k (t b i) (start7 a4 t ht b i 0), val_main_v36_apply, idx_v36]
  rfl

end Cert.RGather

end
-- ==== Proof.RSums.lean ====
/-
  The reference's four batch sums and its result as the specification's: each two-axis sum is the iterated sum over
  rows and states, the operands are the specification's entries, and the closing scalar lines are read one by one.
-/
import proofs.«410255_j36412732735781_3_alg».proof.Proof.Bridge
import proofs.«410255_j36412732735781_3_alg».proof.Proof.RefRead
import proofs.«410255_j36412732735781_3_alg».proof.Proof.RBatch
import proofs.«410255_j36412732735781_3_alg».proof.Proof.RSoft
import proofs.«410255_j36412732735781_3_alg».proof.Proof.RGather

noncomputable section

open Idealize.ShloMosaic Idealize.ShloMosaic.ValueIdx Cert.ReferenceIdeal Cert.ReferenceIdeal.Read

namespace Cert.RSums
open Cert.RBatch

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the row and the state of an index of the [32, 992, 512] array leaves its batch coordinate. -/
theorem drop_d12 (h' : S32x992x512.ReducesTo [1, 2] S32) (a : Fin 32) (i : Fin 992) (k : Fin 512) :
    h'.drop (ix3 a i k) = ix1 a := by
  funext c
  match c with
  | ⟨0, _⟩ => exact Fin.ext (Shape.ReducesTo.drop_apply_val_of_eq h' (ix3 a i k) 0 0)

/-- The sum over rows and states, at batch element b: the initial value plus the iterated sum over rows, then states. -/
theorem hostReduceAdd_d12 (h' : S32x992x512.ReducesTo [1, 2] S32) (y : S32x992x512.Idx → EReal) (init : EReal)
    (b : Fin 32) :
    Ideal.hostReduceAdd h' y init (ix1 b) = init + ∑ i : Fin 992, ∑ k : Fin 512, y (ix3 b i k) := by
  unfold Ideal.hostReduceAdd
  refine congrArg (init + ·) ?_
  rw [Finset.sum_filter, sum_idx3, Finset.sum_eq_single b]
  · refine Finset.sum_congr rfl fun i _ => Finset.sum_congr rfl fun k _ => ?_
    rw [if_pos (drop_d12 h' b i k)]
  · intro a _ hab
    refine Finset.sum_eq_zero fun i _ => Finset.sum_eq_zero fun k _ => ?_
    rw [if_neg]
    rw [drop_d12 h' a i k]
    intro h
    exact hab (congrFun h 0)
  · intro h
    exact absurd (Finset.mem_univ b) h

/-- The reference's sum over rows and states, read at batch element b. -/
theorem reduceAdd_d12_apply (y : FVec Ideal S32x992x512 .f32) (c : FVec Ideal S_ .f32) (b : Fin 32) :
    Host.reduceAdd (F := Ideal) (φ := .f32) y c Gen.reducesTo_S32x992x512_S32_d1_2 Gen.h_S_ (ix1 b)
      = c (Shape.Idx.first Gen.h_S_) + ∑ i : Fin 992, ∑ k : Fin 512, y (ix3 b i k) := by
  simp only [Host.reduceAdd, Ideal.hostReduceAdd_def]
  exact hostReduceAdd_d12 _ _ _ b

/-- The word 0x46F80000 is the real 31744 (the number of content positions, 32 * 992). -/
theorem ofBits_count : Ideal.ofBits .f32 0x46F80000#32 = ((31744 : ℝ) : EReal) := by
  simp [Ideal.ofBits, Ideal.ieee, -EReal.coe_mul]; norm_num

/-- Dividing by that count commutes with negation. -/
theorem neg_div_count (x : EReal) :
    -(Ideal.div x (Ideal.ofBits .f32 0x46F80000#32)) = Ideal.div (-x) (Ideal.ofBits .f32 0x46F80000#32) := by
  rw [ofBits_count, Ideal.div_coe (by norm_num), Ideal.div_coe (by norm_num), neg_mul]

/-- Negation at the ideal values is the extended reals'. -/
theorem hostNegf_eq {φ : FTy} (x : Ideal φ) : FloatOps.hostNegf x = -x := rfl

variable (a0 a1 : (⟨S32x512x512, .f32⟩ : BufTy).Contents (Elt Ideal)) (a2 : (⟨S32x1024x512, .f32⟩ : BufTy).Contents (Elt Ideal))
  (a3 a4 : (⟨S32x992, .i32⟩ : BufTy).Contents (Elt Ideal)) (d t : Fin 32 → Fin 992 → Fin 512)

/-- The masked rate column, the left operand of the regularizer's product. -/
theorem maskRate_apply (ht : IsToks a4 t) (b : Fin 32) (i : Fin 992) (s : Fin 512) :
    val_main_v14 (F := Ideal) a1 a4 (ix3 b i s) = Spec.mask (t b) i s * Spec.rcol (matAt a1 b) (t b) i s := by
  rw [val_main_v14_apply, Ideal.mulf_def, RSoft.mask_apply a4 t ht, RGather.rcol_apply a1 a4 t ht]

/-- The regularizer's product with q's rows: entry (i, k) sums over the states s. -/
theorem regDot_apply (ht : IsToks a4 t) (b : Fin 32) (i : Fin 992) (k : Fin 512) :
    val_main_v15 (F := Ideal) a0 a1 a4 (ix3 b i k)
      = ∑ s : Fin 512, (Spec.mask (t b) i s * Spec.rcol (matAt a1 b) (t b) i s) * matAt a0 b k s := by
  rw [val_main_v15_apply]
  refine Finset.sum_congr rfl fun s _ => ?_
  have hl : lidx_main_v15 (ix3 b i k) s = ix3 b i s :=
    funext fun a => by match a with | ⟨0, _⟩ => rfl | ⟨1, _⟩ => rfl | ⟨2, _⟩ => rfl
  have hr : ridx_main_v15 (ix3 b i k) s = ix3 b k s :=
    funext fun a => by match a with | ⟨0, _⟩ => rfl | ⟨1, _⟩ => rfl | ⟨2, _⟩ => rfl
  rw [hl, hr, maskRate_apply a1 a4 t ht]
  rfl

/-- The regularizer's denominator: q's column t_i plus the guard. -/
theorem den_apply (ht : IsToks a4 t) (b : Fin 32) (i : Fin 992) (k : Fin 512) :
    val_main_v10 (F := Ideal) a0 a4 (ix3 b i k) = Spec.den (matAt a0 b) (t b) i k := by
  rw [val_main_v10_apply, Ideal.addf_def, RGather.qcol_apply a0 a4 t ht, val_main_v9_apply, val_main_cst_0_apply,
    Ideal.ofBits_def]
  rfl

theorem reg_apply (ht : IsToks a4 t) (b : Fin 32) :
    val_main_v18 (F := Ideal) a0 a1 a2 a4 (ix1 b) = Spec.reg (matAt a0 b) (matAt a1 b) (logitsAt a2 b) (t b) := by
  unfold val_main_v18
  refine (reduceAdd_d12_apply _ _ b).trans ?_
  rw [val_main_cst_1_apply, Ideal.ofBits_def, Ideal.ofBits_zero_f32, zero_add]
  unfold Spec.reg
  refine Finset.sum_congr rfl fun i _ => Finset.sum_congr rfl fun k _ => ?_
  rw [val_main_v17_apply, Ideal.mulf_def, val_main_v16_apply, Ideal.hostDivf_def, RSoft.prob_apply,
    den_apply a0 a4 t ht, regDot_apply a0 a1 a4 t ht]

/-- The outer denominator: the entry of q's row d_i at column t_i, plus the guard. -/
theorem oden_apply (hd : IsToks a3 d) (ht : IsToks a4 t) (b : Fin 32) (i : Fin 992) :
    val_main_v25 (F := Ideal) a0 a3 a4 (ix2 b i) = Spec.oden (matAt a0 b) (d b) (t b) i := by
  have h : idx_main_v23 (ix2 b i) = ix3 b i (0 : Fin 1) := funext fun a => Fin.ext (by
    have hi := i.isLt
    match a with
    | ⟨0, _⟩ => show (b.val * 992 + i.val) / 992 = b.val; omega
    | ⟨1, _⟩ => show (b.val * 992 + i.val) / 1 % 992 = i.val; omega
    | ⟨2, _⟩ => rfl)
  rw [val_main_v25_apply, Ideal.addf_def, val_main_v23_apply, h, RGather.numAt_apply a0 a3 a4 d t hd ht,
    val_main_v24_apply, val_main_cst_2_apply, Ideal.ofBits_def]
  rfl

/-- The outer denominator spread along the states (the signal term's use). -/
theorem odenSig_apply (hd : IsToks a3 d) (ht : IsToks a4 t) (b : Fin 32) (i : Fin 992) (k : Fin 512) :
    val_main_v41 (F := Ideal) a0 a3 a4 (ix3 b i k) = Spec.oden (matAt a0 b) (d b) (t b) i := by
  have h1 : idx_main_v41 (ix3 b i k) = ix3 b i (0 : Fin 1) :=
    funext fun a => by match a with | ⟨0, _⟩ => rfl | ⟨1, _⟩ => rfl | ⟨2, _⟩ => rfl
  have h2 : idx_main_v40 (ix3 b i (0 : Fin 1)) = ix2 b i :=
    funext fun a => by match a with | ⟨0, _⟩ => rfl | ⟨1, _⟩ => rfl
  rw [val_main_v41_apply, h1, val_main_v40_apply, h2, oden_apply a0 a3 a4 d t hd ht]

/-- The signal term's inner denominator: q's column t_i plus the guard. -/
theorem denSig_apply (ht : IsToks a4 t) (b : Fin 32) (i : Fin 992) (s : Fin 512) :
    val_main_v30 (F := Ideal) a0 a4 (ix3 b i s) = Spec.den (matAt a0 b) (t b) i s := by
  rw [val_main_v30_apply, Ideal.addf_def, RGather.qcol_apply' a0 a4 t ht, val_main_v29_apply, val_main_cst_3_apply,
    Ideal.ofBits_def]
  rfl

/-- The signal term's product with q's columns: entry (i, k) sums over the states s. -/
theorem sigDot_apply (ht : IsToks a4 t) (b : Fin 32) (i : Fin 992) (k : Fin 512) :
    val_main_v32 (F := Ideal) a0 a2 a4 (ix3 b i k)
      = ∑ s : Fin 512, Ideal.div (Spec.prob (logitsAt a2 b) i s) (Spec.den (matAt a0 b) (t b) i s) * matAt a0 b s k := by
  rw [val_main_v32_apply]
  refine Finset.sum_congr rfl fun s _ => ?_
  have hl : lidx_main_v32 (ix3 b i k) s = ix3 b i s :=
    funext fun a => by match a with | ⟨0, _⟩ => rfl | ⟨1, _⟩ => rfl | ⟨2, _⟩ => rfl
  have hr : ridx_main_v32 (ix3 b i k) s = ix3 b s k :=
    funext fun a => by match a with | ⟨0, _⟩ => rfl | ⟨1, _⟩ => rfl | ⟨2, _⟩ => rfl
  rw [hl, hr, val_main_v31_apply, Ideal.hostDivf_def, RSoft.prob_apply, denSig_apply a0 a4 t ht]
  rfl

/-- The signal term's logarithm. -/
theorem innerLog_apply (ht : IsToks a4 t) (b : Fin 32) (i : Fin 992) (k : Fin 512) :
    val_main_v35 (F := Ideal) a0 a2 a4 (ix3 b i k)
      = Ideal.log ((∑ s : Fin 512, Ideal.div (Spec.prob (logitsAt a2 b) i s) (Spec.den (matAt a0 b) (t b) i s)
          * matAt a0 b s k) + Spec.eps) := by
  rw [val_main_v35_apply, Ideal.hostUnary_log_def, val_main_v34_apply, Ideal.addf_def, sigDot_apply a0 a2 a4 t ht,
    val_main_v33_apply, val_main_cst_4_apply, Ideal.ofBits_def]
  rfl

theorem sig_apply (hd : IsToks a3 d) (ht : IsToks a4 t) (b : Fin 32) :
    val_main_v45 (F := Ideal) a0 a1 a2 a3 a4 (ix1 b) = Spec.sig (matAt a0 b) (matAt a1 b) (logitsAt a2 b) (d b) (t b) := by
  unfold val_main_v45
  refine (reduceAdd_d12_apply _ _ b).trans ?_
  rw [val_main_cst_5_apply, Ideal.ofBits_def, Ideal.ofBits_zero_f32, zero_add]
  unfold Spec.sig
  refine Finset.sum_congr rfl fun i _ => Finset.sum_congr rfl fun k _ => ?_
  rw [val_main_v44_apply, Ideal.mulf_def, val_main_v43_apply, Ideal.mulf_def, val_main_v39_apply, Ideal.mulf_def,
    RSoft.mask_apply a4 t ht, RGather.rcol_apply' a1 a4 t ht, val_main_v42_apply, Ideal.hostDivf_def,
    RGather.num_apply a0 a3 d hd, odenSig_apply a0 a3 a4 d t hd ht, innerLog_apply a0 a2 a4 t ht]

/-- The sum of minus the rate's diagonal over the perturbed tokens. -/
theorem zsum_apply (ht : IsToks a4 t) (b : Fin 32) :
    val_main_v49 (F := Ideal) a1 a4 (ix1 b) = ∑ j, Spec.rrs (matAt a1 b) (t b j) := by
  rw [val_main_v49_apply, val_main_cst_6_apply, Ideal.ofBits_def, Ideal.ofBits_zero_f32, zero_add]
  refine Finset.sum_congr rfl fun j _ => ?_
  have h : idx_main_v49 (ix1 b) j = ix2 b j :=
    funext fun a => by match a with | ⟨0, _⟩ => rfl | ⟨1, _⟩ => rfl
  rw [h, RGather.rrsAt_apply a1 a4 t ht]

/-- The normalizer's denominator term. -/
theorem Z_apply (ht : IsToks a4 t) (b : Fin 32) (i : Fin 992) (k : Fin 512) :
    val_main_v57 (F := Ideal) a1 a4 (ix3 b i k) = Spec.Z (matAt a1 b) (t b) i k := by
  have h55 : idx_main_v55 (ix3 b i k) = ix3 b i (0 : Fin 1) :=
    funext fun a => by match a with | ⟨0, _⟩ => rfl | ⟨1, _⟩ => rfl | ⟨2, _⟩ => rfl
  have h52 : idx_main_v52 (ix3 b i (0 : Fin 1)) = ix3 b (0 : Fin 1) (0 : Fin 1) :=
    funext fun a => by match a with | ⟨0, _⟩ => rfl | ⟨1, _⟩ => rfl | ⟨2, _⟩ => rfl
  have h50 : idx_main_v50 (ix3 b (0 : Fin 1) (0 : Fin 1)) = ix1 b :=
    funext fun a => by match a with | ⟨0, _⟩ => rfl
  have h51 : idx_main_v51 (ix3 b i (0 : Fin 1)) = ix2 b i :=
    funext fun a => by match a with | ⟨0, _⟩ => rfl | ⟨1, _⟩ => rfl
  have h56 : idx_main_v56 (ix3 b i k) = ix3 b (0 : Fin 1) k :=
    funext fun a => by match a with | ⟨0, _⟩ => rfl | ⟨1, _⟩ => rfl | ⟨2, _⟩ => rfl
  have h54 : idx_main_v54 (ix3 b (0 : Fin 1) k) = ix2 b k :=
    funext fun a => by match a with | ⟨0, _⟩ => rfl | ⟨1, _⟩ => rfl
  rw [val_main_v57_apply, Ideal.addf_def, val_main_v55_apply, h55, val_main_v53_apply, Ideal.subf_def,
    val_main_v52_apply, h52, val_main_v50_apply, h50, zsum_apply a1 a4 t ht, val_main_v51_apply, h51,
    RGather.rrsAt_apply a1 a4 t ht, val_main_v56_apply, h56, val_main_v54_apply, h54, RSoft.rrs_apply]
  rfl

/-- The outer denominator spread along the states (the normalizer's use). -/
theorem odenNorm_apply (hd : IsToks a3 d) (ht : IsToks a4 t) (b : Fin 32) (i : Fin 992) (k : Fin 512) :
    val_main_v61 (F := Ideal) a0 a3 a4 (ix3 b i k) = Spec.oden (matAt a0 b) (d b) (t b) i := by
  have h1 : idx_main_v61 (ix3 b i k) = ix3 b i (0 : Fin 1) :=
    funext fun a => by match a with | ⟨0, _⟩ => rfl | ⟨1, _⟩ => rfl | ⟨2, _⟩ => rfl
  have h2 : idx_main_v60 (ix3 b i (0 : Fin 1)) = ix2 b i :=
    funext fun a => by match a with | ⟨0, _⟩ => rfl | ⟨1, _⟩ => rfl
  rw [val_main_v61_apply, h1, val_main_v60_apply, h2, oden_apply a0 a3 a4 d t hd ht]

theorem norm_apply (hd : IsToks a3 d) (ht : IsToks a4 t) (b : Fin 32) :
    val_main_v64 (F := Ideal) a0 a1 a3 a4 (ix1 b) = Spec.norm (matAt a0 b) (matAt a1 b) (d b) (t b) := by
  unfold val_main_v64
  refine (reduceAdd_d12_apply _ _ b).trans ?_
  rw [val_main_cst_7_apply, Ideal.ofBits_def, Ideal.ofBits_zero_f32, zero_add]
  unfold Spec.norm
  refine Finset.sum_congr rfl fun i _ => Finset.sum_congr rfl fun k _ => ?_
  rw [val_main_v63_apply, Ideal.hostDivf_def, val_main_v59_apply, Ideal.mulf_def, val_main_v58_apply, Ideal.mulf_def,
    RGather.rcol_apply' a1 a4 t ht, RGather.num_apply a0 a3 d hd, RSoft.mask_apply a4 t ht, val_main_v62_apply,
    Ideal.mulf_def, Z_apply a1 a4 t ht, odenNorm_apply a0 a3 a4 d t hd ht]

theorem nll_total (hd : IsToks a3 d) :
    val_main_v74 (F := Ideal) a2 a3 ix0 = ∑ b, Spec.nll (logitsAt a2 b) (d b) := by
  rw [val_main_v74_apply, val_main_cst_12_apply, Ideal.ofBits_def, Ideal.ofBits_zero_f32, zero_add, sum_idx3]
  refine Finset.sum_congr rfl fun b _ => ?_
  unfold Spec.nll
  refine Finset.sum_congr rfl fun i _ => ?_
  rw [Fin.sum_univ_one, RGather.logpAt_apply a2 a3 d hd]

/-- The reference's result is the specification's. -/
theorem result_eq (hd : IsToks a3 d) (ht : IsToks a4 t) :
    val_main_v78 (F := Ideal) a0 a1 a2 a3 a4 ix0
      = Spec.result (fun b => Spec.reg (matAt a0 b) (matAt a1 b) (logitsAt a2 b) (t b))
          (fun b => Spec.sig (matAt a0 b) (matAt a1 b) (logitsAt a2 b) (d b) (t b))
          (fun b => Spec.norm (matAt a0 b) (matAt a1 b) (d b) (t b))
          (fun b => Spec.nll (logitsAt a2 b) (d b)) := by
  have h67 : val_main_v67 (F := Ideal) a0 a1 a2 a3 a4 ix0
      = ∑ b, Ideal.div (-(Spec.sig (matAt a0 b) (matAt a1 b) (logitsAt a2 b) (d b) (t b)))
          (Spec.norm (matAt a0 b) (matAt a1 b) (d b) (t b)) := by
    rw [val_main_v67_apply, val_main_cst_8_apply, Ideal.ofBits_def, Ideal.ofBits_zero_f32, zero_add, sum_idx1]
    refine Finset.sum_congr rfl fun b _ => ?_
    rw [val_main_v66_apply, Ideal.hostDivf_def, val_main_v65_apply, hostNegf_eq, sig_apply a0 a1 a2 a3 a4 d t hd ht,
      norm_apply a0 a1 a3 a4 d t hd ht]
  have h69 : val_main_v69 (F := Ideal) a0 a1 a2 a4 ix0
      = ∑ b, Spec.reg (matAt a0 b) (matAt a1 b) (logitsAt a2 b) (t b) := by
    rw [val_main_v69_apply, val_main_cst_10_apply, Ideal.ofBits_def, Ideal.ofBits_zero_f32, zero_add, sum_idx1]
    exact Finset.sum_congr rfl fun b _ => reg_apply a0 a1 a2 a4 t ht b
  rw [val_main_v78_apply, Ideal.addf_def, val_main_v71_apply, Ideal.addf_def, val_main_v68_apply, Ideal.hostDivf_def, h67,
    val_main_v70_apply, Ideal.hostDivf_def, h69, val_main_v77_apply, Ideal.mulf_def, val_main_v76_apply, hostNegf_eq,
    val_main_v75_apply, Ideal.hostDivf_def, nll_total a2 a3 d hd, val_main_cst_9_apply, val_main_cst_11_apply,
    val_main_cst_13_apply, val_main_cst_14_apply]
  simp only [Ideal.ofBits_def]
  rw [neg_div_count]
  rfl

end Cert.RSums

end
-- ==== Proof.RefAfterCut.lean ====
/-
  The reference program's 301 operations cut into seven stretches, and at each cut what the buffers still to be read
  hold: each the stage of the five arguments that its operation writes, the arguments themselves unchanged.
-/
import proofs.«410255_j36412732735781_3_alg».proof.Proof.RefRead
import proofs.«410255_j36412732735781_3_alg».proof.Proof.RefRun

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The buffers after two lines in a row are those after the second, from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxHeartbeats 1600000 in
/-- Operations 0 to 49: the content rows' log-softmax and softmax, the perturbed tokens' mask, and the perturbed tokens' columns of q. -/
abbrev ops1 : List (HloOp τ sig (Elt F)) :=
  [ unary main_arg2 main_v0 ((extractStridedSlice S32x992x512 ![0, 32, 0] · slices_S32x1024x512_S32x992x512_0_32_0) : (⟨S32x1024x512, .f32⟩ : BufTy).Contents (Elt F) → (⟨S32x992x512, .f32⟩ : BufTy).Contents (Elt F)),
    TRef.nullary (TRef.of (T := ⟨S_, .f32⟩) main_call0_cst) (constant S_ .f32 0xFF800000#32),
    TRef.binary (TRef.of (T := ⟨S32x992x512, .f32⟩) main_v0) (TRef.of (T := ⟨S_, .f32⟩) main_call0_cst) (TRef.of (T := ⟨S32x992, .f32⟩) main_call0_v0) (fun x v => Host.reduce FloatOps.maximumf x v reducesTo_S32x992x512_S32x992_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S32x992, .f32⟩) main_call0_v1) (broadcastInDim S32x992 ![] bcast_S_S32x992),
    TRef.binary (TRef.of (T := ⟨S32x992, .f32⟩) main_call0_v1) (TRef.of (T := ⟨S32x992, .f32⟩) main_call0_v0) (TRef.of (T := ⟨S32x992, .f32⟩) main_call0_v2) maximumf,
    TRef.unary (TRef.of (T := ⟨S32x992, .f32⟩) main_call0_v2) (TRef.of (T := ⟨S32x992x1, .f32⟩) main_call0_v3) (broadcastInDim S32x992x1 ![0, 1] bcast_S32x992_S32x992x1_0_1),
    TRef.unary (TRef.of (T := ⟨S32x992x1, .f32⟩) main_call0_v3) (TRef.of (T := ⟨S32x992x512, .f32⟩) main_call0_v4) (broadcastInDim S32x992x512 ![0, 1, 2] bcast_S32x992x1_S32x992x512_0_1_2),
    TRef.binary (TRef.of (T := ⟨S32x992x512, .f32⟩) main_v0) (TRef.of (T := ⟨S32x992x512, .f32⟩) main_call0_v4) (TRef.of (T := ⟨S32x992x512, .f32⟩) main_call0_v5) subf,
    TRef.unary (TRef.of (T := ⟨S32x992x512, .f32⟩) main_call0_v5) (TRef.of (T := ⟨S32x992x512, .f32⟩) main_call0_v6) Host.exp,
    TRef.nullary (TRef.of (T := ⟨S_, .f32⟩) main_call0_cst_1) (constant S_ .f32 0x00000000#32),
    TRef.binary (TRef.of (T := ⟨S32x992x512, .f32⟩) main_call0_v6) (TRef.of (T := ⟨S_, .f32⟩) main_call0_cst_1) (TRef.of (T := ⟨S32x992, .f32⟩) main_call0_v7) (fun x v => Host.reduceAdd x v reducesTo_S32x992x512_S32x992_d2 h_S_),
    TRef.unary (TRef.of (T := ⟨S32x992, .f32⟩) main_call0_v7) (TRef.of (T := ⟨S32x992x1, .f32⟩) main_call0_v8) (broadcastInDim S32x992x1 ![0, 1] bcast_S32x992_S32x992x1_0_1),
    TRef.unary (TRef.of (T := ⟨S32x992x1, .f32⟩) main_call0_v8) (TRef.of (T := ⟨S32x992x1, .f32⟩) main_call0_v9) Host.log,
    TRef.unary (TRef.of (T := ⟨S32x992x1, .f32⟩) main_call0_v9) (TRef.of (T := ⟨S32x992x512, .f32⟩) main_call0_v10) (broadcastInDim S32x992x512 ![0, 1, 2] bcast_S32x992x1_S32x992x512_0_1_2),
    TRef.binary (TRef.of (T := ⟨S32x992x512, .f32⟩) main_call0_v5) (TRef.of (T := ⟨S32x992x512, .f32⟩) main_call0_v10) (TRef.of (T := ⟨S32x992x512, .f32⟩) main_v1) subf,
    unary main_v1 main_v2 (Host.exp : (⟨S32x992x512, .f32⟩ : BufTy).Contents (Elt F) → (⟨S32x992x512, .f32⟩ : BufTy).Contents (Elt F)),
    TRef.unary (TRef.of (T := ⟨S32x992, .i32⟩) main_arg4) (TRef.of (T := ⟨S32x992x1, .i32⟩) main_call1_v0) (broadcastInDim S32x992x1 ![0, 1] bcast_S32x992_S32x992x1_0_1),
    TRef.nullary (TRef.of (T := ⟨S1x1x512, .i32⟩) main_call1_v1) (iotaInDim S1x1x512 32 2),
    TRef.unary (TRef.of (T := ⟨S32x992x1, .i32⟩) main_call1_v0) (TRef.of (T := ⟨S32x992x512, .i32⟩) main_call1_v2) (broadcastInDim S32x992x512 ![0, 1, 2] bcast_S32x992x1_S32x992x512_0_1_2),
    TRef.unary (TRef.of (T := ⟨S1x1x512, .i32⟩) main_call1_v1) (TRef.of (T := ⟨S32x992x512, .i32⟩) main_call1_v3) (broadcastInDim S32x992x512 ![0, 1, 2] bcast_S1x1x512_S32x992x512_0_1_2),
    TRef.binary (TRef.of (T := ⟨S32x992x512, .i32⟩) main_call1_v2) (TRef.of (T := ⟨S32x992x512, .i32⟩) main_call1_v3) (TRef.of (T := ⟨S32x992x512, .i1⟩) main_call1_v4) (cmpi .eq),
    TRef.unary (TRef.of (T := ⟨S32x992x512, .i1⟩) main_call1_v4) (TRef.of (T := ⟨S32x992x512, .f32⟩) main_v3) (uitofp .f32),
    nullary main_cst (constant S_ .f32 0x3F800000#32),
    unary main_cst main_v4 (broadcastInDim S32x992x512 ![] bcast_S_S32x992x512 : (⟨S_, .f32⟩ : BufTy).Contents (Elt F) → (⟨S32x992x512, .f32⟩ : BufTy).Contents (Elt F)),
    binary main_v4 main_v3 main_v5 (subf : (⟨S32x992x512, .f32⟩ : BufTy).Contents (Elt F) → (⟨S32x992x512, .f32⟩ : BufTy).Contents (Elt F) → (⟨S32x992x512, .f32⟩ : BufTy).Contents (Elt F)),
    unary main_arg0 main_v6 ((transpose S32x512x512 [0, 2, 1] · transposes_S32x512x512_S32x512x512_0_2_1) : (⟨S32x512x512, .f32⟩ : BufTy).Contents (Elt F) → (⟨S32x512x512, .f32⟩ : BufTy).Contents (Elt F)),
    unary main_arg4 main_v7 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x992x1, .i32⟩) main_call2_v0) (broadcastInDim S32x992x1 ![] bcast_S_S32x992x1),
    TRef.binary (TRef.of (T := ⟨S32x992x1, .i32⟩) main_v7) (TRef.of (T := ⟨S32x992x1, .i32⟩) main_call2_v0) (TRef.of (T := ⟨S32x992x1, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S32x992x1, .i32⟩) main_call2_v2) (broadcastInDim S32x992x1 ![] bcast_S_S32x992x1),
    TRef.binary (TRef.of (T := ⟨S32x992x1, .i32⟩) main_v7) (TRef.of (T := ⟨S32x992x1, .i32⟩) main_call2_v2) (TRef.of (T := ⟨S32x992x1, .i32⟩) main_call2_v3) addi,
    TRef.ternary (TRef.of (T := ⟨S32x992x1, .i1⟩) main_call2_v1) (TRef.of (T := ⟨S32x992x1, .i32⟩) main_call2_v3) (TRef.of (T := ⟨S32x992x1, .i32⟩) main_v7) (TRef.of (T := ⟨S32x992x1, .i32⟩) main_call2_v4) select,
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S32x992x1, .i32⟩) main_call2_v5) (broadcastInDim S32x992x1 ![] bcast_S_S32x992x1),
    TRef.binary (TRef.of (T := ⟨S32x992x1, .i32⟩) main_call2_v4) (TRef.of (T := ⟨S32x992x1, .i32⟩) main_call2_v5) (TRef.of (T := ⟨S32x992x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S32x992x1, .i32⟩) main_call2_v8) (broadcastInDim S32x992x1 ![0, 1, 2] bcast_S1x1x1_S32x992x1_0_1_2),
    TRef.binary (TRef.of (T := ⟨S32x992x1, .i32⟩) main_call2_v4) (TRef.of (T := ⟨S32x992x1, .i32⟩) main_call2_v8) (TRef.of (T := ⟨S32x992x1, .i1⟩) main_call2_v9) (cmpi .sle),
    TRef.binary (TRef.of (T := ⟨S32x992x1, .i1⟩) main_call2_v6) (TRef.of (T := ⟨S32x992x1, .i1⟩) main_call2_v9) (TRef.of (T := ⟨S32x992x1, .i1⟩) main_call2_v10) andi,
    TRef.nullary (TRef.of (T := ⟨S_, .i1⟩) main_call2_c_3) (constantI S_ 1 1#1),
    TRef.binary (TRef.of (T := ⟨S32x992x1, .i1⟩) main_call2_v10) (TRef.of (T := ⟨S_, .i1⟩) main_call2_c_3) (TRef.of (T := ⟨S32x992, .i1⟩) main_call2_v11) (fun x v => Host.reduce IntOp.andi x v reducesTo_S32x992x1_S32x992_d2 h_S_),
    TRef.binary (TRef.of (T := ⟨S32x512x512, .f32⟩) main_v6) (TRef.of (T := ⟨S32x992x1, .i32⟩) main_call2_v4) (TRef.of (T := ⟨S32x992x512, .f32⟩) main_call2_v12) (fun x i => Host.gather gather_S32x512x512_S32x992x1_S32x992x512_2_1_0_0_1_2_11512 x i),
    TRef.unary (TRef.of (T := ⟨S32x992, .i1⟩) main_call2_v11) (TRef.of (T := ⟨S32x992x512, .i1⟩) main_call2_v13) (broadcastInDim S32x992x512 ![0, 1] bcast_S32x992_S32x992x512_0_1),
    TRef.nullary (TRef.of (T := ⟨S_, .f32⟩) main_call2_cst) (constant S_ .f32 0x7FC00000#32),
    TRef.unary (TRef.of (T := ⟨S_, .f32⟩) main_call2_cst) (TRef.of (T := ⟨S32x992x512, .f32⟩) main_call2_v14) (broadcastInDim S32x992x512 ![] bcast_S_S32x992x512),
    TRef.ternary (TRef.of (T := ⟨S32x992x512, .i1⟩) main_call2_v13) (TRef.of (T := ⟨S32x992x512, .f32⟩) main_call2_v12) (TRef.of (T := ⟨S32x992x512, .f32⟩) main_call2_v14) (TRef.of (T := ⟨S32x992x512, .f32⟩) main_v8) select ]

set_option maxHeartbeats 1600000 in
/-- Operations 50 to 82: the guarded column of q, the perturbed tokens' columns of the rate, the masked rate contracted with q over the state axis, the softmax over the guarded column, and the regularizer's sum for each batch element. -/
abbrev ops2 : List (HloOp τ sig (Elt F)) :=
  [ nullary main_cst_0 (constant S_ .f32 0x3089705F#32),
    unary main_cst_0 main_v9 (broadcastInDim S32x992x512 ![] bcast_S_S32x992x512 : (⟨S_, .f32⟩ : BufTy).Contents (Elt F) → (⟨S32x992x512, .f32⟩ : BufTy).Contents (Elt F)),
    binary main_v8 main_v9 main_v10 (addf : (⟨S32x992x512, .f32⟩ : BufTy).Contents (Elt F) → (⟨S32x992x512, .f32⟩ : BufTy).Contents (Elt F) → (⟨S32x992x512, .f32⟩ : BufTy).Contents (Elt F)),
    unary main_arg1 main_v11 ((transpose S32x512x512 [0, 2, 1] · transposes_S32x512x512_S32x512x512_0_2_1) : (⟨S32x512x512, .f32⟩ : BufTy).Contents (Elt F) → (⟨S32x512x512, .f32⟩ : BufTy).Contents (Elt F)),
    unary main_arg4 main_v12 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S32x992x1, .i32⟩) main_call3_v0) (broadcastInDim S32x992x1 ![] bcast_S_S32x992x1),
    TRef.binary (TRef.of (T := ⟨S32x992x1, .i32⟩) main_v12) (TRef.of (T := ⟨S32x992x1, .i32⟩) main_call3_v0) (TRef.of (T := ⟨S32x992x1, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S32x992x1, .i32⟩) main_call3_v2) (broadcastInDim S32x992x1 ![] bcast_S_S32x992x1),
    TRef.binary (TRef.of (T := ⟨S32x992x1, .i32⟩) main_v12) (TRef.of (T := ⟨S32x992x1, .i32⟩) main_call3_v2) (TRef.of (T := ⟨S32x992x1, .i32⟩) main_call3_v3) addi,
    TRef.ternary (TRef.of (T := ⟨S32x992x1, .i1⟩) main_call3_v1) (TRef.of (T := ⟨S32x992x1, .i32⟩) main_call3_v3) (TRef.of (T := ⟨S32x992x1, .i32⟩) main_v12) (TRef.of (T := ⟨S32x992x1, .i32⟩) main_call3_v4) select,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S32x992x1, .i32⟩) main_call3_v5) (broadcastInDim S32x992x1 ![] bcast_S_S32x992x1),
    TRef.binary (TRef.of (T := ⟨S32x992x1, .i32⟩) main_call3_v4) (TRef.of (T := ⟨S32x992x1, .i32⟩) main_call3_v5) (TRef.of (T := ⟨S32x992x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S32x992x1, .i32⟩) main_call3_v8) (broadcastInDim S32x992x1 ![0, 1, 2] bcast_S1x1x1_S32x992x1_0_1_2),
    TRef.binary (TRef.of (T := ⟨S32x992x1, .i32⟩) main_call3_v4) (TRef.of (T := ⟨S32x992x1, .i32⟩) main_call3_v8) (TRef.of (T := ⟨S32x992x1, .i1⟩) main_call3_v9) (cmpi .sle),
    TRef.binary (TRef.of (T := ⟨S32x992x1, .i1⟩) main_call3_v6) (TRef.of (T := ⟨S32x992x1, .i1⟩) main_call3_v9) (TRef.of (T := ⟨S32x992x1, .i1⟩) main_call3_v10) andi,
    TRef.nullary (TRef.of (T := ⟨S_, .i1⟩) main_call3_c_3) (constantI S_ 1 1#1),
    TRef.binary (TRef.of (T := ⟨S32x992x1, .i1⟩) main_call3_v10) (TRef.of (T := ⟨S_, .i1⟩) main_call3_c_3) (TRef.of (T := ⟨S32x992, .i1⟩) main_call3_v11) (fun x v => Host.reduce IntOp.andi x v reducesTo_S32x992x1_S32x992_d2 h_S_),
    TRef.binary (TRef.of (T := ⟨S32x512x512, .f32⟩) main_v11) (TRef.of (T := ⟨S32x992x1, .i32⟩) main_call3_v4) (TRef.of (T := ⟨S32x992x512, .f32⟩) main_call3_v12) (fun x i => Host.gather gather_S32x512x512_S32x992x1_S32x992x512_2_1_0_0_1_2_11512 x i),
    TRef.unary (TRef.of (T := ⟨S32x992, .i1⟩) main_call3_v11) (TRef.of (T := ⟨S32x992x512, .i1⟩) main_call3_v13) (broadcastInDim S32x992x512 ![0, 1] bcast_S32x992_S32x992x512_0_1),
    TRef.nullary (TRef.of (T := ⟨S_, .f32⟩) main_call3_cst) (constant S_ .f32 0x7FC00000#32),
    TRef.unary (TRef.of (T := ⟨S_, .f32⟩) main_call3_cst) (TRef.of (T := ⟨S32x992x512, .f32⟩) main_call3_v14) (broadcastInDim S32x992x512 ![] bcast_S_S32x992x512),
    TRef.ternary (TRef.of (T := ⟨S32x992x512, .i1⟩) main_call3_v13) (TRef.of (T := ⟨S32x992x512, .f32⟩) main_call3_v12) (TRef.of (T := ⟨S32x992x512, .f32⟩) main_call3_v14) (TRef.of (T := ⟨S32x992x512, .f32⟩) main_v13) select,
    binary main_v5 main_v13 main_v14 (mulf : (⟨S32x992x512, .f32⟩ : BufTy).Contents (Elt F) → (⟨S32x992x512, .f32⟩ : BufTy).Contents (Elt F) → (⟨S32x992x512, .f32⟩ : BufTy).Contents (Elt F)),
    binary main_v14 main_arg0 main_v15 ((fun l r => Host.dotGeneral dot_S32x992x512_S32x512x512_S32x992x512_2_2_1_1_0_0 none l r) : (⟨S32x992x512, .f32⟩ : BufTy).Contents (Elt F) → (⟨S32x512x512, .f32⟩ : BufTy).Contents (Elt F) → (⟨S32x992x512, .f32⟩ : BufTy).Contents (Elt F)),
    binary main_v2 main_v10 main_v16 (Host.divf : (⟨S32x992x512, .f32⟩ : BufTy).Contents (Elt F) → (⟨S32x992x512, .f32⟩ : BufTy).Contents (Elt F) → (⟨S32x992x512, .f32⟩ : BufTy).Contents (Elt F)),
    binary main_v16 main_v15 main_v17 (mulf : (⟨S32x992x512, .f32⟩ : BufTy).Contents (Elt F) → (⟨S32x992x512, .f32⟩ : BufTy).Contents (Elt F) → (⟨S32x992x512, .f32⟩ : BufTy).Contents (Elt F)),
    nullary main_cst_1 (constant S_ .f32 0x00000000#32),
    binary main_v17 main_cst_1 main_v18 ((fun x v => Host.reduceAdd x v reducesTo_S32x992x512_S32_d1_2 h_S_) : (⟨S32x992x512, .f32⟩ : BufTy).Contents (Elt F) → (⟨S_, .f32⟩ : BufTy).Contents (Elt F) → (⟨S32, .f32⟩ : BufTy).Contents (Elt F)) ]

set_option maxHeartbeats 1600000 in
/-- Operations 83 to 128: the data tokens' rows of q, and their entries at the perturbed tokens. -/
abbrev ops3 : List (HloOp τ sig (Elt F)) :=
  [ unary main_arg3 main_v19 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S32x992x1, .i32⟩) main_call4_v0) (broadcastInDim S32x992x1 ![] bcast_S_S32x992x1),
    TRef.binary (TRef.of (T := ⟨S32x992x1, .i32⟩) main_v19) (TRef.of (T := ⟨S32x992x1, .i32⟩) main_call4_v0) (TRef.of (T := ⟨S32x992x1, .i1⟩) main_call4_v1) (cmpi .slt),
    TRef.nullary (TRef.of (T := ⟨S_, .i32⟩) main_call4_c_0) (constantI S_ 32 512#32),
    TRef.unary (TRef.of (T := ⟨S_, .i32⟩) main_call4_c_0) (TRef.of (T := ⟨S32x992x1, .i32⟩) main_call4_v2) (broadcastInDim S32x992x1 ![] bcast_S_S32x992x1),
    TRef.binary (TRef.of (T := ⟨S32x992x1, .i32⟩) main_v19) (TRef.of (T := ⟨S32x992x1, .i32⟩) main_call4_v2) (TRef.of (T := ⟨S32x992x1, .i32⟩) main_call4_v3) addi,
    TRef.ternary (TRef.of (T := ⟨S32x992x1, .i1⟩) main_call4_v1) (TRef.of (T := ⟨S32x992x1, .i32⟩) main_call4_v3) (TRef.of (T := ⟨S32x992x1, .i32⟩) main_v19) (TRef.of (T := ⟨S32x992x1, .i32⟩) main_call4_v4) select,
    TRef.nullary (TRef.of (T := ⟨S1, .i32⟩) main_call4_c_1) (constantI S1 32 511#32),
    TRef.nullary (TRef.of (T := ⟨S_, .i32⟩) main_call4_c_2) (constantI S_ 32 0#32),
    TRef.unary (TRef.of (T := ⟨S_, .i32⟩) main_call4_c_2) (TRef.of (T := ⟨S32x992x1, .i32⟩) main_call4_v5) (broadcastInDim S32x992x1 ![] bcast_S_S32x992x1),
    TRef.binary (TRef.of (T := ⟨S32x992x1, .i32⟩) main_call4_v4) (TRef.of (T := ⟨S32x992x1, .i32⟩) main_call4_v5) (TRef.of (T := ⟨S32x992x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S32x992x1, .i32⟩) main_call4_v8) (broadcastInDim S32x992x1 ![0, 1, 2] bcast_S1x1x1_S32x992x1_0_1_2),
    TRef.binary (TRef.of (T := ⟨S32x992x1, .i32⟩) main_call4_v4) (TRef.of (T := ⟨S32x992x1, .i32⟩) main_call4_v8) (TRef.of (T := ⟨S32x992x1, .i1⟩) main_call4_v9) (cmpi .sle),
    TRef.binary (TRef.of (T := ⟨S32x992x1, .i1⟩) main_call4_v6) (TRef.of (T := ⟨S32x992x1, .i1⟩) main_call4_v9) (TRef.of (T := ⟨S32x992x1, .i1⟩) main_call4_v10) andi,
    TRef.nullary (TRef.of (T := ⟨S_, .i1⟩) main_call4_c_3) (constantI S_ 1 1#1),
    TRef.binary (TRef.of (T := ⟨S32x992x1, .i1⟩) main_call4_v10) (TRef.of (T := ⟨S_, .i1⟩) main_call4_c_3) (TRef.of (T := ⟨S32x992, .i1⟩) main_call4_v11) (fun x v => Host.reduce IntOp.andi x v reducesTo_S32x992x1_S32x992_d2 h_S_),
    TRef.binary (TRef.of (T := ⟨S32x512x512, .f32⟩) main_arg0) (TRef.of (T := ⟨S32x992x1, .i32⟩) main_call4_v4) (TRef.of (T := ⟨S32x992x512, .f32⟩) main_call4_v12) (fun x i => Host.gather gather_S32x512x512_S32x992x1_S32x992x512_2_1_0_0_1_2_11512 x i),
    TRef.unary (TRef.of (T := ⟨S32x992, .i1⟩) main_call4_v11) (TRef.of (T := ⟨S32x992x512, .i1⟩) main_call4_v13) (broadcastInDim S32x992x512 ![0, 1] bcast_S32x992_S32x992x512_0_1),
    TRef.nullary (TRef.of (T := ⟨S_, .f32⟩) main_call4_cst) (constant S_ .f32 0x7FC00000#32),
    TRef.unary (TRef.of (T := ⟨S_, .f32⟩) main_call4_cst) (TRef.of (T := ⟨S32x992x512, .f32⟩) main_call4_v14) (broadcastInDim S32x992x512 ![] bcast_S_S32x992x512),
    TRef.ternary (TRef.of (T := ⟨S32x992x512, .i1⟩) main_call4_v13) (TRef.of (T := ⟨S32x992x512, .f32⟩) main_call4_v12) (TRef.of (T := ⟨S32x992x512, .f32⟩) main_call4_v14) (TRef.of (T := ⟨S32x992x512, .f32⟩) main_v20) select,
    unary main_arg4 main_v21 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x992x1, .i32⟩) main_call5_v0) (broadcastInDim S32x992x1 ![] bcast_S_S32x992x1),
    TRef.binary (TRef.of (T := ⟨S32x992x1, .i32⟩) main_v21) (TRef.of (T := ⟨S32x992x1, .i32⟩) main_call5_v0) (TRef.of (T := ⟨S32x992x1, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S32x992x1, .i32⟩) main_call5_v2) (broadcastInDim S32x992x1 ![] bcast_S_S32x992x1),
    TRef.binary (TRef.of (T := ⟨S32x992x1, .i32⟩) main_v21) (TRef.of (T := ⟨S32x992x1, .i32⟩) main_call5_v2) (TRef.of (T := ⟨S32x992x1, .i32⟩) main_call5_v3) addi,
    TRef.ternary (TRef.of (T := ⟨S32x992x1, .i1⟩) main_call5_v1) (TRef.of (T := ⟨S32x992x1, .i32⟩) main_call5_v3) (TRef.of (T := ⟨S32x992x1, .i32⟩) main_v21) (TRef.of (T := ⟨S32x992x1, .i32⟩) main_call5_v4) select,
    TRef.reshape (TRef.of (T := ⟨S32x992x1, .i32⟩) main_call5_v4) (TRef.of (T := ⟨S32x992x1x1, .i32⟩) main_call5_v5) rfl shapeCasts_S32x992x1_S32x992x1x1,
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S32x992x1x1, .i32⟩) main_call5_v6) (broadcastInDim S32x992x1x1 ![] bcast_S_S32x992x1x1),
    TRef.binary (TRef.of (T := ⟨S32x992x1x1, .i32⟩) main_call5_v5) (TRef.of (T := ⟨S32x992x1x1, .i32⟩) main_call5_v6) (TRef.of (T := ⟨S32x992x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S32x992x1x1, .i32⟩) main_call5_v9) (broadcastInDim S32x992x1x1 ![0, 1, 2, 3] bcast_S1x1x1x1_S32x992x1x1_0_1_2_3),
    TRef.binary (TRef.of (T := ⟨S32x992x1x1, .i32⟩) main_call5_v5) (TRef.of (T := ⟨S32x992x1x1, .i32⟩) main_call5_v9) (TRef.of (T := ⟨S32x992x1x1, .i1⟩) main_call5_v10) (cmpi .sle),
    TRef.binary (TRef.of (T := ⟨S32x992x1x1, .i1⟩) main_call5_v7) (TRef.of (T := ⟨S32x992x1x1, .i1⟩) main_call5_v10) (TRef.of (T := ⟨S32x992x1x1, .i1⟩) main_call5_v11) andi,
    TRef.nullary (TRef.of (T := ⟨S_, .i1⟩) main_call5_c_3) (constantI S_ 1 1#1),
    TRef.binary (TRef.of (T := ⟨S32x992x1x1, .i1⟩) main_call5_v11) (TRef.of (T := ⟨S_, .i1⟩) main_call5_c_3) (TRef.of (T := ⟨S32x992x1, .i1⟩) main_call5_v12) (fun x v => Host.reduce IntOp.andi x v reducesTo_S32x992x1x1_S32x992x1_d3 h_S_),
    TRef.binary (TRef.of (T := ⟨S32x992x512, .f32⟩) main_v20) (TRef.of (T := ⟨S32x992x1x1, .i32⟩) main_call5_v5) (TRef.of (T := ⟨S32x992x1, .f32⟩) main_call5_v13) (fun x i => Host.gather gather_S32x992x512_S32x992x1x1_S32x992x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x992x1, .f32⟩) main_call5_v14) (broadcastInDim S32x992x1 ![] bcast_S_S32x992x1),
    TRef.ternary (TRef.of (T := ⟨S32x992x1, .i1⟩) main_call5_v12) (TRef.of (T := ⟨S32x992x1, .f32⟩) main_call5_v13) (TRef.of (T := ⟨S32x992x1, .f32⟩) main_call5_v14) (TRef.of (T := ⟨S32x992x1, .f32⟩) main_v22) select ]

set_option maxHeartbeats 1600000 in
/-- Operations 129 to 167: the guarded entry, the softmax over the guarded column of q contracted with q, the logarithm of that plus the guard, and the transposed rate with the perturbed tokens as a column. -/
abbrev ops4 : List (HloOp τ sig (Elt F)) :=
  [ reshape main_v22 main_v23 rfl shapeCasts_S32x992x1_S32x992,
    nullary main_cst_2 (constant S_ .f32 0x3089705F#32),
    unary main_cst_2 main_v24 (broadcastInDim S32x992 ![] bcast_S_S32x992 : (⟨S_, .f32⟩ : BufTy).Contents (Elt F) → (⟨S32x992, .f32⟩ : BufTy).Contents (Elt F)),
    binary main_v23 main_v24 main_v25 (addf : (⟨S32x992, .f32⟩ : BufTy).Contents (Elt F) → (⟨S32x992, .f32⟩ : BufTy).Contents (Elt F) → (⟨S32x992, .f32⟩ : BufTy).Contents (Elt F)),
    unary main_arg0 main_v26 ((transpose S32x512x512 [0, 2, 1] · transposes_S32x512x512_S32x512x512_0_2_1) : (⟨S32x512x512, .f32⟩ : BufTy).Contents (Elt F) → (⟨S32x512x512, .f32⟩ : BufTy).Contents (Elt F)),
    unary main_arg4 main_v27 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S32x992x1, .i32⟩) main_call6_v0) (broadcastInDim S32x992x1 ![] bcast_S_S32x992x1),
    TRef.binary (TRef.of (T := ⟨S32x992x1, .i32⟩) main_v27) (TRef.of (T := ⟨S32x992x1, .i32⟩) main_call6_v0) (TRef.of (T := ⟨S32x992x1, .i1⟩) main_call6_v1) (cmpi .slt),
    TRef.nullary (TRef.of (T := ⟨S_, .i32⟩) main_call6_c_0) (constantI S_ 32 512#32),
    TRef.unary (TRef.of (T := ⟨S_, .i32⟩) main_call6_c_0) (TRef.of (T := ⟨S32x992x1, .i32⟩) main_call6_v2) (broadcastInDim S32x992x1 ![] bcast_S_S32x992x1),
    TRef.binary (TRef.of (T := ⟨S32x992x1, .i32⟩) main_v27) (TRef.of (T := ⟨S32x992x1, .i32⟩) main_call6_v2) (TRef.of (T := ⟨S32x992x1, .i32⟩) main_call6_v3) addi,
    TRef.ternary (TRef.of (T := ⟨S32x992x1, .i1⟩) main_call6_v1) (TRef.of (T := ⟨S32x992x1, .i32⟩) main_call6_v3) (TRef.of (T := ⟨S32x992x1, .i32⟩) main_v27) (TRef.of (T := ⟨S32x992x1, .i32⟩) main_call6_v4) select,
    TRef.nullary (TRef.of (T := ⟨S1, .i32⟩) main_call6_c_1) (constantI S1 32 511#32),
    TRef.nullary (TRef.of (T := ⟨S_, .i32⟩) main_call6_c_2) (constantI S_ 32 0#32),
    TRef.unary (TRef.of (T := ⟨S_, .i32⟩) main_call6_c_2) (TRef.of (T := ⟨S32x992x1, .i32⟩) main_call6_v5) (broadcastInDim S32x992x1 ![] bcast_S_S32x992x1),
    TRef.binary (TRef.of (T := ⟨S32x992x1, .i32⟩) main_call6_v4) (TRef.of (T := ⟨S32x992x1, .i32⟩) main_call6_v5) (TRef.of (T := ⟨S32x992x1, .i1⟩) main_call6_v6) (cmpi .sge),
    TRef.unary (TRef.of (T := ⟨S1, .i32⟩) main_call6_c_1) (TRef.of (T := ⟨S1x1x1, .i32⟩) main_call6_v7) (broadcastInDim S1x1x1 ![2] bcast_S1_S1x1x1_2),
    TRef.unary (TRef.of (T := ⟨S1x1x1, .i32⟩) main_call6_v7) (TRef.of (T := ⟨S32x992x1, .i32⟩) main_call6_v8) (broadcastInDim S32x992x1 ![0, 1, 2] bcast_S1x1x1_S32x992x1_0_1_2),
    TRef.binary (TRef.of (T := ⟨S32x992x1, .i32⟩) main_call6_v4) (TRef.of (T := ⟨S32x992x1, .i32⟩) main_call6_v8) (TRef.of (T := ⟨S32x992x1, .i1⟩) main_call6_v9) (cmpi .sle),
    TRef.binary (TRef.of (T := ⟨S32x992x1, .i1⟩) main_call6_v6) (TRef.of (T := ⟨S32x992x1, .i1⟩) main_call6_v9) (TRef.of (T := ⟨S32x992x1, .i1⟩) main_call6_v10) andi,
    TRef.nullary (TRef.of (T := ⟨S_, .i1⟩) main_call6_c_3) (constantI S_ 1 1#1),
    TRef.binary (TRef.of (T := ⟨S32x992x1, .i1⟩) main_call6_v10) (TRef.of (T := ⟨S_, .i1⟩) main_call6_c_3) (TRef.of (T := ⟨S32x992, .i1⟩) main_call6_v11) (fun x v => Host.reduce IntOp.andi x v reducesTo_S32x992x1_S32x992_d2 h_S_),
    TRef.binary (TRef.of (T := ⟨S32x512x512, .f32⟩) main_v26) (TRef.of (T := ⟨S32x992x1, .i32⟩) main_call6_v4) (TRef.of (T := ⟨S32x992x512, .f32⟩) main_call6_v12) (fun x i => Host.gather gather_S32x512x512_S32x992x1_S32x992x512_2_1_0_0_1_2_11512 x i),
    TRef.unary (TRef.of (T := ⟨S32x992, .i1⟩) main_call6_v11) (TRef.of (T := ⟨S32x992x512, .i1⟩) main_call6_v13) (broadcastInDim S32x992x512 ![0, 1] bcast_S32x992_S32x992x512_0_1),
    TRef.nullary (TRef.of (T := ⟨S_, .f32⟩) main_call6_cst) (constant S_ .f32 0x7FC00000#32),
    TRef.unary (TRef.of (T := ⟨S_, .f32⟩) main_call6_cst) (TRef.of (T := ⟨S32x992x512, .f32⟩) main_call6_v14) (broadcastInDim S32x992x512 ![] bcast_S_S32x992x512),
    TRef.ternary (TRef.of (T := ⟨S32x992x512, .i1⟩) main_call6_v13) (TRef.of (T := ⟨S32x992x512, .f32⟩) main_call6_v12) (TRef.of (T := ⟨S32x992x512, .f32⟩) main_call6_v14) (TRef.of (T := ⟨S32x992x512, .f32⟩) main_v28) select,
    nullary main_cst_3 (constant S_ .f32 0x3089705F#32),
    unary main_cst_3 main_v29 (broadcastInDim S32x992x512 ![] bcast_S_S32x992x512 : (⟨S_, .f32⟩ : BufTy).Contents (Elt F) → (⟨S32x992x512, .f32⟩ : BufTy).Contents (Elt F)),
    binary main_v28 main_v29 main_v30 (addf : (⟨S32x992x512, .f32⟩ : BufTy).Contents (Elt F) → (⟨S32x992x512, .f32⟩ : BufTy).Contents (Elt F) → (⟨S32x992x512, .f32⟩ : BufTy).Contents (Elt F)),
    binary main_v2 main_v30 main_v31 (Host.divf : (⟨S32x992x512, .f32⟩ : BufTy).Contents (Elt F) → (⟨S32x992x512, .f32⟩ : BufTy).Contents (Elt F) → (⟨S32x992x512, .f32⟩ : BufTy).Contents (Elt F)),
    binary main_v31 main_arg0 main_v32 ((fun l r => Host.dotGeneral dot_S32x992x512_S32x512x512_S32x992x512_2_1_1_2_0_0 none l r) : (⟨S32x992x512, .f32⟩ : BufTy).Contents (Elt F) → (⟨S32x512x512, .f32⟩ : BufTy).Contents (Elt F) → (⟨S32x992x512, .f32⟩ : BufTy).Contents (Elt F)),
    nullary main_cst_4 (constant S_ .f32 0x3089705F#32),
    unary main_cst_4 main_v33 (broadcastInDim S32x992x512 ![] bcast_S_S32x992x512 : (⟨S_, .f32⟩ : BufTy).Contents (Elt F) → (⟨S32x992x512, .f32⟩ : BufTy).Contents (Elt F)),
    binary main_v32 main_v33 main_v34 (addf : (⟨S32x992x512, .f32⟩ : BufTy).Contents (Elt F) → (⟨S32x992x512, .f32⟩ : BufTy).Contents (Elt F) → (⟨S32x992x512, .f32⟩ : BufTy).Contents (Elt F)),
    unary main_v34 main_v35 (Host.log : (⟨S32x992x512, .f32⟩ : BufTy).Contents (Elt F) → (⟨S32x992x512, .f32⟩ : BufTy).Contents (Elt F)),
    unary main_arg1 main_v36 ((transpose S32x512x512 [0, 2, 1] · transposes_S32x512x512_S32x512x512_0_2_1) : (⟨S32x512x512, .f32⟩ : BufTy).Contents (Elt F) → (⟨S32x512x512, .f32⟩ : BufTy).Contents (Elt F)),
    unary main_arg4 main_v37 (broadcastInDim S32x992x1 ![0, 1] bcast_S32x992_S32x992x1_0_1 : (⟨S32x992, .i32⟩ : BufTy).Contents (Elt F) → (⟨S32x992x1, .i32⟩ : BufTy).Contents (Elt F)) ]

set_option maxHeartbeats 1600000 in
/-- Operations 168 to 215: the masked columns of the rate, the data rows over the guarded entry, the signal's sum for each batch element, and the two index columns of the rate's diagonal. -/
abbrev ops5 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S32x992x1, .i32⟩) main_call7_v0) (broadcastInDim S32x992x1 ![] bcast_S_S32x992x1),
    TRef.binary (TRef.of (T := ⟨S32x992x1, .i32⟩) main_v37) (TRef.of (T := ⟨S32x992x1, .i32⟩) main_call7_v0) (TRef.of (T := ⟨S32x992x1, .i1⟩) main_call7_v1) (cmpi .slt),
    TRef.nullary (TRef.of (T := ⟨S_, .i32⟩) main_call7_c_0) (constantI S_ 32 512#32),
    TRef.unary (TRef.of (T := ⟨S_, .i32⟩) main_call7_c_0) (TRef.of (T := ⟨S32x992x1, .i32⟩) main_call7_v2) (broadcastInDim S32x992x1 ![] bcast_S_S32x992x1),
    TRef.binary (TRef.of (T := ⟨S32x992x1, .i32⟩) main_v37) (TRef.of (T := ⟨S32x992x1, .i32⟩) main_call7_v2) (TRef.of (T := ⟨S32x992x1, .i32⟩) main_call7_v3) addi,
    TRef.ternary (TRef.of (T := ⟨S32x992x1, .i1⟩) main_call7_v1) (TRef.of (T := ⟨S32x992x1, .i32⟩) main_call7_v3) (TRef.of (T := ⟨S32x992x1, .i32⟩) main_v37) (TRef.of (T := ⟨S32x992x1, .i32⟩) main_call7_v4) select,
    TRef.nullary (TRef.of (T := ⟨S1, .i32⟩) main_call7_c_1) (constantI S1 32 511#32),
    TRef.nullary (TRef.of (T := ⟨S_, .i32⟩) main_call7_c_2) (constantI S_ 32 0#32),
    TRef.unary (TRef.of (T := ⟨S_, .i32⟩) main_call7_c_2) (TRef.of (T := ⟨S32x992x1, .i32⟩) main_call7_v5) (broadcastInDim S32x992x1 ![] bcast_S_S32x992x1),
    TRef.binary (TRef.of (T := ⟨S32x992x1, .i32⟩) main_call7_v4) (TRef.of (T := ⟨S32x992x1, .i32⟩) main_call7_v5) (TRef.of (T := ⟨S32x992x1, .i1⟩) main_call7_v6) (cmpi .sge),
    TRef.unary (TRef.of (T := ⟨S1, .i32⟩) main_call7_c_1) (TRef.of (T := ⟨S1x1x1, .i32⟩) main_call7_v7) (broadcastInDim S1x1x1 ![2] bcast_S1_S1x1x1_2),
    TRef.unary (TRef.of (T := ⟨S1x1x1, .i32⟩) main_call7_v7) (TRef.of (T := ⟨S32x992x1, .i32⟩) main_call7_v8) (broadcastInDim S32x992x1 ![0, 1, 2] bcast_S1x1x1_S32x992x1_0_1_2),
    TRef.binary (TRef.of (T := ⟨S32x992x1, .i32⟩) main_call7_v4) (TRef.of (T := ⟨S32x992x1, .i32⟩) main_call7_v8) (TRef.of (T := ⟨S32x992x1, .i1⟩) main_call7_v9) (cmpi .sle),
    TRef.binary (TRef.of (T := ⟨S32x992x1, .i1⟩) main_call7_v6) (TRef.of (T := ⟨S32x992x1, .i1⟩) main_call7_v9) (TRef.of (T := ⟨S32x992x1, .i1⟩) main_call7_v10) andi,
    TRef.nullary (TRef.of (T := ⟨S_, .i1⟩) main_call7_c_3) (constantI S_ 1 1#1),
    TRef.binary (TRef.of (T := ⟨S32x992x1, .i1⟩) main_call7_v10) (TRef.of (T := ⟨S_, .i1⟩) main_call7_c_3) (TRef.of (T := ⟨S32x992, .i1⟩) main_call7_v11) (fun x v => Host.reduce IntOp.andi x v reducesTo_S32x992x1_S32x992_d2 h_S_),
    TRef.binary (TRef.of (T := ⟨S32x512x512, .f32⟩) main_v36) (TRef.of (T := ⟨S32x992x1, .i32⟩) main_call7_v4) (TRef.of (T := ⟨S32x992x512, .f32⟩) main_call7_v12) (fun x i => Host.gather gather_S32x512x512_S32x992x1_S32x992x512_2_1_0_0_1_2_11512 x i),
    TRef.unary (TRef.of (T := ⟨S32x992, .i1⟩) main_call7_v11) (TRef.of (T := ⟨S32x992x512, .i1⟩) main_call7_v13) (broadcastInDim S32x992x512 ![0, 1] bcast_S32x992_S32x992x512_0_1),
    TRef.nullary (TRef.of (T := ⟨S_, .f32⟩) main_call7_cst) (constant S_ .f32 0x7FC00000#32),
    TRef.unary (TRef.of (T := ⟨S_, .f32⟩) main_call7_cst) (TRef.of (T := ⟨S32x992x512, .f32⟩) main_call7_v14) (broadcastInDim S32x992x512 ![] bcast_S_S32x992x512),
    TRef.ternary (TRef.of (T := ⟨S32x992x512, .i1⟩) main_call7_v13) (TRef.of (T := ⟨S32x992x512, .f32⟩) main_call7_v12) (TRef.of (T := ⟨S32x992x512, .f32⟩) main_call7_v14) (TRef.of (T := ⟨S32x992x512, .f32⟩) main_v38) select,
    binary main_v5 main_v38 main_v39 (mulf : (⟨S32x992x512, .f32⟩ : BufTy).Contents (Elt F) → (⟨S32x992x512, .f32⟩ : BufTy).Contents (Elt F) → (⟨S32x992x512, .f32⟩ : BufTy).Contents (Elt F)),
    unary main_v25 main_v40 (broadcastInDim S32x992x1 ![0, 1] bcast_S32x992_S32x992x1_0_1 : (⟨S32x992, .f32⟩ : BufTy).Contents (Elt F) → (⟨S32x992x1, .f32⟩ : BufTy).Contents (Elt F)),
    unary main_v40 main_v41 (broadcastInDim S32x992x512 ![0, 1, 2] bcast_S32x992x1_S32x992x512_0_1_2 : (⟨S32x992x1, .f32⟩ : BufTy).Contents (Elt F) → (⟨S32x992x512, .f32⟩ : BufTy).Contents (Elt F)),
    binary main_v20 main_v41 main_v42 (Host.divf : (⟨S32x992x512, .f32⟩ : BufTy).Contents (Elt F) → (⟨S32x992x512, .f32⟩ : BufTy).Contents (Elt F) → (⟨S32x992x512, .f32⟩ : BufTy).Contents (Elt F)),
    binary main_v39 main_v42 main_v43 (mulf : (⟨S32x992x512, .f32⟩ : BufTy).Contents (Elt F) → (⟨S32x992x512, .f32⟩ : BufTy).Contents (Elt F) → (⟨S32x992x512, .f32⟩ : BufTy).Contents (Elt F)),
    binary main_v43 main_v35 main_v44 (mulf : (⟨S32x992x512, .f32⟩ : BufTy).Contents (Elt F) → (⟨S32x992x512, .f32⟩ : BufTy).Contents (Elt F) → (⟨S32x992x512, .f32⟩ : BufTy).Contents (Elt F)),
    nullary main_cst_5 (constant S_ .f32 0x00000000#32),
    binary main_v44 main_cst_5 main_v45 ((fun x v => Host.reduceAdd x v reducesTo_S32x992x512_S32_d1_2 h_S_) : (⟨S32x992x512, .f32⟩ : BufTy).Contents (Elt F) → (⟨S_, .f32⟩ : BufTy).Contents (Elt F) → (⟨S32, .f32⟩ : BufTy).Contents (Elt F)),
    TRef.nullary (TRef.of (T := ⟨S512, .i32⟩) main_call8_v0) (iotaInDim S512 32 0),
    TRef.nullary (TRef.of (T := ⟨S512, .i32⟩) main_call8_v1) (iotaInDim S512 32 0),
    TRef.nullary (TRef.of (T := ⟨S_, .i32⟩) main_call8_c) (constantI S_ 32 0#32),
    TRef.unary (TRef.of (T := ⟨S_, .i32⟩) main_call8_c) (TRef.of (T := ⟨S512, .i32⟩) main_call8_v2) (broadcastInDim S512 ![] bcast_S_S512),
    TRef.binary (TRef.of (T := ⟨S512, .i32⟩) main_call8_v0) (TRef.of (T := ⟨S512, .i32⟩) main_call8_v2) (TRef.of (T := ⟨S512, .i1⟩) main_call8_v3) (cmpi .slt),
    TRef.nullary (TRef.of (T := ⟨S_, .i32⟩) main_call8_c_0) (constantI S_ 32 512#32),
    TRef.unary (TRef.of (T := ⟨S_, .i32⟩) main_call8_c_0) (TRef.of (T := ⟨S512, .i32⟩) main_call8_v4) (broadcastInDim S512 ![] bcast_S_S512),
    TRef.binary (TRef.of (T := ⟨S512, .i32⟩) main_call8_v0) (TRef.of (T := ⟨S512, .i32⟩) main_call8_v4) (TRef.of (T := ⟨S512, .i32⟩) main_call8_v5) addi,
    TRef.ternary (TRef.of (T := ⟨S512, .i1⟩) main_call8_v3) (TRef.of (T := ⟨S512, .i32⟩) main_call8_v5) (TRef.of (T := ⟨S512, .i32⟩) main_call8_v0) (TRef.of (T := ⟨S512, .i32⟩) main_call8_v6) select,
    TRef.nullary (TRef.of (T := ⟨S_, .i32⟩) main_call8_c_1) (constantI S_ 32 0#32),
    TRef.unary (TRef.of (T := ⟨S_, .i32⟩) main_call8_c_1) (TRef.of (T := ⟨S512, .i32⟩) main_call8_v7) (broadcastInDim S512 ![] bcast_S_S512),
    TRef.binary (TRef.of (T := ⟨S512, .i32⟩) main_call8_v1) (TRef.of (T := ⟨S512, .i32⟩) main_call8_v7) (TRef.of (T := ⟨S512, .i1⟩) main_call8_v8) (cmpi .slt),
    TRef.nullary (TRef.of (T := ⟨S_, .i32⟩) main_call8_c_2) (constantI S_ 32 512#32),
    TRef.unary (TRef.of (T := ⟨S_, .i32⟩) main_call8_c_2) (TRef.of (T := ⟨S512, .i32⟩) main_call8_v9) (broadcastInDim S512 ![] bcast_S_S512),
    TRef.binary (TRef.of (T := ⟨S512, .i32⟩) main_call8_v1) (TRef.of (T := ⟨S512, .i32⟩) main_call8_v9) (TRef.of (T := ⟨S512, .i32⟩) main_call8_v10) addi,
    TRef.ternary (TRef.of (T := ⟨S512, .i1⟩) main_call8_v8) (TRef.of (T := ⟨S512, .i32⟩) main_call8_v10) (TRef.of (T := ⟨S512, .i32⟩) main_call8_v1) (TRef.of (T := ⟨S512, .i32⟩) main_call8_v11) select,
    TRef.unary (TRef.of (T := ⟨S512, .i32⟩) main_call8_v6) (TRef.of (T := ⟨S512x1, .i32⟩) main_call8_v12) (broadcastInDim S512x1 ![0] bcast_S512_S512x1_0),
    TRef.unary (TRef.of (T := ⟨S512, .i32⟩) main_call8_v11) (TRef.of (T := ⟨S512x1, .i32⟩) main_call8_v13) (broadcastInDim S512x1 ![0] bcast_S512_S512x1_0) ]

set_option maxHeartbeats 1600000 in
/-- Operations 216 to 258: minus the rate's diagonal, its entries at the perturbed tokens, the normalizer's denominator, and the normalizer's sum for each batch element. -/
abbrev ops6 : List (HloOp τ sig (Elt F)) :=
  [ TRef.binary (TRef.of (T := ⟨S512x1, .i32⟩) main_call8_v12) (TRef.of (T := ⟨S512x1, .i32⟩) main_call8_v13) (TRef.of (T := ⟨S512x2, .i32⟩) main_call8_v14) (fun a b => concatenate S512x2 1 [⟨S512x1, a⟩, ⟨S512x1, b⟩] concatenates_S512x1_S512x1_S512x2_d1),
    TRef.binary (TRef.of (T := ⟨S32x512x512, .f32⟩) main_arg1) (TRef.of (T := ⟨S512x2, .i32⟩) main_call8_v14) (TRef.of (T := ⟨S32x512, .f32⟩) main_v46) (fun x i => Host.gather gather_S32x512x512_S512x2_S32x512_0_12_n_n_12_1_3211 x i),
    unary main_v46 main_v47 (Host.negf : (⟨S32x512, .f32⟩ : BufTy).Contents (Elt F) → (⟨S32x512, .f32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S32x992, .i32⟩) main_call9_v0) (broadcastInDim S32x992 ![] bcast_S_S32x992),
    TRef.binary (TRef.of (T := ⟨S32x992, .i32⟩) main_arg4) (TRef.of (T := ⟨S32x992, .i32⟩) main_call9_v0) (TRef.of (T := ⟨S32x992, .i1⟩) main_call9_v1) (cmpi .slt),
    TRef.nullary (TRef.of (T := ⟨S_, .i32⟩) main_call9_c_0) (constantI S_ 32 512#32),
    TRef.unary (TRef.of (T := ⟨S_, .i32⟩) main_call9_c_0) (TRef.of (T := ⟨S32x992, .i32⟩) main_call9_v2) (broadcastInDim S32x992 ![] bcast_S_S32x992),
    TRef.binary (TRef.of (T := ⟨S32x992, .i32⟩) main_arg4) (TRef.of (T := ⟨S32x992, .i32⟩) main_call9_v2) (TRef.of (T := ⟨S32x992, .i32⟩) main_call9_v3) addi,
    TRef.ternary (TRef.of (T := ⟨S32x992, .i1⟩) main_call9_v1) (TRef.of (T := ⟨S32x992, .i32⟩) main_call9_v3) (TRef.of (T := ⟨S32x992, .i32⟩) main_arg4) (TRef.of (T := ⟨S32x992, .i32⟩) main_call9_v4) select,
    TRef.reshape (TRef.of (T := ⟨S32x992, .i32⟩) main_call9_v4) (TRef.of (T := ⟨S32x992x1, .i32⟩) main_call9_v5) rfl shapeCasts_S32x992_S32x992x1,
    TRef.nullary (TRef.of (T := ⟨S1, .i32⟩) main_call9_c_1) (constantI S1 32 511#32),
    TRef.nullary (TRef.of (T := ⟨S_, .i32⟩) main_call9_c_2) (constantI S_ 32 0#32),
    TRef.unary (TRef.of (T := ⟨S_, .i32⟩) main_call9_c_2) (TRef.of (T := ⟨S32x992x1, .i32⟩) main_call9_v6) (broadcastInDim S32x992x1 ![] bcast_S_S32x992x1),
    TRef.binary (TRef.of (T := ⟨S32x992x1, .i32⟩) main_call9_v5) (TRef.of (T := ⟨S32x992x1, .i32⟩) main_call9_v6) (TRef.of (T := ⟨S32x992x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S32x992x1, .i32⟩) main_call9_v9) (broadcastInDim S32x992x1 ![0, 1, 2] bcast_S1x1x1_S32x992x1_0_1_2),
    TRef.binary (TRef.of (T := ⟨S32x992x1, .i32⟩) main_call9_v5) (TRef.of (T := ⟨S32x992x1, .i32⟩) main_call9_v9) (TRef.of (T := ⟨S32x992x1, .i1⟩) main_call9_v10) (cmpi .sle),
    TRef.binary (TRef.of (T := ⟨S32x992x1, .i1⟩) main_call9_v7) (TRef.of (T := ⟨S32x992x1, .i1⟩) main_call9_v10) (TRef.of (T := ⟨S32x992x1, .i1⟩) main_call9_v11) andi,
    TRef.nullary (TRef.of (T := ⟨S_, .i1⟩) main_call9_c_3) (constantI S_ 1 1#1),
    TRef.binary (TRef.of (T := ⟨S32x992x1, .i1⟩) main_call9_v11) (TRef.of (T := ⟨S_, .i1⟩) main_call9_c_3) (TRef.of (T := ⟨S32x992, .i1⟩) main_call9_v12) (fun x v => Host.reduce IntOp.andi x v reducesTo_S32x992x1_S32x992_d2 h_S_),
    TRef.binary (TRef.of (T := ⟨S32x512, .f32⟩) main_v47) (TRef.of (T := ⟨S32x992x1, .i32⟩) main_call9_v5) (TRef.of (T := ⟨S32x992, .f32⟩) main_call9_v13) (fun x i => Host.gather gather_S32x512_S32x992x1_S32x992_n_1_0_0_1_2_11 x i),
    TRef.nullary (TRef.of (T := ⟨S_, .f32⟩) main_call9_cst) (constant S_ .f32 0x7FC00000#32),
    TRef.unary (TRef.of (T := ⟨S_, .f32⟩) main_call9_cst) (TRef.of (T := ⟨S32x992, .f32⟩) main_call9_v14) (broadcastInDim S32x992 ![] bcast_S_S32x992),
    TRef.ternary (TRef.of (T := ⟨S32x992, .i1⟩) main_call9_v12) (TRef.of (T := ⟨S32x992, .f32⟩) main_call9_v13) (TRef.of (T := ⟨S32x992, .f32⟩) main_call9_v14) (TRef.of (T := ⟨S32x992, .f32⟩) main_v48) select,
    nullary main_cst_6 (constant S_ .f32 0x00000000#32),
    binary main_v48 main_cst_6 main_v49 ((fun x v => Host.reduceAdd x v reducesTo_S32x992_S32_d1 h_S_) : (⟨S32x992, .f32⟩ : BufTy).Contents (Elt F) → (⟨S_, .f32⟩ : BufTy).Contents (Elt F) → (⟨S32, .f32⟩ : BufTy).Contents (Elt F)),
    unary main_v49 main_v50 (broadcastInDim S32x1x1 ![0] bcast_S32_S32x1x1_0 : (⟨S32, .f32⟩ : BufTy).Contents (Elt F) → (⟨S32x1x1, .f32⟩ : BufTy).Contents (Elt F)),
    unary main_v48 main_v51 (broadcastInDim S32x992x1 ![0, 1] bcast_S32x992_S32x992x1_0_1 : (⟨S32x992, .f32⟩ : BufTy).Contents (Elt F) → (⟨S32x992x1, .f32⟩ : BufTy).Contents (Elt F)),
    unary main_v50 main_v52 (broadcastInDim S32x992x1 ![0, 1, 2] bcast_S32x1x1_S32x992x1_0_1_2 : (⟨S32x1x1, .f32⟩ : BufTy).Contents (Elt F) → (⟨S32x992x1, .f32⟩ : BufTy).Contents (Elt F)),
    binary main_v52 main_v51 main_v53 (subf : (⟨S32x992x1, .f32⟩ : BufTy).Contents (Elt F) → (⟨S32x992x1, .f32⟩ : BufTy).Contents (Elt F) → (⟨S32x992x1, .f32⟩ : BufTy).Contents (Elt F)),
    unary main_v47 main_v54 (broadcastInDim S32x1x512 ![0, 2] bcast_S32x512_S32x1x512_0_2 : (⟨S32x512, .f32⟩ : BufTy).Contents (Elt F) → (⟨S32x1x512, .f32⟩ : BufTy).Contents (Elt F)),
    unary main_v53 main_v55 (broadcastInDim S32x992x512 ![0, 1, 2] bcast_S32x992x1_S32x992x512_0_1_2 : (⟨S32x992x1, .f32⟩ : BufTy).Contents (Elt F) → (⟨S32x992x512, .f32⟩ : BufTy).Contents (Elt F)),
    unary main_v54 main_v56 (broadcastInDim S32x992x512 ![0, 1, 2] bcast_S32x1x512_S32x992x512_0_1_2 : (⟨S32x1x512, .f32⟩ : BufTy).Contents (Elt F) → (⟨S32x992x512, .f32⟩ : BufTy).Contents (Elt F)),
    binary main_v55 main_v56 main_v57 (addf : (⟨S32x992x512, .f32⟩ : BufTy).Contents (Elt F) → (⟨S32x992x512, .f32⟩ : BufTy).Contents (Elt F) → (⟨S32x992x512, .f32⟩ : BufTy).Contents (Elt F)),
    binary main_v38 main_v20 main_v58 (mulf : (⟨S32x992x512, .f32⟩ : BufTy).Contents (Elt F) → (⟨S32x992x512, .f32⟩ : BufTy).Contents (Elt F) → (⟨S32x992x512, .f32⟩ : BufTy).Contents (Elt F)),
    binary main_v58 main_v5 main_v59 (mulf : (⟨S32x992x512, .f32⟩ : BufTy).Contents (Elt F) → (⟨S32x992x512, .f32⟩ : BufTy).Contents (Elt F) → (⟨S32x992x512, .f32⟩ : BufTy).Contents (Elt F)),
    unary main_v25 main_v60 (broadcastInDim S32x992x1 ![0, 1] bcast_S32x992_S32x992x1_0_1 : (⟨S32x992, .f32⟩ : BufTy).Contents (Elt F) → (⟨S32x992x1, .f32⟩ : BufTy).Contents (Elt F)),
    unary main_v60 main_v61 (broadcastInDim S32x992x512 ![0, 1, 2] bcast_S32x992x1_S32x992x512_0_1_2 : (⟨S32x992x1, .f32⟩ : BufTy).Contents (Elt F) → (⟨S32x992x512, .f32⟩ : BufTy).Contents (Elt F)),
    binary main_v57 main_v61 main_v62 (mulf : (⟨S32x992x512, .f32⟩ : BufTy).Contents (Elt F) → (⟨S32x992x512, .f32⟩ : BufTy).Contents (Elt F) → (⟨S32x992x512, .f32⟩ : BufTy).Contents (Elt F)),
    binary main_v59 main_v62 main_v63 (Host.divf : (⟨S32x992x512, .f32⟩ : BufTy).Contents (Elt F) → (⟨S32x992x512, .f32⟩ : BufTy).Contents (Elt F) → (⟨S32x992x512, .f32⟩ : BufTy).Contents (Elt F)),
    nullary main_cst_7 (constant S_ .f32 0x00000000#32),
    binary main_v63 main_cst_7 main_v64 ((fun x v => Host.reduceAdd x v reducesTo_S32x992x512_S32_d1_2 h_S_) : (⟨S32x992x512, .f32⟩ : BufTy).Contents (Elt F) → (⟨S_, .f32⟩ : BufTy).Contents (Elt F) → (⟨S32, .f32⟩ : BufTy).Contents (Elt F)) ]

set_option maxHeartbeats 1600000 in
/-- Operations 259 to 300: the two means over the batch, the mean log-likelihood of the data tokens, and the result. -/
abbrev ops7 : List (HloOp τ sig (Elt F)) :=
  [ unary main_v45 main_v65 (Host.negf : (⟨S32, .f32⟩ : BufTy).Contents (Elt F) → (⟨S32, .f32⟩ : BufTy).Contents (Elt F)),
    binary main_v65 main_v64 main_v66 (Host.divf : (⟨S32, .f32⟩ : BufTy).Contents (Elt F) → (⟨S32, .f32⟩ : BufTy).Contents (Elt F) → (⟨S32, .f32⟩ : BufTy).Contents (Elt F)),
    nullary main_cst_8 (constant S_ .f32 0x00000000#32),
    binary main_v66 main_cst_8 main_v67 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_9 (constant S_ .f32 0x42000000#32),
    binary main_v67 main_cst_9 main_v68 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    binary main_v18 main_cst_10 main_v69 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_11 (constant S_ .f32 0x42000000#32),
    binary main_v69 main_cst_11 main_v70 (Host.divf : (⟨S_, .f32⟩ : BufTy).Contents (Elt F) → (⟨S_, .f32⟩ : BufTy).Contents (Elt F) → (⟨S_, .f32⟩ : BufTy).Contents (Elt F)),
    binary main_v68 main_v70 main_v71 (addf : (⟨S_, .f32⟩ : BufTy).Contents (Elt F) → (⟨S_, .f32⟩ : BufTy).Contents (Elt F) → (⟨S_, .f32⟩ : BufTy).Contents (Elt F)),
    unary main_arg3 main_v72 (broadcastInDim S32x992x1 ![0, 1] bcast_S32x992_S32x992x1_0_1 : (⟨S32x992, .i32⟩ : BufTy).Contents (Elt F) → (⟨S32x992x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S32x992x1, .i32⟩) main_call10_v0) (broadcastInDim S32x992x1 ![] bcast_S_S32x992x1),
    TRef.binary (TRef.of (T := ⟨S32x992x1, .i32⟩) main_v72) (TRef.of (T := ⟨S32x992x1, .i32⟩) main_call10_v0) (TRef.of (T := ⟨S32x992x1, .i1⟩) main_call10_v1) (cmpi .slt),
    TRef.nullary (TRef.of (T := ⟨S_, .i32⟩) main_call10_c_0) (constantI S_ 32 512#32),
    TRef.unary (TRef.of (T := ⟨S_, .i32⟩) main_call10_c_0) (TRef.of (T := ⟨S32x992x1, .i32⟩) main_call10_v2) (broadcastInDim S32x992x1 ![] bcast_S_S32x992x1),
    TRef.binary (TRef.of (T := ⟨S32x992x1, .i32⟩) main_v72) (TRef.of (T := ⟨S32x992x1, .i32⟩) main_call10_v2) (TRef.of (T := ⟨S32x992x1, .i32⟩) main_call10_v3) addi,
    TRef.ternary (TRef.of (T := ⟨S32x992x1, .i1⟩) main_call10_v1) (TRef.of (T := ⟨S32x992x1, .i32⟩) main_call10_v3) (TRef.of (T := ⟨S32x992x1, .i32⟩) main_v72) (TRef.of (T := ⟨S32x992x1, .i32⟩) main_call10_v4) select,
    TRef.reshape (TRef.of (T := ⟨S32x992x1, .i32⟩) main_call10_v4) (TRef.of (T := ⟨S32x992x1x1, .i32⟩) main_call10_v5) rfl shapeCasts_S32x992x1_S32x992x1x1,
    TRef.nullary (TRef.of (T := ⟨S1, .i32⟩) main_call10_c_1) (constantI S1 32 511#32),
    TRef.nullary (TRef.of (T := ⟨S_, .i32⟩) main_call10_c_2) (constantI S_ 32 0#32),
    TRef.unary (TRef.of (T := ⟨S_, .i32⟩) main_call10_c_2) (TRef.of (T := ⟨S32x992x1x1, .i32⟩) main_call10_v6) (broadcastInDim S32x992x1x1 ![] bcast_S_S32x992x1x1),
    TRef.binary (TRef.of (T := ⟨S32x992x1x1, .i32⟩) main_call10_v5) (TRef.of (T := ⟨S32x992x1x1, .i32⟩) main_call10_v6) (TRef.of (T := ⟨S32x992x1x1, .i1⟩) main_call10_v7) (cmpi .sge),
    TRef.unary (TRef.of (T := ⟨S1, .i32⟩) main_call10_c_1) (TRef.of (T := ⟨S1x1x1x1, .i32⟩) main_call10_v8) (broadcastInDim S1x1x1x1 ![3] bcast_S1_S1x1x1x1_3),
    TRef.unary (TRef.of (T := ⟨S1x1x1x1, .i32⟩) main_call10_v8) (TRef.of (T := ⟨S32x992x1x1, .i32⟩) main_call10_v9) (broadcastInDim S32x992x1x1 ![0, 1, 2, 3] bcast_S1x1x1x1_S32x992x1x1_0_1_2_3),
    TRef.binary (TRef.of (T := ⟨S32x992x1x1, .i32⟩) main_call10_v5) (TRef.of (T := ⟨S32x992x1x1, .i32⟩) main_call10_v9) (TRef.of (T := ⟨S32x992x1x1, .i1⟩) main_call10_v10) (cmpi .sle),
    TRef.binary (TRef.of (T := ⟨S32x992x1x1, .i1⟩) main_call10_v7) (TRef.of (T := ⟨S32x992x1x1, .i1⟩) main_call10_v10) (TRef.of (T := ⟨S32x992x1x1, .i1⟩) main_call10_v11) andi,
    TRef.nullary (TRef.of (T := ⟨S_, .i1⟩) main_call10_c_3) (constantI S_ 1 1#1),
    TRef.binary (TRef.of (T := ⟨S32x992x1x1, .i1⟩) main_call10_v11) (TRef.of (T := ⟨S_, .i1⟩) main_call10_c_3) (TRef.of (T := ⟨S32x992x1, .i1⟩) main_call10_v12) (fun x v => Host.reduce IntOp.andi x v reducesTo_S32x992x1x1_S32x992x1_d3 h_S_),
    TRef.binary (TRef.of (T := ⟨S32x992x512, .f32⟩) main_v1) (TRef.of (T := ⟨S32x992x1x1, .i32⟩) main_call10_v5) (TRef.of (T := ⟨S32x992x1, .f32⟩) main_call10_v13) (fun x i => Host.gather gather_S32x992x512_S32x992x1x1_S32x992x1_n_2_01_01_2_3_111 x i),
    TRef.nullary (TRef.of (T := ⟨S_, .f32⟩) main_call10_cst) (constant S_ .f32 0x7FC00000#32),
    TRef.unary (TRef.of (T := ⟨S_, .f32⟩) main_call10_cst) (TRef.of (T := ⟨S32x992x1, .f32⟩) main_call10_v14) (broadcastInDim S32x992x1 ![] bcast_S_S32x992x1),
    TRef.ternary (TRef.of (T := ⟨S32x992x1, .i1⟩) main_call10_v12) (TRef.of (T := ⟨S32x992x1, .f32⟩) main_call10_v13) (TRef.of (T := ⟨S32x992x1, .f32⟩) main_call10_v14) (TRef.of (T := ⟨S32x992x1, .f32⟩) main_v73) select,
    nullary main_cst_12 (constant S_ .f32 0x00000000#32),
    binary main_v73 main_cst_12 main_v74 ((fun x v => Host.reduceAdd x v reducesTo_S32x992x1_S_d0_1_2 h_S_) : (⟨S32x992x1, .f32⟩ : BufTy).Contents (Elt F) → (⟨S_, .f32⟩ : BufTy).Contents (Elt F) → (⟨S_, .f32⟩ : BufTy).Contents (Elt F)),
    nullary main_cst_13 (constant S_ .f32 0x46F80000#32),
    binary main_v74 main_cst_13 main_v75 (Host.divf : (⟨S_, .f32⟩ : BufTy).Contents (Elt F) → (⟨S_, .f32⟩ : BufTy).Contents (Elt F) → (⟨S_, .f32⟩ : BufTy).Contents (Elt F)),
    unary main_v75 main_v76 (Host.negf : (⟨S_, .f32⟩ : BufTy).Contents (Elt F) → (⟨S_, .f32⟩ : BufTy).Contents (Elt F)),
    nullary main_cst_14 (constant S_ .f32 0x3C23D70A#32),
    binary main_cst_14 main_v76 main_v77 (mulf : (⟨S_, .f32⟩ : BufTy).Contents (Elt F) → (⟨S_, .f32⟩ : BufTy).Contents (Elt F) → (⟨S_, .f32⟩ : BufTy).Contents (Elt F)),
    binary main_v71 main_v77 main_v78 (addf : (⟨S_, .f32⟩ : BufTy).Contents (Elt F) → (⟨S_, .f32⟩ : BufTy).Contents (Elt F) → (⟨S_, .f32⟩ : BufTy).Contents (Elt F)) ]

set_option maxHeartbeats 4000000 in
set_option maxRecDepth 8192 in
/-- The operations are the seven stretches in a row. -/
theorem ops_eq : ops (F := F) = ops1 ++ (ops2 ++ (ops3 ++ (ops4 ++ (ops5 ++ (ops6 ++ ops7))))) := rfl

/-- Before the first operation: what the buffers read from there on hold. -/
structure At0 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4

/-- At the cut before operation 50: what the buffers read from there on hold. -/
structure At1 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg0 : V (Proc.devRef .tc main_arg0) = x0
  arg1 : V (Proc.devRef .tc main_arg1) = x1
  arg3 : V (Proc.devRef .tc main_arg3) = x3
  arg4 : V (Proc.devRef .tc main_arg4) = x4
  v1 : V (Proc.devRef .tc main_v1) = val_main_v1 (F := F) x2
  v2 : V (Proc.devRef .tc main_v2) = val_main_v2 (F := F) x2
  v5 : V (Proc.devRef .tc main_v5) = val_main_v5 (F := F) x4
  v8 : V (Proc.devRef .tc main_v8) = val_main_v8 (F := F) x0 x4

/-- At the cut before operation 83: what the buffers read from there on hold. -/
structure At2 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg0 : V (Proc.devRef .tc main_arg0) = x0
  arg1 : V (Proc.devRef .tc main_arg1) = x1
  arg3 : V (Proc.devRef .tc main_arg3) = x3
  arg4 : V (Proc.devRef .tc main_arg4) = x4
  v1 : V (Proc.devRef .tc main_v1) = val_main_v1 (F := F) x2
  v2 : V (Proc.devRef .tc main_v2) = val_main_v2 (F := F) x2
  v5 : V (Proc.devRef .tc main_v5) = val_main_v5 (F := F) x4
  v18 : V (Proc.devRef .tc main_v18) = val_main_v18 (F := F) x0 x1 x2 x4

/-- At the cut before operation 129: what the buffers read from there on hold. -/
structure At3 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg0 : V (Proc.devRef .tc main_arg0) = x0
  arg1 : V (Proc.devRef .tc main_arg1) = x1
  arg3 : V (Proc.devRef .tc main_arg3) = x3
  arg4 : V (Proc.devRef .tc main_arg4) = x4
  v1 : V (Proc.devRef .tc main_v1) = val_main_v1 (F := F) x2
  v2 : V (Proc.devRef .tc main_v2) = val_main_v2 (F := F) x2
  v5 : V (Proc.devRef .tc main_v5) = val_main_v5 (F := F) x4
  v18 : V (Proc.devRef .tc main_v18) = val_main_v18 (F := F) x0 x1 x2 x4
  v20 : V (Proc.devRef .tc main_v20) = val_main_v20 (F := F) x0 x3
  v22 : V (Proc.devRef .tc main_v22) = val_main_v22 (F := F) x0 x3 x4

/-- At the cut before operation 168: what the buffers read from there on hold. -/
structure At4 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg1 : V (Proc.devRef .tc main_arg1) = x1
  arg3 : V (Proc.devRef .tc main_arg3) = x3
  arg4 : V (Proc.devRef .tc main_arg4) = x4
  v1 : V (Proc.devRef .tc main_v1) = val_main_v1 (F := F) x2
  v5 : V (Proc.devRef .tc main_v5) = val_main_v5 (F := F) x4
  v18 : V (Proc.devRef .tc main_v18) = val_main_v18 (F := F) x0 x1 x2 x4
  v20 : V (Proc.devRef .tc main_v20) = val_main_v20 (F := F) x0 x3
  v25 : V (Proc.devRef .tc main_v25) = val_main_v25 (F := F) x0 x3 x4
  v35 : V (Proc.devRef .tc main_v35) = val_main_v35 (F := F) x0 x2 x4
  v36 : V (Proc.devRef .tc main_v36) = val_main_v36 (F := F) x1
  v37 : V (Proc.devRef .tc main_v37) = val_main_v37 (F := F) x4

/-- At the cut before operation 216: what the buffers read from there on hold. -/
structure At5 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg1 : V (Proc.devRef .tc main_arg1) = x1
  arg3 : V (Proc.devRef .tc main_arg3) = x3
  arg4 : V (Proc.devRef .tc main_arg4) = x4
  v1 : V (Proc.devRef .tc main_v1) = val_main_v1 (F := F) x2
  v5 : V (Proc.devRef .tc main_v5) = val_main_v5 (F := F) x4
  v18 : V (Proc.devRef .tc main_v18) = val_main_v18 (F := F) x0 x1 x2 x4
  v20 : V (Proc.devRef .tc main_v20) = val_main_v20 (F := F) x0 x3
  v25 : V (Proc.devRef .tc main_v25) = val_main_v25 (F := F) x0 x3 x4
  v38 : V (Proc.devRef .tc main_v38) = val_main_v38 (F := F) x1 x4
  v45 : V (Proc.devRef .tc main_v45) = val_main_v45 (F := F) x0 x1 x2 x3 x4
  call8_v12 : V (Proc.devRef .tc main_call8_v12) = val_main_call8_v12 (F := F)
  call8_v13 : V (Proc.devRef .tc main_call8_v13) = val_main_call8_v13 (F := F)

/-- At the cut before operation 259: what the buffers read from there on hold. -/
structure At6 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  arg3 : V (Proc.devRef .tc main_arg3) = x3
  v1 : V (Proc.devRef .tc main_v1) = val_main_v1 (F := F) x2
  v18 : V (Proc.devRef .tc main_v18) = val_main_v18 (F := F) x0 x1 x2 x4
  v45 : V (Proc.devRef .tc main_v45) = val_main_v45 (F := F) x0 x1 x2 x3 x4
  v64 : V (Proc.devRef .tc main_v64) = val_main_v64 (F := F) x0 x1 x3 x4

/-- After the last operation: the result buffer holds the last stage. -/
structure At7 (V : Valuation τ sig (Elt F)) (x0 x1 : (⟨S32x512x512, .f32⟩ : BufTy).Contents (Elt F)) (x2 : (⟨S32x1024x512, .f32⟩ : BufTy).Contents (Elt F))
    (x3 x4 : (⟨S32x992, .i32⟩ : BufTy).Contents (Elt F)) : Prop where
  v78 : V (Proc.devRef .tc main_v78) = val_main_v78 (F := F) x0 x1 x2 x3 x4

end Cert.RefAfter

end
-- ==== Proof.RefAfter1.lean ====
/-
  Operations 0 to 49 of the reference program: the content rows' log-softmax and softmax, the perturbed tokens' mask, and the perturbed tokens' columns of q. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- A value carried to a buffer's own type and back is itself. -/
theorem step1_cast_cancel {α β : Type} (h1 : β = α) (h2 : α = β) (v : α) : cast h1 (cast h2 v) = v := by
  subst h2; rfl

/-- Reading or writing one of these buffers at the type its value has changes nothing (the buffer's type is that type). -/
theorem step1_ofBuf_v0 (v : (⟨S32x992x512, .f32⟩ : BufTy).Contents (Elt F)) (h1 h2 h3) :
    (TRef.of (sig := sig) (T := ⟨S32x992x512, .f32⟩) main_v0 h1 h2 h3).ofBuf v = v := rfl
theorem step1_toBuf_v1 (v : (⟨S32x992x512, .f32⟩ : BufTy).Contents (Elt F)) (h1 h2 h3) :
    (TRef.of (sig := sig) (T := ⟨S32x992x512, .f32⟩) main_v1 h1 h2 h3).toBuf v = v := rfl
theorem step1_toBuf_v3 (v : (⟨S32x992x512, .f32⟩ : BufTy).Contents (Elt F)) (h1 h2 h3) :
    (TRef.of (sig := sig) (T := ⟨S32x992x512, .f32⟩) main_v3 h1 h2 h3).toBuf v = v := rfl
theorem step1_ofBuf_arg4 (v : (⟨S32x992, .i32⟩ : BufTy).Contents (Elt F)) (h1 h2 h3) :
    (TRef.of (sig := sig) (T := ⟨S32x992, .i32⟩) main_arg4 h1 h2 h3).ofBuf v = v := rfl
theorem step1_ofBuf_v6 (v : (⟨S32x512x512, .f32⟩ : BufTy).Contents (Elt F)) (h1 h2 h3) :
    (TRef.of (sig := sig) (T := ⟨S32x512x512, .f32⟩) main_v6 h1 h2 h3).ofBuf v = v := rfl
theorem step1_ofBuf_v7 (v : (⟨S32x992x1, .i32⟩ : BufTy).Contents (Elt F)) (h1 h2 h3) :
    (TRef.of (sig := sig) (T := ⟨S32x992x1, .i32⟩) main_v7 h1 h2 h3).ofBuf v = v := rfl
theorem step1_toBuf_v8 (v : (⟨S32x992x512, .f32⟩ : BufTy).Contents (Elt F)) (h1 h2 h3) :
    (TRef.of (sig := sig) (T := ⟨S32x992x512, .f32⟩) main_v8 h1 h2 h3).toBuf v = v := rfl

/-- The log-softmax of the content rows. -/
theorem step1_v1 (V : Valuation τ sig (Elt F)) (x2 : (⟨S32x1024x512, .f32⟩ : BufTy).Contents (Elt F))
    (h2 : V (Proc.devRef .tc main_arg2) = x2) :
    after (ops1 (F := F)) V (Proc.devRef .tc main_v1) = val_main_v1 (F := F) x2 := by
  after_results_simp
  simp only [step1_cast_cancel]
  rw [step1_toBuf_v1]
  simp only [step1_ofBuf_v0]
  rw [h2]
  unfold val_main_v1 val_main_call0_v10 val_main_call0_v9 val_main_call0_v8 val_main_call0_v7 val_main_call0_v6
    val_main_call0_cst_1 val_main_call0_v5 val_main_call0_v4 val_main_call0_v3 val_main_call0_v2 val_main_call0_v1
    val_main_call0_cst_0 val_main_call0_v0 val_main_call0_cst val_main_v0
  with_reducible rfl

/-- The softmax of the content rows. -/
theorem step1_v2 (V : Valuation τ sig (Elt F)) (x2 : (⟨S32x1024x512, .f32⟩ : BufTy).Contents (Elt F))
    (h2 : V (Proc.devRef .tc main_arg2) = x2) :
    after (ops1 (F := F)) V (Proc.devRef .tc main_v2) = val_main_v2 (F := F) x2 := by
  after_results_simp
  simp only [step1_cast_cancel]
  rw [step1_toBuf_v1]
  simp only [step1_ofBuf_v0]
  rw [h2]
  unfold val_main_v2 val_main_v1 val_main_call0_v10 val_main_call0_v9 val_main_call0_v8 val_main_call0_v7 val_main_call0_v6
    val_main_call0_cst_1 val_main_call0_v5 val_main_call0_v4 val_main_call0_v3 val_main_call0_v2 val_main_call0_v1
    val_main_call0_cst_0 val_main_call0_v0 val_main_call0_cst val_main_v0
  with_reducible rfl

/-- The perturbed tokens' mask. -/
theorem step1_v5 (V : Valuation τ sig (Elt F)) (x4 : (⟨S32x992, .i32⟩ : BufTy).Contents (Elt F))
    (h4 : V (Proc.devRef .tc main_arg4) = x4) :
    after (ops1 (F := F)) V (Proc.devRef .tc main_v5) = val_main_v5 (F := F) x4 := by
  after_results_simp
  simp only [step1_cast_cancel]
  rw [step1_toBuf_v3]
  rw [h4]
  simp only [step1_ofBuf_arg4]
  unfold val_main_v5 val_main_v4 val_main_cst val_main_v3 val_main_call1_v4 val_main_call1_v3 val_main_call1_v2
    val_main_call1_v1 val_main_call1_v0
  with_reducible rfl

/-- The perturbed tokens' columns of q. -/
theorem step1_v8 (V : Valuation τ sig (Elt F)) (x0 : (⟨S32x512x512, .f32⟩ : BufTy).Contents (Elt F))
    (x4 : (⟨S32x992, .i32⟩ : BufTy).Contents (Elt F))
    (h0 : V (Proc.devRef .tc main_arg0) = x0) (h4 : V (Proc.devRef .tc main_arg4) = x4) :
    after (ops1 (F := F)) V (Proc.devRef .tc main_v8) = val_main_v8 (F := F) x0 x4 := by
  after_results_simp
  simp only [step1_cast_cancel]
  rw [step1_toBuf_v8]
  rw [h0, h4]
  simp only [step1_ofBuf_v6, step1_ofBuf_v7]
  unfold val_main_v8 val_main_call2_v14 val_main_call2_cst val_main_call2_v13 val_main_call2_v12 val_main_call2_v11
    val_main_call2_c_3 val_main_call2_v10 val_main_call2_v9 val_main_call2_v8 val_main_call2_v7 val_main_call2_v6
    val_main_call2_v5 val_main_call2_c_2 val_main_call2_c_1 val_main_call2_v4 val_main_call2_v3 val_main_call2_v2
    val_main_call2_c_0 val_main_call2_v1 val_main_call2_v0 val_main_call2_c val_main_v7 val_main_v6
  with_reducible rfl

/-- The first stretch takes the stages at its start to the stages at its end. -/
theorem step1 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At0 V x0 x1 x2 x3 x4) : At1 (after (ops1 (F := F)) V) x0 x1 x2 x3 x4 := by
  obtain ⟨h0, h1, h2, h3, h4⟩ := h
  refine ⟨?_, ?_, ?_, ?_, step1_v1 V x2 h2, step1_v2 V x2 h2, step1_v5 V x4 h4, step1_v8 V x0 x4 h0 h4⟩
  · after_results_simp; exact h0
  · after_results_simp; exact h1
  · after_results_simp; exact h3
  · after_results_simp; exact h4

end Cert.RefAfter

end
-- ==== Proof.RefAfter2.lean ====
/-
  Operations 50 to 82 of the reference program: the guarded column of q, the perturbed tokens' columns of the rate, the masked rate contracted with q over the state axis, the softmax over the guarded column, and the regularizer's sum for each batch element. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The second stretch takes the stages at its start to the stages at its end. -/
theorem step2 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At1 V x0 x1 x2 x3 x4) : At2 (after (ops2 (F := F)) V) x0 x1 x2 x3 x4 := by
  obtain ⟨h0, h1, h3, h4, hv1, hv2, hv5, hv8⟩ := h
  refine ⟨?_, ?_, ?_, ?_, ?_, ?_, ?_, ?_⟩
  -- the buffers the stretch does not write keep what they held
  · after_results_simp; exact h0
  · after_results_simp; exact h1
  · after_results_simp; exact h3
  · after_results_simp; exact h4
  · after_results_simp; exact hv1
  · after_results_simp; exact hv2
  · after_results_simp; exact hv5
  -- the regularizer's sum: the operations' functions over the buffers read from before the cut, which hold their stages
  · after_results_simp
    simp only [TRef.ofBuf, TRef.toBuf, cast_eq]
    rw [h0, h1, h4, hv2, hv5, hv8]
    simp only [val_main_v18, val_main_v17, val_main_cst_1, val_main_v16, val_main_v15, val_main_v14, val_main_v13, val_main_call3_v14, val_main_call3_cst, val_main_call3_v13, val_main_call3_v12, val_main_call3_v11, val_main_call3_c_3, val_main_call3_v10, val_main_call3_v9, val_main_call3_v8, val_main_call3_v7, val_main_call3_v6, val_main_call3_v5, val_main_call3_c_2, val_main_call3_c_1, val_main_call3_v4, val_main_call3_v3, val_main_call3_v2, val_main_call3_c_0, val_main_call3_v1, val_main_call3_v0, val_main_call3_c, val_main_v12, val_main_v11, val_main_v10, val_main_v9, val_main_cst_0]

end Cert.RefAfter

end
-- ==== Proof.RefAfter3.lean ====
/-
  Operations 83 to 128 of the reference program: the data tokens' rows of q, and their entries at the perturbed tokens. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The third stretch takes the stages at its start to the stages at its end. -/
theorem step3 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At2 V x0 x1 x2 x3 x4) : At3 (after (ops3 (F := F)) V) x0 x1 x2 x3 x4 := by
  obtain ⟨h_arg0, h_arg1, h_arg3, h_arg4, h_v1, h_v2, h_v5, h_v18⟩ := h
  refine ⟨?_, ?_, ?_, ?_, ?_, ?_, ?_, ?_, ?_, ?_⟩
  · after_results_simp; exact h_arg0
  · after_results_simp; exact h_arg1
  · after_results_simp; exact h_arg3
  · after_results_simp; exact h_arg4
  · after_results_simp; exact h_v1
  · after_results_simp; exact h_v2
  · after_results_simp; exact h_v5
  · after_results_simp; exact h_v18
  · after_results_simp
    try simp only [TRef.ofBuf, TRef.toBuf, cast_eq]
    rw [h_arg3, h_arg0]
    rfl
  · after_results_simp
    try simp only [TRef.ofBuf, TRef.toBuf, cast_eq]
    rw [h_arg4, h_arg3, h_arg0]
    rfl

end Cert.RefAfter

end
-- ==== Proof.RefAfter4.lean ====
/-
  Operations 129 to 167 of the reference program: the guarded entry, the softmax over the guarded column of q contracted with q, the logarithm of that plus the guard, and the transposed rate with the perturbed tokens as a column. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The fourth stretch takes the stages at its start to the stages at its end. -/
theorem step4 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At3 V x0 x1 x2 x3 x4) : At4 (after (ops4 (F := F)) V) x0 x1 x2 x3 x4 := by
  obtain ⟨h_arg0, h_arg1, h_arg3, h_arg4, h_v1, h_v2, h_v5, h_v18, h_v20, h_v22⟩ := h
  refine ⟨?_, ?_, ?_, ?_, ?_, ?_, ?_, ?_, ?_, ?_, ?_⟩
  · after_results_simp; exact h_arg1
  · after_results_simp; exact h_arg3
  · after_results_simp; exact h_arg4
  · after_results_simp; exact h_v1
  · after_results_simp; exact h_v5
  · after_results_simp; exact h_v18
  · after_results_simp; exact h_v20
  · after_results_simp
    try simp only [TRef.ofBuf, TRef.toBuf, cast_eq]
    rw [h_v22]
    rfl
  · after_results_simp
    try simp only [TRef.ofBuf, TRef.toBuf, cast_eq]
    rw [h_v2, h_arg4, h_arg0]
    rfl
  · after_results_simp
    try simp only [TRef.ofBuf, TRef.toBuf, cast_eq]
    rw [h_arg1]
    rfl
  · after_results_simp
    try simp only [TRef.ofBuf, TRef.toBuf, cast_eq]
    rw [h_arg4]
    rfl

end Cert.RefAfter

end
-- ==== Proof.RefAfter5.lean ====
/-
  Operations 168 to 215 of the reference program: the masked columns of the rate, the data rows over the guarded entry, the signal's sum for each batch element, and the two index columns of the rate's diagonal. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The fifth stretch takes the stages at its start to the stages at its end. -/
theorem step5 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At4 V x0 x1 x2 x3 x4) : At5 (after (ops5 (F := F)) V) x0 x1 x2 x3 x4 := by
  obtain ⟨h1, h3, h4, hv1, hv5, hv18, hv20, hv25, hv35, hv36, hv37⟩ := h
  refine ⟨?_, ?_, ?_, ?_, ?_, ?_, ?_, ?_, ?_, ?_, ?_, ?_⟩
  -- the buffers the stretch does not write keep their contents
  · after_results_simp
    exact h1
  · after_results_simp
    exact h3
  · after_results_simp
    exact h4
  · after_results_simp
    exact hv1
  · after_results_simp
    exact hv5
  · after_results_simp
    exact hv18
  · after_results_simp
    exact hv20
  · after_results_simp
    exact hv25
  -- the rate's columns at the perturbed tokens
  · after_results_simp
    rw [hv36, hv37]
    simp only [TRef.ofBuf, TRef.toBuf, cast_eq,
      val_main_call7_c, val_main_call7_v0, val_main_call7_v1, val_main_call7_c_0, val_main_call7_v2,
      val_main_call7_v3, val_main_call7_v4, val_main_call7_c_1, val_main_call7_c_2, val_main_call7_v5,
      val_main_call7_v6, val_main_call7_v7, val_main_call7_v8, val_main_call7_v9, val_main_call7_v10,
      val_main_call7_c_3, val_main_call7_v11, val_main_call7_v12, val_main_call7_v13, val_main_call7_cst,
      val_main_call7_v14, val_main_v38]
  -- the signal's sum for each batch element
  · after_results_simp
    rw [hv5, hv20, hv25, hv35, hv36, hv37]
    simp only [TRef.ofBuf, TRef.toBuf, cast_eq,
      val_main_call7_c, val_main_call7_v0, val_main_call7_v1, val_main_call7_c_0, val_main_call7_v2,
      val_main_call7_v3, val_main_call7_v4, val_main_call7_c_1, val_main_call7_c_2, val_main_call7_v5,
      val_main_call7_v6, val_main_call7_v7, val_main_call7_v8, val_main_call7_v9, val_main_call7_v10,
      val_main_call7_c_3, val_main_call7_v11, val_main_call7_v12, val_main_call7_v13, val_main_call7_cst,
      val_main_call7_v14, val_main_v38, val_main_v39, val_main_v40, val_main_v41, val_main_v42, val_main_v43,
      val_main_v44, val_main_cst_5, val_main_v45]
  -- the two index columns of the diagonal
  · after_results_simp
    simp only [TRef.ofBuf, TRef.toBuf, cast_eq,
      val_main_call8_v0, val_main_call8_c, val_main_call8_v2, val_main_call8_v3, val_main_call8_c_0,
      val_main_call8_v4, val_main_call8_v5, val_main_call8_v6, val_main_call8_v12]
  · after_results_simp
    simp only [TRef.ofBuf, TRef.toBuf, cast_eq,
      val_main_call8_v1, val_main_call8_c_1, val_main_call8_v7, val_main_call8_v8, val_main_call8_c_2,
      val_main_call8_v9, val_main_call8_v10, val_main_call8_v11, val_main_call8_v13]

end Cert.RefAfter

end
-- ==== Proof.RefAfter6.lean ====
/-
  Operations 216 to 258 of the reference program: minus the rate's diagonal, its entries at the perturbed tokens, the normalizer's denominator, and the normalizer's sum for each batch element. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The sixth stretch takes the stages at its start to the stages at its end. -/
theorem step6 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At5 V x0 x1 x2 x3 x4) : At6 (after (ops6 (F := F)) V) x0 x1 x2 x3 x4 := by
  obtain ⟨h1, h3, h4, hv1, hv5, hv18, hv20, hv25, hv38, hv45, hc12, hc13⟩ := h
  refine ⟨?_, ?_, ?_, ?_, ?_⟩
  · after_results_simp; exact h3
  · after_results_simp; exact hv1
  · after_results_simp; exact hv18
  · after_results_simp; exact hv45
  · after_results_simp
    simp only [TRef.ofBuf, TRef.toBuf, cast_eq]
    rw [hc12, hc13, hv38, hv20, hv5, hv25, h1, h4]
    rfl

end Cert.RefAfter

end
-- ==== Proof.RefAfter7.lean ====
/-
  Operations 259 to 300 of the reference program: the two means over the batch, the mean log-likelihood of the data tokens, and the result. From the buffers' stages at the cut before them
  to the stages at the cut after them.
-/
import proofs.«410255_j36412732735781_3_alg».proof.Proof.RefAfterCut

noncomputable section

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

namespace Cert.RefAfter

variable {F : FTy → Type} [FloatOps F]

/-- The seventh stretch takes the stages at its start to the stages at its end. -/
theorem step7 (V : Valuation τ sig (Elt F)) (x0 x1 : (⟨S32x512x512, .f32⟩ : BufTy).Contents (Elt F))
    (x2 : (⟨S32x1024x512, .f32⟩ : BufTy).Contents (Elt F)) (x3 x4 : (⟨S32x992, .i32⟩ : BufTy).Contents (Elt F))
    (h : At6 V x0 x1 x2 x3 x4) : At7 (after (ops7 (F := F)) V) x0 x1 x2 x3 x4 := by
  obtain ⟨h3, hv1, hv18, hv45, hv64⟩ := h
  refine ⟨?_⟩
  after_results_simp
  simp only [TRef.ofBuf, TRef.toBuf, cast_eq]
  rw [hv45, hv64, hv18, hv1, h3]
  rfl

end Cert.RefAfter

end
-- ==== Proof.RefAfter.lean ====
/-
  The reference program's 301 host operations, folded over the launch contents, leave in the result buffer the last
  stage's value of the five arguments: each operation writes its stage of the buffers written before it, so the fold
  is read a stretch of operations at a time.
-/
import proofs.«410255_j36412732735781_3_alg».proof.Proof.RefRead
import proofs.«410255_j36412732735781_3_alg».proof.Proof.RefRun
import proofs.«410255_j36412732735781_3_alg».proof.Proof.RefAfter1
import proofs.«410255_j36412732735781_3_alg».proof.Proof.RefAfter2
import proofs.«410255_j36412732735781_3_alg».proof.Proof.RefAfter3
import proofs.«410255_j36412732735781_3_alg».proof.Proof.RefAfter4
import proofs.«410255_j36412732735781_3_alg».proof.Proof.RefAfter5
import proofs.«410255_j36412732735781_3_alg».proof.Proof.RefAfter6
import proofs.«410255_j36412732735781_3_alg».proof.Proof.RefAfter7

noncomputable section

open Idealize.ShloMosaic Idealize.ShloMosaic.TcCoe Idealize.SL.Sem Idealize.ShloMosaic.StableHlo
open Cert.ReferenceIdeal Cert.ReferenceIdeal.Read Cert.ReferenceIdeal.Value

namespace Cert.RefAfter

variable {F : FTy → Type} [FloatOps F]

/-- The result buffer after all the operations is the last stage of the arguments as launched. -/
theorem after_v78 (m : (ℓ : Loc nD τ sig) → Buf (Elt F) ℓ) (c : Dev nD) :
    after (ops (F := F)) (launchContents m c) (Proc.devRef .tc main_v78)
      = val_main_v78 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have h0 : At0 (launchContents m c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
    ⟨rfl, rfl, rfl, rfl, rfl⟩
  have h7 := step7 _ _ _ _ _ _ (step6 _ _ _ _ _ _ (step5 _ _ _ _ _ _ (step4 _ _ _ _ _ _ (step3 _ _ _ _ _ _
    (step2 _ _ _ _ _ _ (step1 _ _ _ _ _ _ h0))))))
  rw [ops_eq, after_app, after_app, after_app, after_app, after_app, after_app]
  exact h7.v78

end Cert.RefAfter

end
-- ==== Proof.RefTie.lean ====
/-
  The reference program runs, ends with its result at the last stage's value of the launch contents, and leaves its
  arguments unchanged.
-/
import proofs.«410255_j36412732735781_3_alg».proof.Proof.RefRead
import proofs.«410255_j36412732735781_3_alg».proof.Proof.RefRun
import proofs.«410255_j36412732735781_3_alg».proof.Proof.RefAfter

noncomputable section

open Idealize.ShloMosaic Idealize.ShloMosaic.TcCoe Idealize.SL.Sem Idealize.ShloMosaic.StableHlo Cert.ReferenceIdeal Cert.ReferenceIdeal.Read Cert.ReferenceIdeal.Value

namespace Cert.RefTie

variable {F : FTy → Type} [FloatOps F]

set_option maxRecDepth 8192 in
set_option maxHeartbeats 120400000 in
/-- Each argument is read back through the 301 operations (none writes it); the result is the last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = val_main_v78 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v78).trans (Cert.RefAfter.after_v78 m c),
       (h c main_arg0).trans (by after_results_simp <;> rfl),
       (h c main_arg1).trans (by after_results_simp <;> rfl),
       (h c main_arg2).trans (by after_results_simp <;> rfl),
       (h c main_arg3).trans (by after_results_simp <;> rfl),
       (h c main_arg4).trans (by after_results_simp <;> rfl)⟩)
    (run_seq scopedRefs_eq scopedSems_eq defs main (fun _ => ops) main_eq (fun _ => ops_sub) m ρ)

end Cert.RefTie

end
-- ==== Proof.PreDecode.lean ====
/-
  What the precondition says, decoded: every entry of the three float arrays is a real number (its absolute value
  is below plus infinity), and every word of the two token arrays, read signed, is at least 0 and below 512, so it
  is a state in 0 .. 511.
-/
import proofs.«410255_j36412732735781_3_alg».proof.Proof.RBatch
import proofs.«410255_j36412732735781_3_alg».proof.Proof.Gen.Pre_finite_inputs
import Idealize.ShloMosaic.Lib.ReduceAll
import Idealize.ShloMosaic.Lib.StableHlo.Predicate

noncomputable section

open Idealize.ShloMosaic Idealize.ShloMosaic.ValueIdx Cert.RBatch

namespace Cert.PreDecode

/-- The result of a reduction over all axes has one index. -/
instance : Subsingleton Cert.Pre_finite_inputs.S_.Idx := ⟨fun a b => funext fun d => d.elim0⟩

/-- An extended real whose absolute value is below plus infinity is a real number: at either infinity the absolute
    value is plus infinity, which is not below itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- An array each of whose entries is a real number is a real array. -/
theorem isReal_of {S : Shape} (a : Vec Ideal S .f32) (hr : ∀ j, ∃ r : ℝ, a j = (r : EReal)) : IsReal a :=
  ⟨fun j => (hr j).choose, fun j => (hr j).choose_spec⟩

/-- A word that is, read signed, at least 0 and below 512 is below 512 read unsigned. -/
theorem toNat_lt_512 (w : BitVec 32) (h0 : IntOp.cmpi .sge w 0#32 = 1#1) (h1 : IntOp.cmpi .slt w 512#32 = 1#1) :
    w.toNat < 512 := by
  rw [IntOp.cmpi_sge] at h0
  rw [IntOp.cmpi_slt] at h1
  have e0 : (0#32 : BitVec 32).toInt = 0 := by decide
  have e512 : (512#32 : BitVec 32).toInt = 512 := by decide
  rw [e0] at h0
  rw [e512] at h1
  have hc := BitVec.toInt_eq_toNat_cond w
  have hl := w.isLt
  split at hc <;> omega

/-- A token array whose every word is in 0 .. 511 is an array of states. -/
theorem toks_of_lt (a : IVec A32x992 32) (hlt : ∀ (b : Fin 32) (i : Fin 992), (a (ix2 b i)).toNat < 512) :
    ∃ u : Fin 32 → Fin 992 → Fin 512, IsToks a u := by
  refine ⟨fun b i => ⟨(a (ix2 b i)).toNat, hlt b i⟩, fun b i => ?_⟩
  apply BitVec.eq_of_toNat_eq
  rw [BitVec.toNat_ofNat]
  exact (Nat.mod_eq_of_lt (a (ix2 b i)).isLt).symm

/-- The precondition's function answering all ones gives the domain facts the value proofs use. -/
theorem decode [Cert.Pre_finite_inputs.Facts]
    (a0 a1 : FVec Ideal Cert.Pre_finite_inputs.S32x512x512 .f32) (a2 : FVec Ideal Cert.Pre_finite_inputs.S32x1024x512 .f32)
    (a3 a4 : IVec Cert.Pre_finite_inputs.S32x992 32)
    (h : Cert.Pre_finite_inputs.fn (F := Ideal) a0 a1 a2 a3 a4 = fun _ => 1#1) :
    IsReal (S := A32x512x512) a0 ∧ IsReal (S := A32x512x512) a1 ∧ IsReal (S := A32x1024x512) a2
      ∧ (∃ d : Fin 32 → Fin 992 → Fin 512, IsToks a3 d) ∧ (∃ t : Fin 32 → Fin 992 → Fin 512, IsToks a4 t) := by
  have e := congrFun h ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  refine ⟨?_, ?_, ?_, ?_, ?_⟩
  · exact isReal_of a0 fun j => real_of_abs_lt_top (a0 j) (Host.reduce_andi_all _ _ _ _ _ h0 j)
  · exact isReal_of a1 fun j => real_of_abs_lt_top (a1 j) (Host.reduce_andi_all _ _ _ _ _ h1 j)
  · exact isReal_of a2 fun j => real_of_abs_lt_top (a2 j) (Host.reduce_andi_all _ _ _ _ _ h2 j)
  · refine toks_of_lt a3 fun b i => ?_
    obtain ⟨hge, hlt⟩ := IntOp.andi_eq_one.1 (Host.reduce_andi_all _ _ _ _ _ h3 (ix2 b i))
    exact toNat_lt_512 _ hge hlt
  · refine toks_of_lt a4 fun b i => ?_
    obtain ⟨hge, hlt⟩ := IntOp.andi_eq_one.1 (Host.reduce_andi_all _ _ _ _ _ h4 (ix2 b i))
    exact toNat_lt_512 _ hge hlt

end Cert.PreDecode

end
-- ==== Proof.lean ====
/-
  The certificate.  Under the precondition (the three float arrays hold real numbers; every data and perturbed token
  is a state in 0 .. 511) the kernel program and the reference compute, per batch element, the same four scalars —
  the regularizer, the signal, the normalizer and the log-likelihood of Proof/Spec.lean — and combine them by the
  same host arithmetic, so their results are one extended real.  The kernel gathers by contracting 0/1 indicator rows
  (zero times anything is zero there) against each matrix split as itself plus (itself minus itself), the second
  part zero on real entries; its clamp of the tokens is the identity on states in range, where the reference's
  gathers neither wrap nor fill.  The three frames are the generated ones (the reference's: its run with the result
  dropped), and each of the four removed bf16 round trips is the identity on the extended reals.
-/
import proofs.«410255_j36412732735781_3_alg».proof.Defs
import proofs.«410255_j36412732735781_3_alg».proof.Proof.Gen.Kernel
import proofs.«410255_j36412732735781_3_alg».proof.Proof.Gen.Kernel.Frame
import proofs.«410255_j36412732735781_3_alg».proof.Proof.Gen.KernelIdeal
import proofs.«410255_j36412732735781_3_alg».proof.Proof.Gen.KernelIdeal.Frame
import proofs.«410255_j36412732735781_3_alg».proof.Proof.Gen.ReferenceIdeal
import proofs.«410255_j36412732735781_3_alg».proof.Proof.Gen.Pre_finite_inputs
import proofs.«410255_j36412732735781_3_alg».proof.Proof.KValue
import proofs.«410255_j36412732735781_3_alg».proof.Proof.RSums
import proofs.«410255_j36412732735781_3_alg».proof.Proof.RefTie
import proofs.«410255_j36412732735781_3_alg».proof.Proof.PreDecode
import Idealize.ShloMosaic.Adequacy
import Idealize.ShloMosaic.Init

noncomputable section

namespace Cert.Proof

open Idealize.ShloMosaic Idealize.SL.Sem Cert.RBatch

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.RefTie.run (F := Ideal) m ρ)

/-- Each removed round trip through bf16 is the identity on the extended reals, and the rounding on words. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- Both programs end at the specification's result of the (agreeing) launch contents. -/
theorem algebraic : @Cert.algebraic_KernelIdeal_ReferenceIdeal Cert.KernelIdeal.Gen.facts Cert.ReferenceIdeal.Gen.facts Cert.Pre_finite_inputs.Gen.facts := by
  intro m ρ m' ρ' hpre hagree
  -- the precondition, decoded on every core: real entries, tokens in 0 .. 511
  have hdec := fun c => @Cert.PreDecode.decode Cert.Pre_finite_inputs.Gen.facts _ _ _ _ _ (hpre c)
  have hq := fun c => (hdec c).1
  have hr := fun c => (hdec c).2.1
  choose d hd using fun c => (hdec c).2.2.2.1
  choose t ht using fun c => (hdec c).2.2.2.2
  refine ⟨fun c _ => Spec.result (Cert.KArrays.regv m c (t c)) (Cert.KArrays.sigv m c (d c) (t c))
      (Cert.KArrays.normv m c (d c) (t c)) (Cert.KArrays.nllv m c (d c)),
    Cert.KValue.run m ρ d t hq hr hd ht, ?_⟩
  refine (θ_run Cert.ReferenceIdeal.defs _ _).mono (fun _ h c => ⟨(h c).1.trans ?_, (h c).2⟩)
    (Cert.RefTie.run (F := Ideal) m' ρ')
  -- the reference reads the same arrays; its last stage is the specification's result of them
  rw [(hagree c).1, (hagree c).2.1, (hagree c).2.2.1, (hagree c).2.2.2.1, (hagree c).2.2.2.2]
  funext j
  obtain rfl := Idealize.ShloMosaic.ValueIdx.eq_ix0 j
  exact Cert.RSums.result_eq _ _ _ _ _ (d c) (t c) (hd c) (ht c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
